-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8 : Shape := ⟨1, ![8]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S1024x1024 .f32) (main_arg9 : FVec F S1024 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg5 : FVec F S1024 .f32) (main_arg6 : FVec F S1024x1024 .f32) (main_arg7 : FVec F S1024 .f32) (main_arg8 : FVec F S1024x1024 .f32) (main_arg9 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_v33

def fn {F : FTy → Type} [FloatOps F] (main_arg0 : FVec F S8x2048x1024 .f32) (main_arg1 : IVec S8 32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_arg8 main_arg9 main_v13 main_v16
-- ==== Kernel.lean ====
abbrev S8x2048x1024 : Shape := ⟨3, ![8, 2048, 1024]⟩
abbrev S8 : Shape := ⟨1, ![8]⟩
abbrev S1024x1024 : Shape := ⟨2, ![1024, 1024]⟩
abbrev S1024 : Shape := ⟨1, ![1024]⟩
abbrev S1x1024 : Shape := ⟨2, ![1, 1024]⟩
abbrev S1x256x1024 : Shape := ⟨3, ![1, 256, 1024]⟩
abbrev S256x1024 : Shape := ⟨2, ![256, 1024]⟩
abbrev S8x1x1024 : Shape := ⟨3, ![8, 1, 1024]⟩
abbrev S1x2048x1024 : Shape := ⟨3, ![1, 2048, 1024]⟩
abbrev S1x1x1024 : Shape := ⟨3, ![1, 1, 1024]⟩
abbrev S2048x1024 : Shape := ⟨2, ![2048, 1024]⟩
abbrev S1024x2048 : Shape := ⟨2, ![1024, 2048]⟩
abbrev S256x2048 : Shape := ⟨2, ![256, 2048]⟩
abbrev S1 : Shape := ⟨1, ![1]⟩
abbrev S256 : Shape := ⟨1, ![256]⟩
abbrev S256x1 : Shape := ⟨2, ![256, 1]⟩
abbrev S8x1024 : Shape := ⟨2, ![8, 1024]⟩

abbrev nBuf : Space → Nat
  | .hbm => 23
  | .vmem => 24
  | .smem => 1
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8x2048x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S8x2048x1024, .bf16⟩
  | .hbm, ⟨19, _⟩ => ⟨S8x2048x1024, .bf16⟩
  | .hbm, ⟨20, _⟩ => ⟨S8x2048x1024, .bf16⟩
  | .hbm, ⟨21, _⟩ => ⟨S8x1x1024, .f32⟩
  | .hbm, ⟨22, _⟩ => ⟨S8x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1024x1024, .bf16⟩
  | .local _ .vmem, ⟨21, _⟩ => ⟨S1x1024, .f32⟩
  | .local _ .vmem, ⟨22, _⟩ => ⟨S1x1x1024, .f32⟩
  | .local _ .vmem, ⟨23, _⟩ => ⟨S1x1x1024, .f32⟩
  | .local _ .smem, ⟨0, _⟩ => ⟨S8, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v10 : Ref sig .tc := ⟨.hbm, 21, rfl⟩
abbrev main_v11 : Ref sig .tc := ⟨.hbm, 22, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![8, 8], ![false, false]⟩

abbrev pre1 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v14 : Index := Scalar.indexCast arg0
  ![v14.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bitsLt_bf16_f32 : FTy.bits .bf16 < FTy.bits .f32
  shapeCasts_S1024_S1x1024 : S1024.ShapeCasts S1x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  inb_S1x1x1024_S1x1x1024_0_0_0 : ∀ a, (![0, 0, 0] : Fin 3 → Nat) a + S1x1x1024.size a ≤ S1x1x1024.size a
  h_S1x1x1024 : 0 < S1x1x1024.numel
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  transposes_S2048x1024_p1_0_S1024x2048 : S2048x1024.Transposes [1, 0] S1024x2048
  iota_S256x2048_d1_w32 : S256x2048.Iotas .tc 32 [1]
  numel1_S1 : S1.numel = 1
  reduces_S256x2048_S256 : S256x2048.Reduces [1] S256
  shapeCasts_S256_S256x1 : S256.ShapeCasts S256x1
  broadcasts_S256x1_S256x2048 : S256x1.Broadcasts S256x2048
  reduces_S256x1024_S1024 : S256x1024.Reduces [0] S1024
  shapeCasts_S1x1x1024_S1x1x1024 : S1x1x1024.ShapeCasts S1x1x1024
  shapeCasts_S1x1024_S1x1x1024 : S1x1024.ShapeCasts S1x1x1024
  shapeCasts_S8x1x1024_S8x1024 : S8x1x1024.ShapeCasts S8x1024
  dot_S256x1024_S1024x1024_S256x1024_1_0_0_1_n_n_wf : DotDims.WF S256x1024 S1024x1024 S256x1024 [1] [0] [0] [1] [] []
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .bf16 = 32 ∨ (Rect.block (s := S8x2048x1024) S1x256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S8x2048x1024.size a
  hwx0_7 : ∀ i : grid0.Coords, EltTy.bits .bf16 = 32 ∨ (Rect.block (s := S8x2048x1024) S1x256x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x1024.size a ≤ S8x2048x1024.size a
  hwx0_8 : ∀ i : grid0.Coords, EltTy.bits .bf16 = 32 ∨ (Rect.block (s := S8x2048x1024) S1x256x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x1024.size a ≤ S8x2048x1024.size a
  hwx0_9 : ∀ i : grid0.Coords, EltTy.bits .bf16 = 32 ∨ (Rect.block (s := S8x2048x1024) S1x256x1024.size (cc0_transform_9 i) (hinb0_9 i)).WholeWords (EltTy.packing .bf16)
  hrank1 : 0 < grid1.rank
  k1_off1_inb : ∀ i : grid1.Coords, ∀ a, (k1_off1 i) a + S1.size a ≤ S8.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x2048x1024.size a
  hwx1_0 : ∀ i : grid1.Coords, EltTy.bits .bf16 = 32 ∨ (Rect.block (s := S8x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S8x2048x1024.size a
  hwx1_1 : ∀ i : grid1.Coords, EltTy.bits .bf16 = 32 ∨ (Rect.block (s := S8x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x1024.size a
  hwx1_2 : ∀ i : grid1.Coords, EltTy.bits .bf16 = 32 ∨ (Rect.block (s := S8x2048x1024) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x1024.size a ≤ S8x1x1024.size a
  hwx1_5 : ∀ i : grid1.Coords, EltTy.bits .f32 = 32 ∨ (Rect.block (s := S8x1x1024) S1x1x1024.size (cc1_transform_5 i) (hinb1_5 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S1x256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S1x256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_2) S1x256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev spec1_0 : Pipeline.WinSpec sig grid1.rank :=
  Pipeline.WinSpec.ofSpec (Memref.whole main_v9_0) S1x256x1024.size reads1_0 false false 2 stage1_0 sem1_0 nbuf1_0 hstage1_0

abbrev spec1_1 : Pipeline.WinSpec sig grid1.rank :=
  Pipeline.WinSpec.ofSpec (Memref.whole main_v9_1) S1x2048x1024.size reads1_1 false false 2 stage1_1 sem1_1 nbuf1_1 hstage1_1

abbrev spec1_2 : Pipeline.WinSpec sig grid1.rank :=
  Pipeline.WinSpec.ofSpec (Memref.whole main_v9_2) S1x2048x1024.size reads1_2 false false 2 stage1_2 sem1_2 nbuf1_2 hstage1_2

abbrev spec1_3 : Pipeline.WinSpec sig grid1.rank :=
  Pipeline.WinSpec.ofSpec (Memref.whole main_v4) S1024x1024.size reads1_3 false true 1 stage1_3 sem1_3 nbuf1_3 hstage1_3

abbrev spec1_4 : Pipeline.WinSpec sig grid1.rank :=
  Pipeline.WinSpec.ofSpec (Memref.whole main_v8) S1x1024.size reads1_4 false true 1 stage1_4 sem1_4 nbuf1_4 hstage1_4

abbrev spec1_5 : Pipeline.WinSpec sig grid1.rank :=
  Pipeline.WinSpec.ofSpec (Memref.whole main_v10) S1x1x1024.size reads1_5 true false 2 stage1_5 sem1_5 nbuf1_5 hstage1_5

abbrev spec1 : Fin 6 → Pipeline.WinSpec sig grid1.rank := fun | 0 => spec1_0 | 1 => spec1_1 | 2 => spec1_2 | 3 => spec1_3 | 4 => spec1_4 | 5 => spec1_5 | ⟨_ + 6, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | 5 => nbuf1_5 | ⟨_ + 6, h⟩ => absurd h (Nat.not_lt.2 (Nat.le_add_left _ _))
abbrev ix1 (pf : pre1.Contents (Elt F)) : (w : Fin 6) → grid1.Coords → Fin (spec1 w).shape.rank → Nat := fun | 0 => cc1_transform_0 | 1 => cc1_transform_1 | 2 => cc1_transform_2 | 3 => cc1_transform_3 | 4 => cc1_transform_4 | 5 => cc1_transform_5 | ⟨_ + 6, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | 3 => hreads1_3 | 4 => hreads1_4 | 5 => hreads1_5 | ⟨_ + 6, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | 3 => hinb1_3 | 4 => hinb1_4 | 5 => hinb1_5 | ⟨_ + 6, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | 3 => hwx1_3 | 4 => hwx1_4 | 5 => hwx1_5 | ⟨_ + 6, h⟩ => absurd h (Nat.not_lt.2 (Nat.le_add_left _ _))

class Facts : Prop extends Facts₀ where
  harr1 : ∀ w, (spec1 w).arr.IsWhole

variable [Facts]
-- ==== ReferenceIdeal.lean ====
abbrev S8x2048x1024 : Shape := ⟨3, ![8, 2048, 1024]⟩
abbrev S8 : Shape := ⟨1, ![8]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S8x1 : Shape := ⟨2, ![8, 1]⟩
abbrev S8x2048 : Shape := ⟨2, ![8, 2048]⟩
abbrev S8x1x2048 : Shape := ⟨3, ![8, 1, 2048]⟩
abbrev S8x2048x1 : Shape := ⟨3, ![8, 2048, 1]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8, .i32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S8x2048x1024, .f32⟩
  | .hbm, ⟨11, _⟩ => ⟨S1x1x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S1x1x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x2048, .f32⟩
  | .hbm, ⟨23, _⟩ => ⟨S_, .f32⟩
  | .hbm, ⟨24, _⟩ => ⟨S8x2048x2048, .f32⟩
  | .hbm, ⟨25, _⟩ => ⟨S8x2048x2048, .f32⟩
  | .hbm, ⟨26, _⟩ => ⟨S2048, .i32⟩
  | .hbm, ⟨27, _⟩ => ⟨S1x2048, .i32⟩
  | .hbm, ⟨28, _⟩ => ⟨S8x1, .i32⟩
  | .hbm, ⟨29, _⟩ => ⟨S8x2048, .i32⟩
  | .hbm, ⟨30, _⟩ => ⟨S8x2048, .i32⟩
  | .hbm, ⟨31, _⟩ => ⟨S8x2048, .i1⟩
  | .hbm, ⟨32, _⟩ => ⟨S8x1x2048, .i1⟩
  | .hbm, ⟨33, _⟩ => ⟨S_, .f32⟩
  | .hbm, ⟨34, _⟩ => ⟨S_, .f32⟩
  | .hbm, ⟨35, _⟩ => ⟨S8x2048x2048, .i1⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S_, .f32⟩
  | .hbm, ⟨41, _⟩ => ⟨S8x2048, .f32⟩
  | .hbm, ⟨42, _⟩ => ⟨S8x2048, .f32⟩
  | .hbm, ⟨43, _⟩ => ⟨S8x2048x1, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S8x2048x2048, .f32⟩
  | .hbm, ⟨51, _⟩ => ⟨S8x2048x2048, .f32⟩
  | .hbm, ⟨52, _⟩ => ⟨S8x2048x1024, .f32⟩
  | .hbm, ⟨53, _⟩ => ⟨S8x2048x1024, .f32⟩
  | .hbm, ⟨54, _⟩ => ⟨S1x1x1024, .f32⟩
  | .hbm, ⟨55, _⟩ => ⟨S8x2048x1024, .f32⟩
  | .hbm, ⟨56, _⟩ => ⟨S8x2048x1024, .f32⟩
  | .hbm, ⟨57, _⟩ => ⟨S_, .f32⟩
  | .hbm, ⟨58, _⟩ => ⟨S8x1024, .f32⟩
  | .hbm, ⟨59, _⟩ => ⟨S_, .f32⟩
  | .hbm, ⟨60, _⟩ => ⟨S8x1024, .f32⟩
  | .hbm, ⟨61, _⟩ => ⟨S8x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  bcast_S2048_S1x2048_1 : S2048.BroadcastsInDim S1x2048 (![1] : Fin 1 → Fin S1x2048.rank)
  bcast_S8_S8x1_0 : S8.BroadcastsInDim S8x1 (![0] : Fin 1 → Fin S8x1.rank)
  bcast_S1x2048_S8x2048_0_1 : S1x2048.BroadcastsInDim S8x2048 (![0, 1] : Fin 2 → Fin S8x2048.rank)
  bcast_S8x1_S8x2048_0_1 : S8x1.BroadcastsInDim S8x2048 (![0, 1] : Fin 2 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  reducesTo_S8x2048x1024_S8x1024_d1 : S8x2048x1024.ReducesTo [1] S8x1024
  bcast_S_S8x1024 : S_.BroadcastsInDim S8x1024 (![] : Fin 0 → Fin S8x1024.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Launch.lean ====
/-
  The run of the whole program from the two kernel regions' halves.

  @main is: nine host operations (the bf16 casts of x and the four weights, the biases reshaped to [1, 1024]), the
  projection kernel's region, the attention kernel's region, one host reshape. Between two items a core holds every
  unscoped buffer at a valuation: the launch memory, then the host operations applied, then the projection region's
  three result arrays at what its write-backs leave, then the attention region's result array likewise, then the
  reshape. Each region is entered from the valuation before it; its arrays are split out of the buffers held, the
  lengths table (the attention kernel's prefetched table) goes into that region's invariant whole and comes back, and
  the arrays are put back at the valuation after it. The program's frame and its result's value are both read off
  the last valuation.
-/
import proofs.«422647_j35725537968569_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A core's buffer contents when a region is entered, read at the TensorCore's references. -/
abbrev EntryV (F : FTy → Type) [FloatOps F] : Type :=
  (c : Dev nD) → (b : Ref sig .tc) → Buf (Elt F) ((c : Thread nD τ).loc b)

/-- The lengths table's contents under entry contents `V` (there is one device). -/
def tblOf (V : EntryV F) : pre1.Contents (Elt F) := fun j => V (0 : Dev nD) (pre1.ref j)
/-- They are admissible: the index maps read no table, so the pipeline asks nothing of them. -/
abbrev admOf (V : EntryV F) : (pcfg1 (F := F)).Adm := ⟨tblOf V, trivial⟩

/-- What the projection region's half supplies at entry contents `V`: proof data whose arrays are `V`'s, whose
    invariant is the scoped rest and the generator register, lending whole shares and owing nothing, and the body
    obligation at every point. -/
structure Half0 (V : EntryV F) where
  dat : (c : Dev nD) → Dat τ (Elt F) Unit ℕ (UR sig nD τ) ℕ cfg0 c
  hA : ∀ c w, (dat c).A w = V c (Pipeline.arrRef spec0 w)
  hΦ : ∀ c n, (dat c).Φ n = Pipeline.ΦA spec0 c
  hshare : ∀ c w, (dat c).share w = fullShare
  howed : ∀ c t, (dat c).owed t = 0
  hrec : ∀ c n, (dat c).recorded n = Set.univ
  hbody : ∀ c, BodyObligation (dat c) (defs₀ (F := F)) Variants.none () Set.univ

/-- The attention region's half: the same, over the pipeline at the table's contents, its invariant also holding the
    table whole. -/
structure Half1 (V : EntryV F) where
  dat : (c : Dev nD) → Dat τ (Elt F) Unit ℕ (UR sig nD τ) ℕ (cfg1 (admOf V)) c
  hA : ∀ c w, (dat c).A w = V c (Pipeline.arrRef spec1 w)
  hΦ : ∀ c n, (dat c).Φ n = iprop(Pipeline.ΦA spec1 c ∗ Pipeline.prefHeld (Ix := Unit) (Name := ℕ) (U := UR sig nD τ) (Lvl := ℕ) pre1 c (fun _ => fullShare) (tblOf V))
  hshare : ∀ c w, (dat c).share w = fullShare
  howed : ∀ c t, (dat c).owed t = 0
  hrec : ∀ c n, (dat c).recorded n = Set.univ
  hbody : ∀ c, BodyObligation (dat c) (defs₀ (F := F)) Variants.none () Set.univ

variable (m : (ℓ : Loc nD τ sig) → Buf (Elt F) ℓ)
variable (H0 : ∀ V : EntryV F, Half0 V) (H1 : ∀ V : EntryV F, Half1 V)

/-! ## The valuations between items -/

/-- Entering the projection region: the launch memory with the nine host operations applied. -/
abbrev E1 : EntryV F := fun c b => Gen.V1 m c b
/-- Leaving it: its arrays at what its write-backs leave, every other buffer as entered. -/
def W2 (c : Dev nD) : Valuation τ sig (Elt F) :=
  Pipeline.withArrays spec0 c (Gen.V1 m c) fun w => ((H0 (E1 m)).dat c).arrAt w cfg0.N
/-- The unknowns of the generated valuations, for the projection region's results. -/
def outsA : Gen.Outs (F := F) := fun _ r c => W2 m H0 c (Proc.devRef .tc r)
/-- Entering the attention region. -/
abbrev E2 : EntryV F := fun c b => Gen.V2 m (outsA m H0) c b
/-- Leaving it. -/
def W3 (c : Dev nD) : Valuation τ sig (Elt F) :=
  Pipeline.withArrays spec1 c (Gen.V2 m (outsA m H0) c) fun w => ((H1 (E2 m H0)).dat c).arrAt w (cfg1 (admOf (E2 m H0))).N
/-- The unknowns, for both regions: the projection region's results after item 1, the attention region's after item 2. -/
def outs : Gen.Outs (F := F) := fun J r c => match J with
  | 2 => W2 m H0 c (Proc.devRef .tc r)
  | _ => W3 m H0 H1 c (Proc.devRef .tc r)
theorem V2_outs (c : Dev nD) : Gen.V2 m (outs m H0 H1) c = Gen.V2 m (outsA m H0) c := rfl
/-- After the attention region. -/
abbrev E3 : EntryV F := fun c b => Gen.V3 m (outs m H0 H1) c b

/-! ## The proof data family and what rides along -/

/-- The tables' admissible contents: the projection pipeline has none; the attention pipeline's are read off the
    contents it is entered from. -/
abbrev adm : (p : Fin 2) → (pcfgs (F := F) p).Adm
  | ⟨0, _⟩ => cfg0.toPCfg_adm
  | ⟨1, _⟩ => admOf (E2 m H0)

/-- Both pipelines' proof data, each at its region's entry contents: a literal match, so that the pinned
    configuration at a numeral reduces to the printed one. -/
def pdats : (p : Fin 2) → (c : Dev nD) → Dat τ (Elt F) Unit ℕ (UR sig nD τ) ℕ (Pipeline.pin (pcfgs (F := F)) (adm m H0) p) c
  | ⟨0, _⟩ => fun c => (H0 (E1 m)).dat c
  | ⟨1, _⟩ => fun c => (H1 (E2 m H0)).dat c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)

/-! ## The projection region's exit contents -/

theorem W2_arr (c : Dev nD) (w : Fin cfg0.W) :
    W2 m H0 c (Proc.devRef .tc (Pipeline.arrRef spec0 w)) = ((H0 (E1 m)).dat c).arrAt w cfg0.N := by
  unfold W2; exact Pipeline.withArrays_arr spec0 (launch0 (F := F)).win.arr_inj c _ _ w

/-- The valuation after the projection region, read at its three result arrays. -/
theorem E2_v9_0 (c : Dev nD) : E2 m H0 c main_v9_0 = W2 m H0 c (Proc.devRef .tc main_v9_0) := by
  show Function.update (Function.update (Function.update (Gen.V1 m c) main_v9_0 _) main_v9_1 _) main_v9_2 _ (Proc.devRef .tc main_v9_0) = _
  rw [Function.update_of_ne (StableHlo.devRef_ne_of_ne (by decide)), Function.update_of_ne (StableHlo.devRef_ne_of_ne (by decide)), Function.update_self]
  rfl
theorem E2_v9_1 (c : Dev nD) : E2 m H0 c main_v9_1 = W2 m H0 c (Proc.devRef .tc main_v9_1) := by
  show Function.update (Function.update (Function.update (Gen.V1 m c) main_v9_0 _) main_v9_1 _) main_v9_2 _ (Proc.devRef .tc main_v9_1) = _
  rw [Function.update_of_ne (StableHlo.devRef_ne_of_ne (by decide)), Function.update_self]
  rfl
theorem E2_v9_2 (c : Dev nD) : E2 m H0 c main_v9_2 = W2 m H0 c (Proc.devRef .tc main_v9_2) := by
  show Function.update (Function.update (Function.update (Gen.V1 m c) main_v9_0 _) main_v9_1 _) main_v9_2 _ (Proc.devRef .tc main_v9_2) = _
  rw [Function.update_self]
  rfl

/-- Each array of the projection region holds, in the valuation after it, what the pipeline leaves: an input's is
    never written, a result's is the unknown chosen so. -/
theorem hF0 (c : Dev nD) : ∀ w : Fin cfg0.W, ((H0 (E1 m)).dat c).arrAt w cfg0.N = E2 m H0 c (Pipeline.arrRef spec0 w)
  | ⟨0, _⟩ => (((H0 (E1 m)).dat c).arrAt_in 0 rfl _).trans (((H0 (E1 m)).hA c 0).trans (Gen.V2_of m (outsA m H0) c main_v0 (by decide)).symm)
  | ⟨1, _⟩ => (((H0 (E1 m)).dat c).arrAt_in 1 rfl _).trans (((H0 (E1 m)).hA c 1).trans (Gen.V2_of m (outsA m H0) c main_v1 (by decide)).symm)
  | ⟨2, _⟩ => (((H0 (E1 m)).dat c).arrAt_in 2 rfl _).trans (((H0 (E1 m)).hA c 2).trans (Gen.V2_of m (outsA m H0) c main_v5 (by decide)).symm)
  | ⟨3, _⟩ => (((H0 (E1 m)).dat c).arrAt_in 3 rfl _).trans (((H0 (E1 m)).hA c 3).trans (Gen.V2_of m (outsA m H0) c main_v2 (by decide)).symm)
  | ⟨4, _⟩ => (((H0 (E1 m)).dat c).arrAt_in 4 rfl _).trans (((H0 (E1 m)).hA c 4).trans (Gen.V2_of m (outsA m H0) c main_v6 (by decide)).symm)
  | ⟨5, _⟩ => (((H0 (E1 m)).dat c).arrAt_in 5 rfl _).trans (((H0 (E1 m)).hA c 5).trans (Gen.V2_of m (outsA m H0) c main_v3 (by decide)).symm)
  | ⟨6, _⟩ => (((H0 (E1 m)).dat c).arrAt_in 6 rfl _).trans (((H0 (E1 m)).hA c 6).trans (Gen.V2_of m (outsA m H0) c main_v7 (by decide)).symm)
  | ⟨7, _⟩ => (W2_arr m H0 c 7).symm.trans (E2_v9_0 m H0 c).symm
  | ⟨8, _⟩ => (W2_arr m H0 c 8).symm.trans (E2_v9_1 m H0 c).symm
  | ⟨9, _⟩ => (W2_arr m H0 c 9).symm.trans (E2_v9_2 m H0 c).symm

/-- Off the projection region's arrays nothing changed. -/
theorem hrest0 (c : Dev nD) : ∀ b, b ∉ Finset.univ.image (Pipeline.arrRef spec0) → E2 m H0 c b = E1 m c b :=
  fun b hb => Gen.V2_of m (outsA m H0) c b fun hmem => hb (by
    rcases List.mem_cons.mp hmem with rfl | hmem
    · exact Finset.mem_image.mpr ⟨7, Finset.mem_univ _, rfl⟩
    rcases List.mem_cons.mp hmem with rfl | hmem
    · exact Finset.mem_image.mpr ⟨8, Finset.mem_univ _, rfl⟩
    rcases List.mem_cons.mp hmem with rfl | hmem
    · exact Finset.mem_image.mpr ⟨9, Finset.mem_univ _, rfl⟩
    · exact absurd hmem (List.not_mem_nil))

/-! ## The projection region as a segment -/

set_option backward.isDefEq.respectTransparency.types false in
/-- Entered from every unscoped buffer at the contents after the host operations, left at those contents with its
    three result arrays at what the pipeline leaves. Its arrays are split out of the buffers held and put back;
    the generator register goes into the invariant and out; nothing is owed; the kernel has no semaphore of its own. -/
def reg0 : Pipeline.RegionSeg (pcfgs (F := F)) (adm m H0) (pdats m H0 H1) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := ((H0 (E1 m)).hbody c).loose
  hwaits := Pipeline.hwaits_of_owed_zero _ _ _ _ L lv 0 fun c t => (H0 (E1 m)).howed c t
  pre c := iprop(StableHlo.held (c : Thread nD τ) (Pipeline.ucRefs τ sig) (Gen.V1 m c) ∗ Rst c)
  post c := iprop(StableHlo.held (c : Thread nD τ) (Pipeline.ucRefs τ sig) (Gen.V2 m (outsA m H0) c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) (adm m H0) (pdats m H0 H1) (launch0 (F := F)).win (launch0 (F := F)).arr_whole c
      ((H0 (E1 m)).hshare c) (E1 m c) ((H0 (E1 m)).hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m H0 H1 0 c).owed 0 = 0 from (H0 (E1 m)).howed c 0]
      icases HO with ⟨%W, HO⟩; iexists W; isplitr; · ipureintro; exact fun _ _ => Or.inl ((H0 (E1 m)).hrec c 0 ▸ Set.mem_univ _)
      iexact HO
    isplitl [Hp]; · iexact Hp
    iexact Hrest
  hin c := by
    rw [show (pdats m H0 H1 0 c).Φ 0 = Pipeline.ΦA spec0 c from (H0 (E1 m)).hΦ c 0]; unfold Pipeline.ΦA
    iintro ⟨Hp, -, Hr⟩
    isplitl [Hr]; · iexact Hr
    iexact Hp
  hout c := by
    rw [Pipeline.ownSems0_none, show (pdats m H0 H1 0 c).Φ (Fin.last _) = Pipeline.ΦA spec0 c from (H0 (E1 m)).hΦ c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m H0) (Ix := Unit) (Name := ℕ) (U := UR sig nD τ) (Lvl := ℕ)
      (launch0 (F := F)).win (launch0 (F := F)).arr_whole c (pdats m H0 H1) ((H0 (E1 m)).hshare c)
      (E1 m c) (E2 m H0 c) ((pdats m H0 H1 0 c).arrAt · cfg0.N) (hF0 m H0 c) (hrest0 m H0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m H0 H1 0 c).owed (Fin.last _) = 0 from (H0 (E1 m)).howed c _]
    icases HO with ⟨%W, -, HO⟩; iexists W; iexact HO

/-! ## The attention region's exit contents -/

theorem W3_arr (c : Dev nD) (w : Fin (cfg1 (admOf (E2 m H0))).W) :
    W3 m H0 H1 c (Proc.devRef .tc (Pipeline.arrRef spec1 w)) = ((H1 (E2 m H0)).dat c).arrAt w (cfg1 (admOf (E2 m H0))).N := by
  unfold W3; exact Pipeline.withArrays_arr spec1 (launch1 (F := F)).win.arr_inj c _ _ w

/-- The valuation after the attention region, read at its result array. -/
theorem E3_v10 (c : Dev nD) : E3 m H0 H1 c main_v10 = W3 m H0 H1 c (Proc.devRef .tc main_v10) := by
  show Function.update (Gen.V2 m (outs m H0 H1) c) main_v10 _ (Proc.devRef .tc main_v10) = _
  rw [Function.update_self]
  rfl

/-- Off its result array the valuation after the attention region is the one before it. -/
theorem E3_of (c : Dev nD) (r : Ref sig .tc) (h : r ∉ ([main_v10] : List (Ref sig .tc))) : E3 m H0 H1 c r = E2 m H0 c r :=
  Gen.V3_of m (outs m H0 H1) c r h

/-- Each array of the attention region holds, in the valuation after it, what the pipeline leaves. -/
theorem hF1 (c : Dev nD) : ∀ w : Fin (cfg1 (admOf (E2 m H0))).W,
    ((H1 (E2 m H0)).dat c).arrAt w (cfg1 (admOf (E2 m H0))).N = E3 m H0 H1 c (Pipeline.arrRef spec1 w)
  | ⟨0, _⟩ => (((H1 (E2 m H0)).dat c).arrAt_in 0 rfl _).trans (((H1 (E2 m H0)).hA c 0).trans (E3_of m H0 H1 c main_v9_0 (by decide)).symm)
  | ⟨1, _⟩ => (((H1 (E2 m H0)).dat c).arrAt_in 1 rfl _).trans (((H1 (E2 m H0)).hA c 1).trans (E3_of m H0 H1 c main_v9_1 (by decide)).symm)
  | ⟨2, _⟩ => (((H1 (E2 m H0)).dat c).arrAt_in 2 rfl _).trans (((H1 (E2 m H0)).hA c 2).trans (E3_of m H0 H1 c main_v9_2 (by decide)).symm)
  | ⟨3, _⟩ => (((H1 (E2 m H0)).dat c).arrAt_in 3 rfl _).trans (((H1 (E2 m H0)).hA c 3).trans (E3_of m H0 H1 c main_v4 (by decide)).symm)
  | ⟨4, _⟩ => (((H1 (E2 m H0)).dat c).arrAt_in 4 rfl _).trans (((H1 (E2 m H0)).hA c 4).trans (E3_of m H0 H1 c main_v8 (by decide)).symm)
  | ⟨5, _⟩ => (W3_arr m H0 H1 c 5).symm.trans (E3_v10 m H0 H1 c).symm

theorem hrest1 (c : Dev nD) : ∀ b, b ∉ Finset.univ.image (Pipeline.arrRef spec1) → E3 m H0 H1 c b = E2 m H0 c b :=
  fun b hb => E3_of m H0 H1 c b fun hmem => hb (by
    rcases List.mem_cons.mp hmem with rfl | hmem
    · exact Finset.mem_image.mpr ⟨5, Finset.mem_univ _, rfl⟩
    · exact absurd hmem (List.not_mem_nil))

/-! ## The attention region as a segment -/

set_option backward.isDefEq.respectTransparency.types false in
/-- Entered from the contents the projection region left, left with its result array at what the pipeline leaves.
    Besides the arrays, the lengths table is split out of the buffers held and enters the invariant whole; it comes
    back with the generator register and rejoins the other buffers at the exit. -/
def reg1 : Pipeline.RegionSeg (pcfgs (F := F)) (adm m H0) (pdats m H0 H1) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := ((H1 (E2 m H0)).hbody c).loose
  hwaits := Pipeline.hwaits_of_owed_zero _ _ _ _ L lv 1 fun c t => (H1 (E2 m H0)).howed c t
  pre c := iprop(StableHlo.held (c : Thread nD τ) (Pipeline.ucRefs τ sig) (Gen.V2 m (outsA m H0) c) ∗ Rst c)
  post c := iprop(StableHlo.held (c : Thread nD τ) (Pipeline.ucRefs τ sig) (Gen.V3 m (outs m H0 H1) c) ∗ Rst c)
  X c := iprop(∃ r, prngReg c r)
  Y c := iprop((∃ r, prngReg c r) ∗ Pipeline.prefHeld (Ix := Unit) (Name := ℕ) (U := UR sig nD τ) (Lvl := ℕ) pre1 c (fun _ => fullShare) (tblOf (E2 m H0)))
  Z c := Pipeline.unscopedRestP (Ix := Unit) (Name := ℕ) (U := UR sig nD τ) (Lvl := ℕ) pre1 spec1 c (E2 m H0 c)
  hentry c := by
    rw [Pipeline.ownSems0_none]
    have hsplit := Pipeline.arrays_of_unscopedBufs (p := 1) (pcfgs (F := F)) (adm m H0) (pdats m H0 H1) (launch1 (F := F)).win (launch1 (F := F)).arr_whole c
      ((H1 (E2 m H0)).hshare c) (E2 m H0 c) ((H1 (E2 m H0)).hA c)
    have hs : (Pipeline.unscopedRest (Ix := Unit) (Name := ℕ) (U := UR sig nD τ) (Lvl := ℕ) (Pipeline.pin (pcfgs (F := F)) (adm m H0) 1).spec c (E2 m H0 c) : sProp 𝕄)
        = iprop(Pipeline.prefHeld pre1 c (fun _ => fullShare) (fun k => E2 m H0 c (pre1.ref k)) ∗ Pipeline.unscopedRestP pre1 spec1 c (E2 m H0 c)) :=
      Pipeline.unscopedRest_split preFacts1 c (E2 m H0 c)
    rw [Pipeline.unscopedBufs_held, hs] at hsplit
    obtain rfl : c = 0 := Subsingleton.elim _ _
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      rw [show (pdats m H0 H1 1 (0 : Dev nD)).owed 0 = 0 from (H1 (E2 m H0)).howed 0 0]
      icases HO with ⟨%W, HO⟩; iexists W; isplitr; · ipureintro; exact fun _ _ => Or.inl ((H1 (E2 m H0)).hrec 0 0 ▸ Set.mem_univ _)
      iexact HO
    isplitl [Hp]; · iexact Hp
    iexact Hrest
  hin c := by
    rw [show (pdats m H0 H1 1 c).Φ 0 = _ from (H1 (E2 m H0)).hΦ c 0]; unfold Pipeline.ΦA
    iintro ⟨Hp, Ht, Hr⟩
    isplitr [Ht]
    · isplitl [Hr]; · iexact Hr
      iexact Hp
    iexact Ht
  hout c := by
    rw [Pipeline.ownSems0_none, show (pdats m H0 H1 1 c).Φ (Fin.last _) = _ from (H1 (E2 m H0)).hΦ c _]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m H0) (Ix := Unit) (Name := ℕ) (U := UR sig nD τ) (Lvl := ℕ)
      (launch1 (F := F)).win (launch1 (F := F)).arr_whole c (pdats m H0 H1) ((H1 (E2 m H0)).hshare c)
      (E2 m H0 c) (E3 m H0 H1 c) ((pdats m H0 H1 1 c).arrAt · (cfg1 (admOf (E2 m H0))).N) (hF1 m H0 H1 c) (hrest1 m H0 H1 c)
    have hs : (Pipeline.unscopedRest (Ix := Unit) (Name := ℕ) (U := UR sig nD τ) (Lvl := ℕ) (Pipeline.pin (pcfgs (F := F)) (adm m H0) 1).spec c (E2 m H0 c) : sProp 𝕄)
        = iprop(Pipeline.prefHeld pre1 c (fun _ => fullShare) (fun k => E2 m H0 c (pre1.ref k)) ∗ Pipeline.unscopedRestP pre1 spec1 c (E2 m H0 c)) :=
      Pipeline.unscopedRest_split preFacts1 c (E2 m H0 c)
    rw [Pipeline.unscopedBufs_held, hs] at hjoin
    obtain rfl : c = 0 := Subsingleton.elim _ _
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    rw [show (pdats m H0 H1 1 (0 : Dev nD)).owed (Fin.last _) = 0 from (H1 (E2 m H0)).howed 0 _]
    icases HO with ⟨%W, -, HO⟩; iexists W; iexact HO

/-! ## The run -/

/-- What rides along ends owing nothing. -/
theorem Rst_owes (c : Dev nD) :
    (Rst (F := F) c) ⊢ (iprop(∃ W, owes (c : Thread nD τ) (0 : CellTallies nD τ sig Unit) W) : sProp 𝕄) := by
  iintro ⟨-, H⟩; iexact H

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates, and every final memory holds
    each unscoped buffer at the last valuation: the launch memory, the host operations, each region's arrays at what
    its pipeline leaves, the closing reshape. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V4 m (outs m H0 H1) c b) := by
  refine Pipeline.θ_run_regions_kit_dev (pcfgs (F := F)) (adm m H0) (pdats m H0 H1) () (cellOf_inj (adm m H0)) emb₁ defs₀ 𝒱₀ L lv m ρ main
    (Gen.segs m (outs m H0 H1) 𝒱₀ L lv (fun _ => Rst) () (adm m H0) (pdats m H0 H1) (reg0 m H0 H1) (reg1 m H0 H1))
    (fun c Q => by
      rewrite [main_chain c, Pipeline.Seg.run_eq_chain,
        show (Gen.segs m (outs m H0 H1) 𝒱₀ L lv (fun _ => Rst) () (adm m H0) (pdats m H0 H1) (reg0 m H0 H1) (reg1 m H0 H1) c).map Pipeline.Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m H0)) (cellOf_inj (adm m H0))) (Pipeline.launchToks (Pipeline.pin (pcfgs (F := F)) (adm m H0)) (cellOf_inj (adm m H0))))
    (hu₀ := by
      iintro Hu; imodintro
      isplitl [Hu]
      · iapply (show (ownU (initOf (Pipeline.cells (Pipeline.pin (pcfgs (F := F)) (adm m H0)) (cellOf_inj (adm m H0))) (Pipeline.launchToks (Pipeline.pin (pcfgs (F := F)) (adm m H0)) (cellOf_inj (adm m H0)))) : sProp 𝕄)
            ⊢ BI.own (emb₁ (initOf (Pipeline.cells (Pipeline.pin (pcfgs (F := F)) (adm m H0)) (cellOf_inj (adm m H0))) (Pipeline.launchToks (Pipeline.pin (pcfgs (F := F)) (adm m H0)) (cellOf_inj (adm m H0))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V4 m (outs m H0 H1) c))
    (hch := fun c => ⟨.rfl, .rfl, .rfl, .rfl, sep_mono .rfl (Rst_owes c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m (outs m H0 H1) c b)
    (hfin := fun c s' => by
      iintro ⟨Hh, HSI⟩
      unfold StableHlo.held
      imodintro
      iapply (pointsTo_read_all (Pipeline.ucRefs τ sig) (fun b => (((c : Thread nD τ)).1, b)) (Gen.V4 m (outs m H0 H1) c) s')
      isplitl [Hh] <;> iassumption)
    (hQ := fun s h c => h c)

include H0 H1 in
/-- THE FRAME at any float instance: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_arg0 (by decide))).trans (Gen.V4_main_arg0 m _ c),
     (h c _ (mem_uc main_arg1 (by decide))).trans (Gen.V4_main_arg1 m _ c),
     (h c _ (mem_uc main_arg2 (by decide))).trans (Gen.V4_main_arg2 m _ c),
     (h c _ (mem_uc main_arg3 (by decide))).trans (Gen.V4_main_arg3 m _ c),
     (h c _ (mem_uc main_arg4 (by decide))).trans (Gen.V4_main_arg4 m _ c),
     (h c _ (mem_uc main_arg5 (by decide))).trans (Gen.V4_main_arg5 m _ c),
     (h c _ (mem_uc main_arg6 (by decide))).trans (Gen.V4_main_arg6 m _ c),
     (h c _ (mem_uc main_arg7 (by decide))).trans (Gen.V4_main_arg7 m _ c),
     (h c _ (mem_uc main_arg8 (by decide))).trans (Gen.V4_main_arg8 m _ c),
     (h c _ (mem_uc main_arg9 (by decide))).trans (Gen.V4_main_arg9 m _ c)⟩) (run_main m H0 H1 ρ)

/-- The run with the result array named: it ends at the last valuation's contents, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v11) = Gen.V4 m (outs m H0 H1) c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨h c _ (mem_uc main_v11 (by decide)),
     (h c _ (mem_uc main_arg0 (by decide))).trans (Gen.V4_main_arg0 m _ c),
     (h c _ (mem_uc main_arg1 (by decide))).trans (Gen.V4_main_arg1 m _ c),
     (h c _ (mem_uc main_arg2 (by decide))).trans (Gen.V4_main_arg2 m _ c),
     (h c _ (mem_uc main_arg3 (by decide))).trans (Gen.V4_main_arg3 m _ c),
     (h c _ (mem_uc main_arg4 (by decide))).trans (Gen.V4_main_arg4 m _ c),
     (h c _ (mem_uc main_arg5 (by decide))).trans (Gen.V4_main_arg5 m _ c),
     (h c _ (mem_uc main_arg6 (by decide))).trans (Gen.V4_main_arg6 m _ c),
     (h c _ (mem_uc main_arg7 (by decide))).trans (Gen.V4_main_arg7 m _ c),
     (h c _ (mem_uc main_arg8 (by decide))).trans (Gen.V4_main_arg8 m _ c),
     (h c _ (mem_uc main_arg9 (by decide))).trans (Gen.V4_main_arg9 m _ c)⟩) (run_main m H0 H1 ρ)

end Cert.KernelIdeal.Hand

end
-- ==== Proof.QkvRegion.lean ====
import proofs.«422647_j35725537968569_1_alg».proof.Proof.Gen.KernelIdeal.Launch
import proofs.«422647_j35725537968569_1_alg».proof.Proof.Gen.KernelIdeal.Skeleton
import proofs.«422647_j35725537968569_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/- the TensorCore's buffer contents when the region is entered: a PARAMETER of everything below -/
variable (V : (c : Dev nD) → (b : Ref sig .tc) → Buf (Elt F) ((c : Thread nD τ).loc b))

/-! # Region 0: the three projections' kernel, at the entry contents `V` -/

/-! ## The windows' blocks -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: at every point its current staging buffer holds that window's block, whether or not a fetch
    landed there — an unfetched point has the block index of the point before, and the body leaves the block as found. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- Input window 1: at every point its current staging buffer holds that window's block, whether or not a fetch
    landed there — an unfetched point has the block index of the point before, and the body leaves the block as found. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-- Input window 2: at every point its current staging buffer holds that window's block, whether or not a fetch
    landed there — an unfetched point has the block index of the point before, and the body leaves the block as found. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

/-- Input window 3: at every point its current staging buffer holds that window's block, whether or not a fetch
    landed there — an unfetched point has the block index of the point before, and the body leaves the block as found. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl)
      (fun t => by rw [hafter]; unfold Dat.blockOf iblk0; rw [hA]; try rfl) t d).trans
    (by unfold Dat.fetched Dat.blockOf iblk0; rw [hA]; try rfl)

/-- Input window 4: at every point its current staging buffer holds that window's block, whether or not a fetch
    landed there — an unfetched point has the block index of the point before, and the body leaves the block as found. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl)
      (fun t => by rw [hafter]; unfold Dat.blockOf iblk0; rw [hA]; try rfl) t d).trans
    (by unfold Dat.fetched Dat.blockOf iblk0; rw [hA]; try rfl)

/-- Input window 5: at every point its current staging buffer holds that window's block, whether or not a fetch
    landed there — an unfetched point has the block index of the point before, and the body leaves the block as found. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl)
      (fun t => by rw [hafter]; unfold Dat.blockOf iblk0; rw [hA]; try rfl) t d).trans
    (by unfold Dat.fetched Dat.blockOf iblk0; rw [hA]; try rfl)

/-- Input window 6: at every point its current staging buffer holds that window's block, whether or not a fetch
    landed there — an unfetched point has the block index of the point before, and the body leaves the block as found. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl)
      (fun t => by rw [hafter]; unfold Dat.blockOf iblk0; rw [hA]; try rfl) t d).trans
    (by unfold Dat.fetched Dat.blockOf iblk0; rw [hA]; try rfl)

/-! ## The body's accesses: every load and store is of a whole staging buffer -/

/-- the whole activation / projection tile `[1,256,1024]` -/
abbrev rT : Rect S1x256x1024 := Rect.unit (s := S1x256x1024) ![0, 0, 0] S1x256x1024.size inb_S1x256x1024_S1x256x1024_0_0_0
/-- the whole weight matrix `[1024,1024]` -/
abbrev rW : Rect S1024x1024 := Rect.unit (s := S1024x1024) ![0, 0] S1024x1024.size inb_S1024x1024_S1024x1024_0_0
/-- the whole bias row `[1,1024]` -/
abbrev rB : Rect S1x1024 := Rect.unit (s := S1x1024) ![0, 0] S1x1024.size inb_S1x1024_S1x1024_0_0

/-! ## What the body leaves in each output window's buffer

Each projection tile is stored whole, once: the buffer afterwards is that one store's payload, a function of the
activation tile, the weight matrix and the bias row the body loaded. -/

/-- The query tile: `trunc (x · Wqᵀ + bq)`, as the body's payload of the loaded blocks. -/
def qOut (x : Vec F S1x256x1024 .bf16) (w : Vec F S1024x1024 .bf16) (b : Vec F S1x1024 .f32) : Vec F S1x256x1024 .bf16 :=
  View.canon [⟨rT, k0_pay5 (View.ld x rT) (View.ld w rW) (View.ld b rB)⟩]

/-- The key tile: `trunc (x · Wkᵀ + bk)`. -/
def kOut (x : Vec F S1x256x1024 .bf16) (w : Vec F S1024x1024 .bf16) (b : Vec F S1x1024 .f32) : Vec F S1x256x1024 .bf16 :=
  View.canon [⟨rT, k0_pay1 (k0_pay6 (View.ld x rT) (View.ld w rW) (View.ld b rB))⟩]

/-- The value tile: `trunc (x · Wvᵀ + bv)`. -/
def vOut (x : Vec F S1x256x1024 .bf16) (w : Vec F S1024x1024 .bf16) (b : Vec F S1x1024 .f32) : Vec F S1x256x1024 .bf16 :=
  View.canon [⟨rT, k0_pay2 (k0_pay4 (View.ld x rT) (View.ld w rW) (View.ld b rB))⟩]

/-- One whole-tile store covers the tile. -/
theorem coverT (p : Vec F S1x256x1024 .bf16) (y : S1x256x1024.Idx) :
    ∃ pc ∈ ([⟨rT, p⟩] : List (View.Piece (Elt F) S1x256x1024 .bf16)), y ∈ pc.1.set :=
  View.cover_of_tiled [⟨rT, p⟩] S1x256x1024.size (by rfl) y

/-! ## The body's triple -/

set_option maxHeartbeats 4000000 in
/-- The kernel body on whole staging memrefs — the seven inputs' at read contents `x`, `wq`, `bq`, `wk`, `bk`, `wv`,
    `bv`, the three outputs' at anything — runs to the continuation holding the inputs' as they were and each output's
    at its projection tile of the inputs': every load reads a whole buffer, every store writes one whole. -/
theorem sound_kernel0 (c : Dev nD) (E : Set ℕ) (i : grid0.Coords)
    (arg2 : Memref sig .tc .vmem S1x256x1024 .bf16) (harg2 : arg2.IsWhole)
    (arg3 : Memref sig .tc .vmem S1024x1024 .bf16) (harg3 : arg3.IsWhole)
    (arg4 : Memref sig .tc .vmem S1x1024 .f32) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S1024x1024 .bf16) (harg7 : arg7.IsWhole)
    (arg8 : Memref sig .tc .vmem S1x1024 .f32) (harg8 : arg8.IsWhole)
    (arg9 : Memref sig .tc .vmem S1x256x1024 .bf16) (harg9 : arg9.IsWhole)
    (arg10 : Memref sig .tc .vmem S1x256x1024 .bf16) (harg10 : arg10.IsWhole)
    (arg11 : Memref sig .tc .vmem S1x256x1024 .bf16) (harg11 : arg11.IsWhole)
    (x : Vec F S1x256x1024 .bf16) (wq : Vec F S1024x1024 .bf16) (bq : Vec F S1x1024 .f32)
    (wk : Vec F S1024x1024 .bf16) (bk : Vec F S1x1024 .f32) (wv : Vec F S1024x1024 .bf16) (bv : Vec F S1x1024 .f32)
    (K : PUnit → sProp 𝕄) :
    iprop(owns (c : Thread nD τ) arg2 fullShare x ∗ owns (c : Thread nD τ) arg3 fullShare wq
        ∗ owns (c : Thread nD τ) arg4 fullShare bq ∗ owns (c : Thread nD τ) arg5 fullShare wk
        ∗ owns (c : Thread nD τ) arg6 fullShare bk ∗ owns (c : Thread nD τ) arg7 fullShare wv
        ∗ owns (c : Thread nD τ) arg8 fullShare bv
        ∗ (∃ d, owns (c : Thread nD τ) arg9 fullShare d) ∗ (∃ d, owns (c : Thread nD τ) arg10 fullShare d)
        ∗ (∃ d, owns (c : Thread nD τ) arg11 fullShare d)
        ∗ (iprop(owns (c : Thread nD τ) arg2 fullShare x ∗ owns (c : Thread nD τ) arg3 fullShare wq
            ∗ owns (c : Thread nD τ) arg4 fullShare bq ∗ owns (c : Thread nD τ) arg5 fullShare wk
            ∗ owns (c : Thread nD τ) arg6 fullShare bk ∗ owns (c : Thread nD τ) arg7 fullShare wv
            ∗ owns (c : Thread nD τ) arg8 fullShare bv
            ∗ owns (c : Thread nD τ) arg9 fullShare (qOut x wq bq)
            ∗ owns (c : Thread nD τ) arg10 fullShare (kOut x wk bk)
            ∗ owns (c : Thread nD τ) arg11 fullShare (vOut x wv bv)) -∗ K ⟨⟩))
      ⊢ wp frame (wpE (defs₀ (F := F)) Variants.none c none) E
          (cc0__qkv_kernel i arg2 harg2 arg3 harg3 arg4 harg4 arg5 harg5 arg6 harg6 arg7 harg7 arg8 harg8 arg9 harg9 arg10 harg10 arg11 harg11) K := by
  simp only [cc0__qkv_kernel_eq_skeleton]; unfold cc0__qkv_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%d10, %f10, -, H10⟩, ⟨%d11, %f11, -, H11⟩, Hk⟩
  subst hf2 hf3 hf4 hf5 hf6 hf7 hf8
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (coverT _)
  isplitl [H10]
  · iexists _; isplitr
    swap; · iexact H10
    ipureintro
    exact View.read_writes_eq_canon _ _ _ (coverT _)
  iexists _; isplitr
  swap; · iexact H11
  ipureintro
  exact View.read_writes_eq_canon _ _ _ (coverT _)

/-! ## The pipeline's proof data -/

/-- The proof data of the projections' pipeline on core `c`: the arrays as the region finds them; after the body at
    point `t` each input's buffer still at its block, each output's at its projection of the input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => qOut (iblk0 V c 0 t) (iblk0 V c 1 t) (iblk0 V c 2 t)
    | ⟨8, _⟩ => kOut (iblk0 V c 0 t) (iblk0 V c 3 t) (iblk0 V c 4 t)
    | ⟨9, _⟩ => vOut (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = qOut (iblk0 V c 0 t) (iblk0 V c 1 t) (iblk0 V c 2 t) := by dsimp only [dat0]
theorem after0_8 (c : Dev nD) (t : Fin cfg0.N) :
    (dat0 V c).after 8 t = kOut (iblk0 V c 0 t) (iblk0 V c 3 t) (iblk0 V c 4 t) := by dsimp only [dat0]
theorem after0_9 (c : Dev nD) (t : Fin cfg0.N) :
    (dat0 V c).after 9 t = vOut (iblk0 V c 0 t) (iblk0 V c 5 t) (iblk0 V c 6 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`: the invariant, the core's dues, and every window's current staging
    buffer at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns: the same, every buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.AttnSchedule.lean ====
/-
  The schedule of the second kernel's pipeline on its 8 × 8 grid, at any contents of the prefetched table.

  The grid's points are numbered row by row: point `t` is batch entry `t / 8`, query tile `t % 8`. No window's
  block index reads the table, so the schedule is the same at every contents. The five input windows are read,
  never written, by the body: whether or not a fetch lands at a point, the window's current buffer holds the
  window's block there (an unfetched point has the block index of the point before it). The output window's
  block index is the batch entry alone, so it moves exactly after the last tile of a batch entry: the buffer is
  written back at the points `t` with `t % 8 = 7`, and at every point that is not a batch entry's first tile
  it still holds what the body left at the point before — the buffer is an accumulator over the eight tiles.
-/
import proofs.«422647_j35725537968569_1_alg».proof.Proof.Gen.KernelIdeal.Launch
import proofs.«422647_j35725537968569_1_alg».proof.Proof.Gen.KernelIdeal.Skeleton
import proofs.«422647_j35725537968569_1_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.KernelIdeal.Hand

open Idealize.ShloMosaic Idealize.ShloMosaic.TcCoe Idealize.SL Idealize.SL.Sem
open Idealize.ShloMosaic.Pipeline (Dat Cfg Window)
open Cert.KernelIdeal Cert.KernelIdeal.Gen

variable {F : FTy → Type} [FloatOps F]

/-! ## The output window's write-backs -/

/-- The output window's block index is `(t / 8, 0, 0)`: it differs between point `t` and the next exactly when `t` is
    the last tile of its batch entry, and the last point of the grid is such a tile too. -/
theorem flush1_5 (a : (pcfg1 (F := F)).Adm) : ∀ t : Fin (cfg1 a).N, ((cfg1 a).win 5).flush t = true ↔ t.val % 8 = 7 :=
  (by decide +kernel : ∀ t : Fin grid1.N, Pipeline.Window.flushOf grid1 true cc1_transform_5 t = true ↔ t.val % 8 = 7)

/-! ## The input windows' buffers hold their blocks -/

/-- The query tile's window: its current buffer holds the window's block at every point. -/
theorem before1_in_0 (a : (pcfg1 (F := F)).Adm) {c : Dev nD} (dat : Dat τ (Elt F) Unit ℕ (UR sig nD τ) ℕ (cfg1 a) c)
    (hafter : ∀ t, dat.after 0 t = dat.blockOf 0 t) (t : Fin (cfg1 a).N) (d) : dat.before 0 t d = dat.blockOf 0 t :=
  (dat.before_in_eq_fetched 0 rfl (fun _ => rfl) (fun _ _ _ => rfl) (fun t => by rw [hafter]; try rfl) t d).trans
    (by unfold Dat.fetched; try rfl)

/-- The keys' window likewise. -/
theorem before1_in_1 (a : (pcfg1 (F := F)).Adm) {c : Dev nD} (dat : Dat τ (Elt F) Unit ℕ (UR sig nD τ) ℕ (cfg1 a) c)
    (hafter : ∀ t, dat.after 1 t = dat.blockOf 1 t) (t : Fin (cfg1 a).N) (d) : dat.before 1 t d = dat.blockOf 1 t :=
  (dat.before_in_eq_fetched 1 rfl (fun _ => rfl) (fun _ _ _ => rfl) (fun t => by rw [hafter]; try rfl) t d).trans
    (by unfold Dat.fetched; try rfl)

/-- The values' window likewise. -/
theorem before1_in_2 (a : (pcfg1 (F := F)).Adm) {c : Dev nD} (dat : Dat τ (Elt F) Unit ℕ (UR sig nD τ) ℕ (cfg1 a) c)
    (hafter : ∀ t, dat.after 2 t = dat.blockOf 2 t) (t : Fin (cfg1 a).N) (d) : dat.before 2 t d = dat.blockOf 2 t :=
  (dat.before_in_eq_fetched 2 rfl (fun _ => rfl) (fun _ _ _ => rfl) (fun t => by rw [hafter]; try rfl) t d).trans
    (by unfold Dat.fetched; try rfl)

/-- The output weights' window likewise. -/
theorem before1_in_3 (a : (pcfg1 (F := F)).Adm) {c : Dev nD} (dat : Dat τ (Elt F) Unit ℕ (UR sig nD τ) ℕ (cfg1 a) c)
    (hafter : ∀ t, dat.after 3 t = dat.blockOf 3 t) (t : Fin (cfg1 a).N) (d) : dat.before 3 t d = dat.blockOf 3 t :=
  (dat.before_in_eq_fetched 3 rfl (fun _ => rfl) (fun _ _ _ => rfl) (fun t => by rw [hafter]; try rfl) t d).trans
    (by unfold Dat.fetched; try rfl)

/-- The output bias's window likewise. -/
theorem before1_in_4 (a : (pcfg1 (F := F)).Adm) {c : Dev nD} (dat : Dat τ (Elt F) Unit ℕ (UR sig nD τ) ℕ (cfg1 a) c)
    (hafter : ∀ t, dat.after 4 t = dat.blockOf 4 t) (t : Fin (cfg1 a).N) (d) : dat.before 4 t d = dat.blockOf 4 t :=
  (dat.before_in_eq_fetched 4 rfl (fun _ => rfl) (fun _ _ _ => rfl) (fun t => by rw [hafter]; try rfl) t d).trans
    (by unfold Dat.fetched; try rfl)

/-! ## The accumulator between write-backs -/

/-- At a point that is not the first tile of its batch entry the point before is not a last tile, so nothing was
    written back there, and the output window's buffer still holds what the body left at that point. -/
theorem before1_acc (a : (pcfg1 (F := F)).Adm) {c : Dev nD} (dat : Dat τ (Elt F) Unit ℕ (UR sig nD τ) ℕ (cfg1 a) c)
    (t : Fin (cfg1 a).N) (h0 : ¬ t.val % 8 = 0) (d) :
    dat.before 5 t d = dat.after 5 ⟨t.val - 1, Nat.lt_of_le_of_lt (Nat.sub_le _ _) t.isLt⟩ := by
  have hN : t.val < 64 := lt_of_lt_of_eq t.isLt N_1
  exact Dat.before_out_kept _ 5 rfl t (by omega)
    (Bool.eq_false_iff.mpr fun h => by have := (flush1_5 a _).mp h; dsimp only at this; omega)
    (fun _ => rfl) (fun _ _ => rfl) d

end Cert.KernelIdeal.Hand

end
-- ==== Proof.AttnRegion.lean ====
import proofs.«422647_j35725537968569_1_alg».proof.Proof.Gen.KernelIdeal.Launch
import proofs.«422647_j35725537968569_1_alg».proof.Proof.Gen.KernelIdeal.Skeleton
import proofs.«422647_j35725537968569_1_alg».proof.Proof.Gen.KernelIdeal.Points
import proofs.«422647_j35725537968569_1_alg».proof.Proof.AttnSchedule
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

/-! # Region 1 (masked attention, output projection, mean over the sequence): the frame half

The second kernel launch runs on a grid of 8 batch entries by 8 query tiles.  Its one output window is a
`[1,1,1024]` row indexed by the batch entry alone, so its staging buffer is an ACCUMULATOR carried over
the eight query tiles of a batch entry: cleared at tile 0, increased at every tile by the column sums
of that tile's projected attention output, and scaled by `2^-11` at tile 7, after which it is written
back.  This module states what that buffer holds after every grid point and proves the body
obligation of the pipeline against it. -/

/- the TensorCore's buffer contents when the region is entered: a PARAMETER of everything below -/
variable (V : (c : Dev nD) → (b : Ref sig .tc) → Buf (Elt F) ((c : Thread nD τ).loc b))

/-- the table's contents when the region is entered (one device) -/
def tbl1 : pre1.Contents (Elt F) := fun j => V (0 : Dev nD) (pre1.ref j)

/-- the table's contents as admissible contents (the side condition on them is `True`) -/
abbrev adm1 : (pcfg1 (F := F)).Adm := ⟨tbl1 V, trivial⟩
/-- the pipeline at those contents -/
abbrev cfgM1 : Pipeline.Cfg sig Λ₀ := cfg1 (adm1 V)

/-- window `w`'s block at point `t`, read off its array as the region finds it -/
def iblk1 (c : Dev nD) (w : Fin (cfgM1 V).W) (t : Fin (cfgM1 V).N) : (((cfgM1 V).win w).xblock ((cfgM1 V).grid.coords t)).Idx → Elt F ((cfgM1 V).win w).elt :=
  (((cfgM1 V).win w).blk t).view.read (Elt F) (V c (Pipeline.arrRef spec1 w))

/-! ## The blocks at a point, each at its literal type -/

/-- the query tile: 256 rows of the batch entry's queries -/
abbrev qblk1 (c : Dev nD) (t : Fin (cfgM1 V).N) : Vec F S1x256x1024 .bf16 := iblk1 V c 0 t
/-- the batch entry's keys, all 2048 rows -/
abbrev kblk1 (c : Dev nD) (t : Fin (cfgM1 V).N) : Vec F S1x2048x1024 .bf16 := iblk1 V c 1 t
/-- the batch entry's values, all 2048 rows -/
abbrev vblk1 (c : Dev nD) (t : Fin (cfgM1 V).N) : Vec F S1x2048x1024 .bf16 := iblk1 V c 2 t
/-- the output projection's weights -/
abbrev woblk1 (c : Dev nD) (t : Fin (cfgM1 V).N) : Vec F S1024x1024 .bf16 := iblk1 V c 3 t
/-- the output projection's bias -/
abbrev boblk1 (c : Dev nD) (t : Fin (cfgM1 V).N) : Vec F S1x1024 .f32 := iblk1 V c 4 t

/-- the table as the body is handed it: its whole buffer as a memref -/
abbrev tbM1 : Memref sig .tc .smem S8 .i32 := Memref.whole main_arg1
abbrev htbM1 : (tbM1).IsWhole := Memref.isWhole_whole _

/-- the word the body loads from the table at grid coordinates `i` — the batch entry's number of valid
    keys — read through a memref `M` of the table holding contents `f` -/
def word1 (c : Dev nD) (M : Memref sig .tc .smem S8 .i32) (i : grid1.Coords) (f : Buf (Elt F) (M.view.loc (c : Thread nD τ))) : Elt F .i32 :=
  M.view.readAt (Elt F) (Rect.unit (s := S8) (k1_off1 i) S1.size (k1_off1_inb i)).toLoadRect f (Shape.Idx.first (numel1_S1.symm ▸ Nat.one_pos))

/-- the batch entry's number of valid keys at point `t` -/
def len1 (c : Dev nD) (t : Fin (cfgM1 V).N) : Elt F .i32 := word1 c tbM1 (grid1.coords t) (tbl1 V 0)

/-! ## The accumulator, point by point -/

/-- one tile's step on the accumulator: the column sums of the tile's projected attention output,
    added to `acc` -/
def tileAcc1 (c : Dev nD) (t : Fin (cfgM1 V).N) (acc : Vec F S1x1x1024 .f32) : Vec F S1x1x1024 .f32 :=
  k1_pay1 (k1_pay4 (qblk1 V c t) (kblk1 V c t) (vblk1 V c t) (len1 V c t)) (k1_pay5 (woblk1 V c t)) (boblk1 V c t) acc

/-- what the accumulator's staging buffer holds AFTER the body at point `n`: at the first tile of a
    batch entry the tile's step from zeros; at a later tile its step from what the tile before left;
    at the last tile that, scaled by `2^-11` -/
def accAt1 (c : Dev nD) : (n : ℕ) → n < (cfgM1 V).N → Vec F S1x1x1024 .f32
  | 0, hn => tileAcc1 V c ⟨0, hn⟩ (k1_pay3 (F := F))
  | n + 1, hn =>
    if h0 : (n + 1) % 8 = 0 then tileAcc1 V c ⟨n + 1, hn⟩ (k1_pay3 (F := F))
    else if h7 : (n + 1) % 8 = 7 then k1_pay2 (tileAcc1 V c ⟨n + 1, hn⟩ (accAt1 c n (Nat.lt_of_succ_lt hn)))
    else tileAcc1 V c ⟨n + 1, hn⟩ (accAt1 c n (Nat.lt_of_succ_lt hn))

/-- at the first tile of a batch entry: the tile's step from zeros -/
theorem accAt1_first (c : Dev nD) (t : Fin (cfgM1 V).N) (h0 : t.val % 8 = 0) :
    accAt1 V c t.val t.isLt = tileAcc1 V c t (k1_pay3 (F := F)) := by
  obtain ⟨n, hn⟩ := t
  cases n with
  | zero => rfl
  | succ n => exact (dif_pos h0).trans rfl

/-- at a tile that is neither the first nor the last: the tile's step from what the tile before left -/
theorem accAt1_mid (c : Dev nD) (t : Fin (cfgM1 V).N) (h0 : ¬ t.val % 8 = 0) (h7 : ¬ t.val % 8 = 7) :
    accAt1 V c t.val t.isLt = tileAcc1 V c t (accAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h7).trans rfl)

/-- at the last tile: the tile's step from what the tile before left, scaled by `2^-11` -/
theorem accAt1_last (c : Dev nD) (t : Fin (cfgM1 V).N) (h7 : t.val % 8 = 7) :
    accAt1 V c t.val t.isLt = k1_pay2 (tileAcc1 V c t (accAt1 V c (t.val - 1) (Nat.lt_of_le_of_lt (Nat.sub_le _ _) t.isLt))) := by
  obtain ⟨n, hn⟩ := t
  cases n with
  | zero => exact absurd h7 (show ¬ (0 % 8 = 7) by decide)
  | succ n =>
    have h0 : ¬ (n + 1) % 8 = 0 := fun h => by dsimp only at h7; omega
    exact (dif_neg h0).trans ((dif_pos h7).trans rfl)

/-! ## The pipeline's proof data -/

/-- the proof data of region 1 on core `c`: the arrays as the region finds them; after the body at a
    point every input's buffer at its block and the accumulator's at `accAt1`; the invariant the scoped
    rest with the table held whole; nothing owed; full shares -/
def dat1 (c : Dev nD) : Dat τ (Elt F) Unit ℕ (UR sig nD τ) ℕ (cfgM1 V) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => accAt1 V c t.val t.isLt
  Φ _ := iprop(Pipeline.ΦA spec1 c ∗ Pipeline.prefHeld (Ix := Unit) (Name := ℕ) (U := UR sig nD τ) (Lvl := ℕ) pre1 c (fun _ => fullShare) (tbl1 V))
  q _ := fullShare
  owed _ := 0

theorem A_eq1 (c : Dev nD) (w : Fin (cfgM1 V).W) : (dat1 V c).A w = V c (Pipeline.arrRef spec1 w) := by
  dsimp only [dat1]

theorem after1_0 (c : Dev nD) (t : Fin (cfgM1 V).N) : (dat1 V c).after 0 t = iblk1 V c 0 t := by dsimp only [dat1]; try rfl
theorem after1_1 (c : Dev nD) (t : Fin (cfgM1 V).N) : (dat1 V c).after 1 t = iblk1 V c 1 t := by dsimp only [dat1]; try rfl
theorem after1_2 (c : Dev nD) (t : Fin (cfgM1 V).N) : (dat1 V c).after 2 t = iblk1 V c 2 t := by dsimp only [dat1]; try rfl
theorem after1_3 (c : Dev nD) (t : Fin (cfgM1 V).N) : (dat1 V c).after 3 t = iblk1 V c 3 t := by dsimp only [dat1]; try rfl
theorem after1_4 (c : Dev nD) (t : Fin (cfgM1 V).N) : (dat1 V c).after 4 t = iblk1 V c 4 t := by dsimp only [dat1]; try rfl
theorem after1_5 (c : Dev nD) (t : Fin (cfgM1 V).N) : (dat1 V c).after 5 t = accAt1 V c t.val t.isLt := by dsimp only [dat1]; try rfl

/-! ## The body's two conditionals, in closed form -/

/-- the condition of the body's first conditional (clear the accumulator): the query tile is tile 0 -/
abbrev cond1_0 (i : grid1.Coords) : Prop := (Scalar.cmpi .ne (Scalar.extui (Scalar.cmpi .eq (BitVec.ofNat 32 (i 1).val) 0#32)) 0#32) = 1#1
/-- the condition of its second conditional (scale the accumulator): the query tile is tile 7 -/
abbrev cond1_7 (i : grid1.Coords) : Prop := (Scalar.cmpi .ne (Scalar.extui (Scalar.cmpi .eq (BitVec.ofNat 32 (i 1).val) 7#32)) 0#32) = 1#1

/-- the grid is row-major, so the tile of point `t` is `t mod 8` -/
theorem hcond1_0 : ∀ t : Fin grid1.N, cond1_0 (grid1.coords t) ↔ t.val % 8 = 0 := by decide +kernel
theorem hcond1_7 : ∀ t : Fin grid1.N, cond1_7 (grid1.coords t) ↔ t.val % 8 = 7 := by decide +kernel

/-- the zero offsets of the whole-block accesses -/
theorem z2 : (![0, 0] : Fin 2 → Nat) = fun _ => 0 := funext fun a => by fin_cases a <;> rfl
theorem z3 : (![0, 0, 0] : Fin 3 → Nat) = fun _ => 0 := funext fun a => by fin_cases a <;> rfl

/-! ## The body on any whole staging memrefs, case by case

The body reads the five input blocks and one word of the table, and updates the accumulator `acc` to
`X`; everything else it hands back as it found it. -/

section Runs

variable (c : Dev nD) (i : grid1.Coords) (arg2 : Memref sig .tc .smem S8 .i32) (harg2 : arg2.IsWhole)
  (arg3 : Memref sig .tc .vmem S1x256x1024 .bf16) (harg3 : arg3.IsWhole) (arg4 : Memref sig .tc .vmem S1x2048x1024 .bf16) (harg4 : arg4.IsWhole)
  (arg5 : Memref sig .tc .vmem S1x2048x1024 .bf16) (harg5 : arg5.IsWhole) (arg6 : Memref sig .tc .vmem S1024x1024 .bf16) (harg6 : arg6.IsWhole)
  (arg7 : Memref sig .tc .vmem S1x1024 .f32) (harg7 : arg7.IsWhole) (arg8 : Memref sig .tc .vmem S1x1x1024 .f32) (harg8 : arg8.IsWhole)
  (q : Vec F S1x256x1024 .bf16) (k v : Vec F S1x2048x1024 .bf16) (wo : Vec F S1024x1024 .bf16) (bo : Vec F S1x1024 .f32)
  (sh : PosShare TreeShare) (tb : Buf (Elt F) (arg2.view.loc (c : Thread nD τ)))

/-- the staging buffers at the blocks, the accumulator's at `X`, and the table held at share `sh` -/
def held1 (X : Vec F S1x1x1024 .f32) : sProp 𝕄 :=
  iprop(owns (c : Thread nD τ) arg3 fullShare q ∗ owns (c : Thread nD τ) arg4 fullShare k ∗ owns (c : Thread nD τ) arg5 fullShare v
    ∗ owns (c : Thread nD τ) arg6 fullShare wo ∗ owns (c : Thread nD τ) arg7 fullShare bo ∗ owns (c : Thread nD τ) arg8 fullShare X
    ∗ (arg2.view.loc (c : Thread nD τ) ↦{sh} tb))

/-- the tile's step on an accumulator `acc`, over the blocks as variables -/
abbrev step1 (acc : Vec F S1x1x1024 .f32) : Vec F S1x1x1024 .f32 :=
  k1_pay1 (k1_pay4 q k v (word1 c arg2 i tb)) (k1_pay5 wo) bo acc

set_option maxHeartbeats 1000000 in
/-- a tile that is neither the first nor the last: the accumulator takes the tile's step -/
theorem run1_mid (hc0 : ¬cond1_0 i) (hc7 : ¬cond1_7 i) (acc : Vec F S1x1x1024 .f32) (E : Set ℕ) (K : PUnit → sProp 𝕄) :
    iprop(held1 c arg2 arg3 arg4 arg5 arg6 arg7 arg8 q k v wo bo sh tb acc
        ∗ (held1 c arg2 arg3 arg4 arg5 arg6 arg7 arg8 q k v wo bo sh tb (step1 c i arg2 q k v wo bo tb acc) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold held1 owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, HT⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc0 | exact hc7)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_run_names
    rw [View.read_writes_eq_canon _ _ _ (fun y => ⟨_, List.mem_singleton_self _, View.mem_set_unit_zero z3 inb_S1x1x1024_S1x1x1024_0_0_0 y⟩), View.canon_unit_zero z3]
    simp only [View.readAt_eq_ld, harg3.read_unread, harg4.read_unread, harg5.read_unread, harg6.read_unread, harg7.read_unread, harg8.read_unread,
      View.ld_unit_zero (S := S1x256x1024) z3, View.ld_unit_zero (S := S1x2048x1024) z3, View.ld_unit_zero (S := S1024x1024) z2,
      View.ld_unit_zero (S := S1x1024) z2, View.ld_unit_zero (S := S1x1x1024) z3]
    rfl
  iexact HT

set_option maxHeartbeats 1000000 in
/-- the first tile of a batch entry: the accumulator is cleared, then takes the tile's step -/
theorem run1_first (hc0 : cond1_0 i) (hc7 : ¬cond1_7 i) (acc : Vec F S1x1x1024 .f32) (E : Set ℕ) (K : PUnit → sProp 𝕄) :
    iprop(held1 c arg2 arg3 arg4 arg5 arg6 arg7 arg8 q k v wo bo sh tb acc
        ∗ (held1 c arg2 arg3 arg4 arg5 arg6 arg7 arg8 q k v wo bo sh tb (step1 c i arg2 q k v wo bo tb (k1_pay3 (F := F))) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold held1 owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, HT⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc0 | exact hc7)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_run_names
    rw [View.read_writes_eq_canon _ _ _ (fun y => ⟨_, List.mem_cons_self, View.mem_set_unit_zero z3 inb_S1x1x1024_S1x1x1024_0_0_0 y⟩), View.canon_cons_unit_zero z3]
    simp only [View.readAt_eq_ld, harg3.read_unread, harg4.read_unread, harg5.read_unread, harg6.read_unread, harg7.read_unread, harg8.read_unread,
      View.ld_unit_zero (S := S1x256x1024) z3, View.ld_unit_zero (S := S1x2048x1024) z3, View.ld_unit_zero (S := S1024x1024) z2,
      View.ld_unit_zero (S := S1x1024) z2, View.ld_unit_zero (S := S1x1x1024) z3, View.readCov_unit_zero (S := S1x1x1024) _ z3]
    rfl
  iexact HT

set_option maxHeartbeats 1000000 in
/-- the last tile of a batch entry: the accumulator takes the tile's step and is then scaled by `2^-11` -/
theorem run1_last (hc0 : ¬cond1_0 i) (hc7 : cond1_7 i) (acc : Vec F S1x1x1024 .f32) (E : Set ℕ) (K : PUnit → sProp 𝕄) :
    iprop(held1 c arg2 arg3 arg4 arg5 arg6 arg7 arg8 q k v wo bo sh tb acc
        ∗ (held1 c arg2 arg3 arg4 arg5 arg6 arg7 arg8 q k v wo bo sh tb (k1_pay2 (step1 c i arg2 q k v wo bo tb acc)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold held1 owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, HT⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc0 | exact hc7)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_run_names
    rw [View.read_writes_eq_canon _ _ _ (fun y => ⟨_, List.mem_cons_self, View.mem_set_unit_zero z3 inb_S1x1x1024_S1x1x1024_0_0_0 y⟩), View.canon_cons_unit_zero z3]
    simp only [View.readAt_eq_ld, harg3.read_unread, harg4.read_unread, harg5.read_unread, harg6.read_unread, harg7.read_unread, harg8.read_unread,
      View.ld_unit_zero (S := S1x256x1024) z3, View.ld_unit_zero (S := S1x2048x1024) z3, View.ld_unit_zero (S := S1024x1024) z2,
      View.ld_unit_zero (S := S1x1024) z2, View.ld_unit_zero (S := S1x1x1024) z3, View.readCov_unit_zero (S := S1x1x1024) _ z3]
    rfl
  iexact HT

end Runs

/-! ## The body obligation -/

/-- the table held whole is its one buffer held whole, through the memref the body is handed -/
theorem pref1_eq (c : Dev nD) (f : pre1.Contents (Elt F)) :
    (Pipeline.prefHeld (Ix := Unit) (Name := ℕ) (U := UR sig nD τ) (Lvl := ℕ) pre1 c (fun _ => fullShare) f : sProp 𝕄)
      = (tbM1.view.loc (c : Thread nD τ) ↦{fullShare} f 0) := by
  unfold Pipeline.prefHeld
  rw [show (Finset.univ : Finset (Fin 1)) = {(0 : Fin 1)} from by decide, bigSep_singleton]
  rfl

/-- each window's current staging memref at a point, as the pipeline passes it to the body -/
abbrev ms1_0 (a : (pcfg1 (F := F)).Adm) (t : Fin (cfg1 a).N) : Memref sig .tc .vmem S1x256x1024 .bf16 := spec1_0.stage ((cfg1 a).slots t 0)
abbrev ms1_1 (a : (pcfg1 (F := F)).Adm) (t : Fin (cfg1 a).N) : Memref sig .tc .vmem S1x2048x1024 .bf16 := spec1_1.stage ((cfg1 a).slots t 1)
abbrev ms1_2 (a : (pcfg1 (F := F)).Adm) (t : Fin (cfg1 a).N) : Memref sig .tc .vmem S1x2048x1024 .bf16 := spec1_2.stage ((cfg1 a).slots t 2)
abbrev ms1_3 (a : (pcfg1 (F := F)).Adm) (t : Fin (cfg1 a).N) : Memref sig .tc .vmem S1024x1024 .bf16 := spec1_3.stage ((cfg1 a).slots t 3)
abbrev ms1_4 (a : (pcfg1 (F := F)).Adm) (t : Fin (cfg1 a).N) : Memref sig .tc .vmem S1x1024 .f32 := spec1_4.stage ((cfg1 a).slots t 4)
abbrev ms1_5 (a : (pcfg1 (F := F)).Adm) (t : Fin (cfg1 a).N) : Memref sig .tc .vmem S1x1x1024 .f32 := spec1_5.stage ((cfg1 a).slots t 5)

/-- the body at a point, on what the pipeline calls it with -/
abbrev bodyAt1 (a : (pcfg1 (F := F)).Adm) (t : Fin (cfg1 a).N) : Prog (TpuEff nD τ sig (Elt F) Λ₀ .tc) PUnit :=
  cc1__attn_kernel (grid1.coords t) (Memref.whole main_arg1) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (spec1_4.stage ((cfg1 a).slots t 4)) (hstage1_4 (((cfg1 a).slots t 4).cast nbuf1_4))
    (spec1_5.stage ((cfg1 a).slots t 5)) (hstage1_5 (((cfg1 a).slots t 5).cast nbuf1_5))

/-- an input's staging buffer holds the input's block at every point, fetched there or not -/
theorem before1_0 (c : Dev nD) (t : Fin (cfgM1 V).N) (d) : (dat1 V c).before 0 t d = iblk1 V c 0 t :=
  (before1_in_0 (adm1 V) (dat1 V c) (fun t => by rw [after1_0]; unfold Dat.blockOf iblk1; rw [A_eq1]) t d).trans (by unfold Dat.blockOf iblk1; rw [A_eq1])
theorem before1_1 (c : Dev nD) (t : Fin (cfgM1 V).N) (d) : (dat1 V c).before 1 t d = iblk1 V c 1 t :=
  (before1_in_1 (adm1 V) (dat1 V c) (fun t => by rw [after1_1]; unfold Dat.blockOf iblk1; rw [A_eq1]) t d).trans (by unfold Dat.blockOf iblk1; rw [A_eq1])
theorem before1_2 (c : Dev nD) (t : Fin (cfgM1 V).N) (d) : (dat1 V c).before 2 t d = iblk1 V c 2 t :=
  (before1_in_2 (adm1 V) (dat1 V c) (fun t => by rw [after1_2]; unfold Dat.blockOf iblk1; rw [A_eq1]) t d).trans (by unfold Dat.blockOf iblk1; rw [A_eq1])
theorem before1_3 (c : Dev nD) (t : Fin (cfgM1 V).N) (d) : (dat1 V c).before 3 t d = iblk1 V c 3 t :=
  (before1_in_3 (adm1 V) (dat1 V c) (fun t => by rw [after1_3]; unfold Dat.blockOf iblk1; rw [A_eq1]) t d).trans (by unfold Dat.blockOf iblk1; rw [A_eq1])
theorem before1_4 (c : Dev nD) (t : Fin (cfgM1 V).N) (d) : (dat1 V c).before 4 t d = iblk1 V c 4 t :=
  (before1_in_4 (adm1 V) (dat1 V c) (fun t => by rw [after1_4]; unfold Dat.blockOf iblk1; rw [A_eq1]) t d).trans (by unfold Dat.blockOf iblk1; rw [A_eq1])

/-- past the first tile of a batch entry the accumulator's buffer holds what the tile before left: it is
    not written back in between -/
theorem before1_5 (c : Dev nD) (t : Fin (cfgM1 V).N) (h0 : ¬ t.val % 8 = 0) (d) :
    (dat1 V c).before 5 t d = accAt1 V c (t.val - 1) (Nat.lt_of_le_of_lt (Nat.sub_le _ _) t.isLt) :=
  (before1_acc (adm1 V) (dat1 V c) t h0 d).trans (after1_5 V c _)

/-- what the body is called with at point `t`, the windows one by one, -/
def bodyPre1 (c : Dev nD) (t : Fin (cfgM1 V).N) : sProp 𝕄 :=
  iprop((dat1 V c).Φ t.castSucc ∗ (dat1 V c).owesAt () t.castSucc
    ∗ (∃ d, owns (c : Thread nD τ) (ms1_0 (adm1 V) t) fullShare ((dat1 V c).before 0 t d))
    ∗ (∃ d, owns (c : Thread nD τ) (ms1_1 (adm1 V) t) fullShare ((dat1 V c).before 1 t d))
    ∗ (∃ d, owns (c : Thread nD τ) (ms1_2 (adm1 V) t) fullShare ((dat1 V c).before 2 t d))
    ∗ (∃ d, owns (c : Thread nD τ) (ms1_3 (adm1 V) t) fullShare ((dat1 V c).before 3 t d))
    ∗ (∃ d, owns (c : Thread nD τ) (ms1_4 (adm1 V) t) fullShare ((dat1 V c).before 4 t d))
    ∗ (∃ d, owns (c : Thread nD τ) (ms1_5 (adm1 V) t) fullShare ((dat1 V c).before 5 t d)))

/-- and what it returns -/
def bodyPost1 (c : Dev nD) (t : Fin (cfgM1 V).N) : sProp 𝕄 :=
  iprop((dat1 V c).Φ t.succ ∗ (dat1 V c).owesAt () t.succ
    ∗ owns (c : Thread nD τ) (ms1_0 (adm1 V) t) fullShare ((dat1 V c).after 0 t)
    ∗ owns (c : Thread nD τ) (ms1_1 (adm1 V) t) fullShare ((dat1 V c).after 1 t)
    ∗ owns (c : Thread nD τ) (ms1_2 (adm1 V) t) fullShare ((dat1 V c).after 2 t)
    ∗ owns (c : Thread nD τ) (ms1_3 (adm1 V) t) fullShare ((dat1 V c).after 3 t)
    ∗ owns (c : Thread nD τ) (ms1_4 (adm1 V) t) fullShare ((dat1 V c).after 4 t)
    ∗ owns (c : Thread nD τ) (ms1_5 (adm1 V) t) fullShare ((dat1 V c).after 5 t))

set_option maxHeartbeats 1600000 in
/-- the body at any point: the inputs' buffers hold their blocks; the tile number says which of the three
    cases the point is in; past the first tile the accumulator's buffer holds what the tile before left;
    so the case's run applies; the scoped rest passes through unread and the table is handed back -/
theorem sound_body1 (c : Dev nD) (t : Fin (cfgM1 V).N) :
    bodyPre1 V c t ⊢ wp frame (wpE (defs₀ (F := F)) Variants.none c none) Set.univ (bodyAt1 (adm1 V) t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  rw [show (dat1 V c).Φ t.castSucc = iprop(Pipeline.ΦA spec1 c ∗ Pipeline.prefHeld (Ix := Unit) (Name := ℕ) (U := UR sig nD τ) (Lvl := ℕ) pre1 c (fun _ => fullShare) (tbl1 V)) from rfl, pref1_eq]
  have hN : t.val < 64 := lt_of_lt_of_eq t.isLt N_1
  by_cases h0 : t.val % 8 = 0
  · rw [accAt1_first V c t h0]
    unfold tileAcc1 len1
    iintro ⟨⟨HΦ, HT⟩, Ho, ⟨%d0, H0⟩, ⟨%d1, H1⟩, ⟨%d2, H2⟩, ⟨%d3, H3⟩, ⟨%d4, H4⟩, ⟨%d5, H5⟩⟩
    iapply (run1_first c (grid1.coords t) tbM1 htbM1 _ _ _ _ _ _ _ _ _ _ _ _ (iblk1 V c 0 t) (iblk1 V c 1 t) (iblk1 V c 2 t) (iblk1 V c 3 t) (iblk1 V c 4 t)
      fullShare (tbl1 V 0) ((hcond1_0 t).mpr h0) (fun h => by have := (hcond1_7 t).mp h; omega) ((dat1 V c).before 5 t d5) Set.univ _)
    unfold held1
    isplitl [H0 H1 H2 H3 H4 H5 HT]
    · isplitl [H0]; · iexact H0
      isplitl [H1]; · iexact H1
      isplitl [H2]; · iexact H2
      isplitl [H3]; · iexact H3
      isplitl [H4]; · iexact H4
      isplitl [H5]; · iexact H5
      iexact HT
    iintro ⟨H0, H1, H2, H3, H4, H5, HT⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    isplitl [H4]; · iexact H4
    iexact H5
  · simp only [before1_5 V c t h0]
    by_cases h7 : t.val % 8 = 7
    · rw [accAt1_last V c t h7]
      unfold tileAcc1 len1
      iintro ⟨⟨HΦ, HT⟩, Ho, ⟨%d0, H0⟩, ⟨%d1, H1⟩, ⟨%d2, H2⟩, ⟨%d3, H3⟩, ⟨%d4, H4⟩, ⟨%d5, H5⟩⟩
      iapply (run1_last c (grid1.coords t) tbM1 htbM1 _ _ _ _ _ _ _ _ _ _ _ _ (iblk1 V c 0 t) (iblk1 V c 1 t) (iblk1 V c 2 t) (iblk1 V c 3 t) (iblk1 V c 4 t)
        fullShare (tbl1 V 0) (fun h => h0 ((hcond1_0 t).mp h)) ((hcond1_7 t).mpr h7) (accAt1 V c (t.val - 1) (Nat.lt_of_le_of_lt (Nat.sub_le _ _) t.isLt)) Set.univ _)
      unfold held1
      isplitl [H0 H1 H2 H3 H4 H5 HT]
      · isplitl [H0]; · iexact H0
        isplitl [H1]; · iexact H1
        isplitl [H2]; · iexact H2
        isplitl [H3]; · iexact H3
        isplitl [H4]; · iexact H4
        isplitl [H5]; · iexact H5
        iexact HT
      iintro ⟨H0, H1, H2, H3, H4, H5, HT⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      isplitl [H4]; · iexact H4
      iexact H5
    · rw [accAt1_mid V c t h0 h7]
      unfold tileAcc1 len1
      iintro ⟨⟨HΦ, HT⟩, Ho, ⟨%d0, H0⟩, ⟨%d1, H1⟩, ⟨%d2, H2⟩, ⟨%d3, H3⟩, ⟨%d4, H4⟩, ⟨%d5, H5⟩⟩
      iapply (run1_mid c (grid1.coords t) tbM1 htbM1 _ _ _ _ _ _ _ _ _ _ _ _ (iblk1 V c 0 t) (iblk1 V c 1 t) (iblk1 V c 2 t) (iblk1 V c 3 t) (iblk1 V c 4 t)
        fullShare (tbl1 V 0) (fun h => h0 ((hcond1_0 t).mp h)) (fun h => h7 ((hcond1_7 t).mp h)) (accAt1 V c (t.val - 1) (Nat.lt_of_le_of_lt (Nat.sub_le _ _) t.isLt)) Set.univ _)
      unfold held1
      isplitl [H0 H1 H2 H3 H4 H5 HT]
      · isplitl [H0]; · iexact H0
        isplitl [H1]; · iexact H1
        isplitl [H2]; · iexact H2
        isplitl [H3]; · iexact H3
        isplitl [H4]; · iexact H4
        isplitl [H5]; · iexact H5
        iexact HT
      iintro ⟨H0, H1, H2, H3, H4, H5, HT⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      isplitl [H4]; · iexact H4
      iexact H5

/-- the pipeline's body obligation for region 1, at every point -/
theorem body_obligation1 (c : Dev nD) : BodyObligation (dat1 (F := F) V c) (defs₀ (F := F)) Variants.none () Set.univ := fun t => by
  rw [bigSep_W1, bigSep_W1]
  exact sound_body1 V c t

end Cert.KernelIdeal.Hand
end
-- ==== Proof.Halves.lean ====
/-
  The two kernel regions' halves, as the run takes them: the projection region's and the attention region's proof
  data at any entry contents, with their arrays, invariants, shares, dues and body obligations.
-/
import proofs.«422647_j35725537968569_1_alg».proof.Proof.Launch
import proofs.«422647_j35725537968569_1_alg».proof.Proof.QkvRegion
import proofs.«422647_j35725537968569_1_alg».proof.Proof.AttnRegion

noncomputable section

namespace Cert.KernelIdeal.Hand

open Idealize.ShloMosaic Idealize.ShloMosaic.TcCoe
open Idealize.SL Idealize.SL.RA Idealize.SL.BI
open scoped Idealize.SL.BI
open Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The projection region's half at entry contents `V`. -/
def half0 (V : EntryV F) : Half0 V where
  dat := dat0 V
  hA := A_eq0 V
  hΦ := fun _ _ => rfl
  hshare := fun c => (dat0 V c).share_full fun _ => rfl
  howed := fun _ _ => rfl
  hrec := fun _ _ => rfl
  hbody := body_obligation0 V

/-- The attention region's half at entry contents `V`: the table's contents are read off `V` in both spellings. -/
def half1 (V : EntryV F) : Half1 V where
  dat := dat1 V
  hA := A_eq1 V
  hΦ := fun _ _ => rfl
  hshare := fun c => (dat1 V c).share_full fun _ => rfl
  howed := fun _ _ => rfl
  hrec := fun _ _ => rfl
  hbody := body_obligation1 V

end Cert.KernelIdeal.Hand

end
-- ==== Proof.KLaunch.lean ====
/-
  The run of the whole program from the two kernel regions' halves.

  @main is: nine host operations (the bf16 casts of x and the four weights, the biases reshaped to [1, 1024]), the
  projection kernel's region, the attention kernel's region, one host reshape. Between two items a core holds every
  unscoped buffer at a valuation: the launch memory, then the host operations applied, then the projection region's
  three result arrays at what its write-backs leave, then the attention region's result array likewise, then the
  reshape. Each region is entered from the valuation before it; its arrays are split out of the buffers held, the
  lengths table (the attention kernel's prefetched table) goes into that region's invariant whole and comes back, and
  the arrays are put back at the valuation after it. The program's frame and its result's value are both read off
  the last valuation.
-/
import proofs.«422647_j35725537968569_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A core's buffer contents when a region is entered, read at the TensorCore's references. -/
abbrev EntryV (F : FTy → Type) [FloatOps F] : Type :=
  (c : Dev nD) → (b : Ref sig .tc) → Buf (Elt F) ((c : Thread nD τ).loc b)

/-- The lengths table's contents under entry contents `V` (there is one device). -/
def tblOf (V : EntryV F) : pre1.Contents (Elt F) := fun j => V (0 : Dev nD) (pre1.ref j)
/-- They are admissible: the index maps read no table, so the pipeline asks nothing of them. -/
abbrev admOf (V : EntryV F) : (pcfg1 (F := F)).Adm := ⟨tblOf V, trivial⟩

/-- What the projection region's half supplies at entry contents `V`: proof data whose arrays are `V`'s, whose
    invariant is the scoped rest and the generator register, lending whole shares and owing nothing, and the body
    obligation at every point. -/
structure Half0 (V : EntryV F) where
  dat : (c : Dev nD) → Dat τ (Elt F) Unit ℕ (UR sig nD τ) ℕ cfg0 c
  hA : ∀ c w, (dat c).A w = V c (Pipeline.arrRef spec0 w)
  hΦ : ∀ c n, (dat c).Φ n = Pipeline.ΦA spec0 c
  hshare : ∀ c w, (dat c).share w = fullShare
  howed : ∀ c t, (dat c).owed t = 0
  hrec : ∀ c n, (dat c).recorded n = Set.univ
  hbody : ∀ c, BodyObligation (dat c) (defs₀ (F := F)) Variants.none () Set.univ

/-- The attention region's half: the same, over the pipeline at the table's contents, its invariant also holding the
    table whole. -/
structure Half1 (V : EntryV F) where
  dat : (c : Dev nD) → Dat τ (Elt F) Unit ℕ (UR sig nD τ) ℕ (cfg1 (admOf V)) c
  hA : ∀ c w, (dat c).A w = V c (Pipeline.arrRef spec1 w)
  hΦ : ∀ c n, (dat c).Φ n = iprop(Pipeline.ΦA spec1 c ∗ Pipeline.prefHeld (Ix := Unit) (Name := ℕ) (U := UR sig nD τ) (Lvl := ℕ) pre1 c (fun _ => fullShare) (tblOf V))
  hshare : ∀ c w, (dat c).share w = fullShare
  howed : ∀ c t, (dat c).owed t = 0
  hrec : ∀ c n, (dat c).recorded n = Set.univ
  hbody : ∀ c, BodyObligation (dat c) (defs₀ (F := F)) Variants.none () Set.univ

variable (m : (ℓ : Loc nD τ sig) → Buf (Elt F) ℓ)
variable (H0 : ∀ V : EntryV F, Half0 V) (H1 : ∀ V : EntryV F, Half1 V)

/-! ## The valuations between items -/

/-- Entering the projection region: the launch memory with the nine host operations applied. -/
abbrev E1 : EntryV F := fun c b => Gen.V1 m c b
/-- Leaving it: its arrays at what its write-backs leave, every other buffer as entered. -/
def W2 (c : Dev nD) : Valuation τ sig (Elt F) :=
  Pipeline.withArrays spec0 c (Gen.V1 m c) fun w => ((H0 (E1 m)).dat c).arrAt w cfg0.N
/-- The unknowns of the generated valuations, for the projection region's results. -/
def outsA : Gen.Outs (F := F) := fun _ r c => W2 m H0 c (Proc.devRef .tc r)
/-- Entering the attention region. -/
abbrev E2 : EntryV F := fun c b => Gen.V2 m (outsA m H0) c b
/-- Leaving it. -/
def W3 (c : Dev nD) : Valuation τ sig (Elt F) :=
  Pipeline.withArrays spec1 c (Gen.V2 m (outsA m H0) c) fun w => ((H1 (E2 m H0)).dat c).arrAt w (cfg1 (admOf (E2 m H0))).N
/-- The unknowns, for both regions: the projection region's results after item 1, the attention region's after item 2. -/
def outs : Gen.Outs (F := F) := fun J r c => match J with
  | 2 => W2 m H0 c (Proc.devRef .tc r)
  | _ => W3 m H0 H1 c (Proc.devRef .tc r)
theorem V2_outs (c : Dev nD) : Gen.V2 m (outs m H0 H1) c = Gen.V2 m (outsA m H0) c := rfl
/-- After the attention region. -/
abbrev E3 : EntryV F := fun c b => Gen.V3 m (outs m H0 H1) c b

/-! ## The proof data family and what rides along -/

/-- The tables' admissible contents: the projection pipeline has none; the attention pipeline's are read off the
    contents it is entered from. -/
abbrev adm : (p : Fin 2) → (pcfgs (F := F) p).Adm
  | ⟨0, _⟩ => cfg0.toPCfg_adm
  | ⟨1, _⟩ => admOf (E2 m H0)

/-- Both pipelines' proof data, each at its region's entry contents: a literal match, so that the pinned
    configuration at a numeral reduces to the printed one. -/
def pdats : (p : Fin 2) → (c : Dev nD) → Dat τ (Elt F) Unit ℕ (UR sig nD τ) ℕ (Pipeline.pin (pcfgs (F := F)) (adm m H0) p) c
  | ⟨0, _⟩ => fun c => (H0 (E1 m)).dat c
  | ⟨1, _⟩ => fun c => (H1 (E2 m H0)).dat c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)

/-! ## The projection region's exit contents -/

theorem W2_arr (c : Dev nD) (w : Fin cfg0.W) :
    W2 m H0 c (Proc.devRef .tc (Pipeline.arrRef spec0 w)) = ((H0 (E1 m)).dat c).arrAt w cfg0.N := by
  unfold W2; exact Pipeline.withArrays_arr spec0 (launch0 (F := F)).win.arr_inj c _ _ w

/-- The valuation after the projection region, read at its three result arrays. -/
theorem E2_v9_0 (c : Dev nD) : E2 m H0 c main_v9_0 = W2 m H0 c (Proc.devRef .tc main_v9_0) := by
  show Function.update (Function.update (Function.update (Gen.V1 m c) main_v9_0 _) main_v9_1 _) main_v9_2 _ (Proc.devRef .tc main_v9_0) = _
  rw [Function.update_of_ne (StableHlo.devRef_ne_of_ne (by decide)), Function.update_of_ne (StableHlo.devRef_ne_of_ne (by decide)), Function.update_self]
  rfl
theorem E2_v9_1 (c : Dev nD) : E2 m H0 c main_v9_1 = W2 m H0 c (Proc.devRef .tc main_v9_1) := by
  show Function.update (Function.update (Function.update (Gen.V1 m c) main_v9_0 _) main_v9_1 _) main_v9_2 _ (Proc.devRef .tc main_v9_1) = _
  rw [Function.update_of_ne (StableHlo.devRef_ne_of_ne (by decide)), Function.update_self]
  rfl
theorem E2_v9_2 (c : Dev nD) : E2 m H0 c main_v9_2 = W2 m H0 c (Proc.devRef .tc main_v9_2) := by
  show Function.update (Function.update (Function.update (Gen.V1 m c) main_v9_0 _) main_v9_1 _) main_v9_2 _ (Proc.devRef .tc main_v9_2) = _
  rw [Function.update_self]
  rfl

/-- Each array of the projection region holds, in the valuation after it, what the pipeline leaves: an input's is
    never written, a result's is the unknown chosen so. -/
theorem hF0 (c : Dev nD) : ∀ w : Fin cfg0.W, ((H0 (E1 m)).dat c).arrAt w cfg0.N = E2 m H0 c (Pipeline.arrRef spec0 w)
  | ⟨0, _⟩ => (((H0 (E1 m)).dat c).arrAt_in 0 rfl _).trans (((H0 (E1 m)).hA c 0).trans (Gen.V2_of m (outsA m H0) c main_v0 (by decide)).symm)
  | ⟨1, _⟩ => (((H0 (E1 m)).dat c).arrAt_in 1 rfl _).trans (((H0 (E1 m)).hA c 1).trans (Gen.V2_of m (outsA m H0) c main_v1 (by decide)).symm)
  | ⟨2, _⟩ => (((H0 (E1 m)).dat c).arrAt_in 2 rfl _).trans (((H0 (E1 m)).hA c 2).trans (Gen.V2_of m (outsA m H0) c main_v5 (by decide)).symm)
  | ⟨3, _⟩ => (((H0 (E1 m)).dat c).arrAt_in 3 rfl _).trans (((H0 (E1 m)).hA c 3).trans (Gen.V2_of m (outsA m H0) c main_v2 (by decide)).symm)
  | ⟨4, _⟩ => (((H0 (E1 m)).dat c).arrAt_in 4 rfl _).trans (((H0 (E1 m)).hA c 4).trans (Gen.V2_of m (outsA m H0) c main_v6 (by decide)).symm)
  | ⟨5, _⟩ => (((H0 (E1 m)).dat c).arrAt_in 5 rfl _).trans (((H0 (E1 m)).hA c 5).trans (Gen.V2_of m (outsA m H0) c main_v3 (by decide)).symm)
  | ⟨6, _⟩ => (((H0 (E1 m)).dat c).arrAt_in 6 rfl _).trans (((H0 (E1 m)).hA c 6).trans (Gen.V2_of m (outsA m H0) c main_v7 (by decide)).symm)
  | ⟨7, _⟩ => (W2_arr m H0 c 7).symm.trans (E2_v9_0 m H0 c).symm
  | ⟨8, _⟩ => (W2_arr m H0 c 8).symm.trans (E2_v9_1 m H0 c).symm
  | ⟨9, _⟩ => (W2_arr m H0 c 9).symm.trans (E2_v9_2 m H0 c).symm

/-- Off the projection region's arrays nothing changed. -/
theorem hrest0 (c : Dev nD) : ∀ b, b ∉ Finset.univ.image (Pipeline.arrRef spec0) → E2 m H0 c b = E1 m c b :=
  fun b hb => Gen.V2_of m (outsA m H0) c b fun hmem => hb (by
    rcases List.mem_cons.mp hmem with rfl | hmem
    · exact Finset.mem_image.mpr ⟨7, Finset.mem_univ _, rfl⟩
    rcases List.mem_cons.mp hmem with rfl | hmem
    · exact Finset.mem_image.mpr ⟨8, Finset.mem_univ _, rfl⟩
    rcases List.mem_cons.mp hmem with rfl | hmem
    · exact Finset.mem_image.mpr ⟨9, Finset.mem_univ _, rfl⟩
    · exact absurd hmem (List.not_mem_nil))

/-! ## The projection region as a segment -/

set_option backward.isDefEq.respectTransparency.types false in
/-- Entered from every unscoped buffer at the contents after the host operations, left at those contents with its
    three result arrays at what the pipeline leaves. Its arrays are split out of the buffers held and put back;
    the generator register goes into the invariant and out; nothing is owed; the kernel has no semaphore of its own. -/
def reg0 : Pipeline.RegionSeg (pcfgs (F := F)) (adm m H0) (pdats m H0 H1) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := ((H0 (E1 m)).hbody c).loose
  hwaits := Pipeline.hwaits_of_owed_zero _ _ _ _ L lv 0 fun c t => (H0 (E1 m)).howed c t
  pre c := iprop(StableHlo.held (c : Thread nD τ) (Pipeline.ucRefs τ sig) (Gen.V1 m c) ∗ Rst c)
  post c := iprop(StableHlo.held (c : Thread nD τ) (Pipeline.ucRefs τ sig) (Gen.V2 m (outsA m H0) c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) (adm m H0) (pdats m H0 H1) (launch0 (F := F)).win (launch0 (F := F)).arr_whole c
      ((H0 (E1 m)).hshare c) (E1 m c) ((H0 (E1 m)).hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m H0 H1 0 c).owed 0 = 0 from (H0 (E1 m)).howed c 0]
      icases HO with ⟨%W, HO⟩; iexists W; isplitr; · ipureintro; exact fun _ _ => Or.inl ((H0 (E1 m)).hrec c 0 ▸ Set.mem_univ _)
      iexact HO
    isplitl [Hp]; · iexact Hp
    iexact Hrest
  hin c := by
    rw [show (pdats m H0 H1 0 c).Φ 0 = Pipeline.ΦA spec0 c from (H0 (E1 m)).hΦ c 0]; unfold Pipeline.ΦA
    iintro ⟨Hp, -, Hr⟩
    isplitl [Hr]; · iexact Hr
    iexact Hp
  hout c := by
    rw [Pipeline.ownSems0_none, show (pdats m H0 H1 0 c).Φ (Fin.last _) = Pipeline.ΦA spec0 c from (H0 (E1 m)).hΦ c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m H0) (Ix := Unit) (Name := ℕ) (U := UR sig nD τ) (Lvl := ℕ)
      (launch0 (F := F)).win (launch0 (F := F)).arr_whole c (pdats m H0 H1) ((H0 (E1 m)).hshare c)
      (E1 m c) (E2 m H0 c) ((pdats m H0 H1 0 c).arrAt · cfg0.N) (hF0 m H0 c) (hrest0 m H0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m H0 H1 0 c).owed (Fin.last _) = 0 from (H0 (E1 m)).howed c _]
    icases HO with ⟨%W, -, HO⟩; iexists W; iexact HO

/-! ## The attention region's exit contents -/

theorem W3_arr (c : Dev nD) (w : Fin (cfg1 (admOf (E2 m H0))).W) :
    W3 m H0 H1 c (Proc.devRef .tc (Pipeline.arrRef spec1 w)) = ((H1 (E2 m H0)).dat c).arrAt w (cfg1 (admOf (E2 m H0))).N := by
  unfold W3; exact Pipeline.withArrays_arr spec1 (launch1 (F := F)).win.arr_inj c _ _ w

/-- The valuation after the attention region, read at its result array. -/
theorem E3_v10 (c : Dev nD) : E3 m H0 H1 c main_v10 = W3 m H0 H1 c (Proc.devRef .tc main_v10) := by
  show Function.update (Gen.V2 m (outs m H0 H1) c) main_v10 _ (Proc.devRef .tc main_v10) = _
  rw [Function.update_self]
  rfl

/-- Off its result array the valuation after the attention region is the one before it. -/
theorem E3_of (c : Dev nD) (r : Ref sig .tc) (h : r ∉ ([main_v10] : List (Ref sig .tc))) : E3 m H0 H1 c r = E2 m H0 c r :=
  Gen.V3_of m (outs m H0 H1) c r h

/-- Each array of the attention region holds, in the valuation after it, what the pipeline leaves. -/
theorem hF1 (c : Dev nD) : ∀ w : Fin (cfg1 (admOf (E2 m H0))).W,
    ((H1 (E2 m H0)).dat c).arrAt w (cfg1 (admOf (E2 m H0))).N = E3 m H0 H1 c (Pipeline.arrRef spec1 w)
  | ⟨0, _⟩ => (((H1 (E2 m H0)).dat c).arrAt_in 0 rfl _).trans (((H1 (E2 m H0)).hA c 0).trans (E3_of m H0 H1 c main_v9_0 (by decide)).symm)
  | ⟨1, _⟩ => (((H1 (E2 m H0)).dat c).arrAt_in 1 rfl _).trans (((H1 (E2 m H0)).hA c 1).trans (E3_of m H0 H1 c main_v9_1 (by decide)).symm)
  | ⟨2, _⟩ => (((H1 (E2 m H0)).dat c).arrAt_in 2 rfl _).trans (((H1 (E2 m H0)).hA c 2).trans (E3_of m H0 H1 c main_v9_2 (by decide)).symm)
  | ⟨3, _⟩ => (((H1 (E2 m H0)).dat c).arrAt_in 3 rfl _).trans (((H1 (E2 m H0)).hA c 3).trans (E3_of m H0 H1 c main_v4 (by decide)).symm)
  | ⟨4, _⟩ => (((H1 (E2 m H0)).dat c).arrAt_in 4 rfl _).trans (((H1 (E2 m H0)).hA c 4).trans (E3_of m H0 H1 c main_v8 (by decide)).symm)
  | ⟨5, _⟩ => (W3_arr m H0 H1 c 5).symm.trans (E3_v10 m H0 H1 c).symm

theorem hrest1 (c : Dev nD) : ∀ b, b ∉ Finset.univ.image (Pipeline.arrRef spec1) → E3 m H0 H1 c b = E2 m H0 c b :=
  fun b hb => E3_of m H0 H1 c b fun hmem => hb (by
    rcases List.mem_cons.mp hmem with rfl | hmem
    · exact Finset.mem_image.mpr ⟨5, Finset.mem_univ _, rfl⟩
    · exact absurd hmem (List.not_mem_nil))

/-! ## The attention region as a segment -/

set_option backward.isDefEq.respectTransparency.types false in
/-- Entered from the contents the projection region left, left with its result array at what the pipeline leaves.
    Besides the arrays, the lengths table is split out of the buffers held and enters the invariant whole; it comes
    back with the generator register and rejoins the other buffers at the exit. -/
def reg1 : Pipeline.RegionSeg (pcfgs (F := F)) (adm m H0) (pdats m H0 H1) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := ((H1 (E2 m H0)).hbody c).loose
  hwaits := Pipeline.hwaits_of_owed_zero _ _ _ _ L lv 1 fun c t => (H1 (E2 m H0)).howed c t
  pre c := iprop(StableHlo.held (c : Thread nD τ) (Pipeline.ucRefs τ sig) (Gen.V2 m (outsA m H0) c) ∗ Rst c)
  post c := iprop(StableHlo.held (c : Thread nD τ) (Pipeline.ucRefs τ sig) (Gen.V3 m (outs m H0 H1) c) ∗ Rst c)
  X c := iprop(∃ r, prngReg c r)
  Y c := iprop((∃ r, prngReg c r) ∗ Pipeline.prefHeld (Ix := Unit) (Name := ℕ) (U := UR sig nD τ) (Lvl := ℕ) pre1 c (fun _ => fullShare) (tblOf (E2 m H0)))
  Z c := Pipeline.unscopedRestP (Ix := Unit) (Name := ℕ) (U := UR sig nD τ) (Lvl := ℕ) pre1 spec1 c (E2 m H0 c)
  hentry c := by
    rw [Pipeline.ownSems0_none]
    have hsplit := Pipeline.arrays_of_unscopedBufs (p := 1) (pcfgs (F := F)) (adm m H0) (pdats m H0 H1) (launch1 (F := F)).win (launch1 (F := F)).arr_whole c
      ((H1 (E2 m H0)).hshare c) (E2 m H0 c) ((H1 (E2 m H0)).hA c)
    have hs : (Pipeline.unscopedRest (Ix := Unit) (Name := ℕ) (U := UR sig nD τ) (Lvl := ℕ) (Pipeline.pin (pcfgs (F := F)) (adm m H0) 1).spec c (E2 m H0 c) : sProp 𝕄)
        = iprop(Pipeline.prefHeld pre1 c (fun _ => fullShare) (fun k => E2 m H0 c (pre1.ref k)) ∗ Pipeline.unscopedRestP pre1 spec1 c (E2 m H0 c)) :=
      Pipeline.unscopedRest_split preFacts1 c (E2 m H0 c)
    rw [Pipeline.unscopedBufs_held, hs] at hsplit
    obtain rfl : c = 0 := Subsingleton.elim _ _
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      rw [show (pdats m H0 H1 1 (0 : Dev nD)).owed 0 = 0 from (H1 (E2 m H0)).howed 0 0]
      icases HO with ⟨%W, HO⟩; iexists W; isplitr; · ipureintro; exact fun _ _ => Or.inl ((H1 (E2 m H0)).hrec 0 0 ▸ Set.mem_univ _)
      iexact HO
    isplitl [Hp]; · iexact Hp
    iexact Hrest
  hin c := by
    rw [show (pdats m H0 H1 1 c).Φ 0 = _ from (H1 (E2 m H0)).hΦ c 0]; unfold Pipeline.ΦA
    iintro ⟨Hp, Ht, Hr⟩
    isplitr [Ht]
    · isplitl [Hr]; · iexact Hr
      iexact Hp
    iexact Ht
  hout c := by
    rw [Pipeline.ownSems0_none, show (pdats m H0 H1 1 c).Φ (Fin.last _) = _ from (H1 (E2 m H0)).hΦ c _]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m H0) (Ix := Unit) (Name := ℕ) (U := UR sig nD τ) (Lvl := ℕ)
      (launch1 (F := F)).win (launch1 (F := F)).arr_whole c (pdats m H0 H1) ((H1 (E2 m H0)).hshare c)
      (E2 m H0 c) (E3 m H0 H1 c) ((pdats m H0 H1 1 c).arrAt · (cfg1 (admOf (E2 m H0))).N) (hF1 m H0 H1 c) (hrest1 m H0 H1 c)
    have hs : (Pipeline.unscopedRest (Ix := Unit) (Name := ℕ) (U := UR sig nD τ) (Lvl := ℕ) (Pipeline.pin (pcfgs (F := F)) (adm m H0) 1).spec c (E2 m H0 c) : sProp 𝕄)
        = iprop(Pipeline.prefHeld pre1 c (fun _ => fullShare) (fun k => E2 m H0 c (pre1.ref k)) ∗ Pipeline.unscopedRestP pre1 spec1 c (E2 m H0 c)) :=
      Pipeline.unscopedRest_split preFacts1 c (E2 m H0 c)
    rw [Pipeline.unscopedBufs_held, hs] at hjoin
    obtain rfl : c = 0 := Subsingleton.elim _ _
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    rw [show (pdats m H0 H1 1 (0 : Dev nD)).owed (Fin.last _) = 0 from (H1 (E2 m H0)).howed 0 _]
    icases HO with ⟨%W, -, HO⟩; iexists W; iexact HO

/-! ## The run -/

/-- What rides along ends owing nothing. -/
theorem Rst_owes (c : Dev nD) :
    (Rst (F := F) c) ⊢ (iprop(∃ W, owes (c : Thread nD τ) (0 : CellTallies nD τ sig Unit) W) : sProp 𝕄) := by
  iintro ⟨-, H⟩; iexact H

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates, and every final memory holds
    each unscoped buffer at the last valuation: the launch memory, the host operations, each region's arrays at what
    its pipeline leaves, the closing reshape. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V4 m (outs m H0 H1) c b) := by
  refine Pipeline.θ_run_regions_kit_dev (pcfgs (F := F)) (adm m H0) (pdats m H0 H1) () (cellOf_inj (adm m H0)) emb₁ defs₀ 𝒱₀ L lv m ρ main
    (Gen.segs m (outs m H0 H1) 𝒱₀ L lv (fun _ => Rst) () (adm m H0) (pdats m H0 H1) (reg0 m H0 H1) (reg1 m H0 H1))
    (fun c Q => by
      rewrite [main_chain c, Pipeline.Seg.run_eq_chain,
        show (Gen.segs m (outs m H0 H1) 𝒱₀ L lv (fun _ => Rst) () (adm m H0) (pdats m H0 H1) (reg0 m H0 H1) (reg1 m H0 H1) c).map Pipeline.Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m H0)) (cellOf_inj (adm m H0))) (Pipeline.launchToks (Pipeline.pin (pcfgs (F := F)) (adm m H0)) (cellOf_inj (adm m H0))))
    (hu₀ := by
      iintro Hu; imodintro
      isplitl [Hu]
      · iapply (show (ownU (initOf (Pipeline.cells (Pipeline.pin (pcfgs (F := F)) (adm m H0)) (cellOf_inj (adm m H0))) (Pipeline.launchToks (Pipeline.pin (pcfgs (F := F)) (adm m H0)) (cellOf_inj (adm m H0)))) : sProp 𝕄)
            ⊢ BI.own (emb₁ (initOf (Pipeline.cells (Pipeline.pin (pcfgs (F := F)) (adm m H0)) (cellOf_inj (adm m H0))) (Pipeline.launchToks (Pipeline.pin (pcfgs (F := F)) (adm m H0)) (cellOf_inj (adm m H0))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V4 m (outs m H0 H1) c))
    (hch := fun c => ⟨.rfl, .rfl, .rfl, .rfl, sep_mono .rfl (Rst_owes c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m (outs m H0 H1) c b)
    (hfin := fun c s' => by
      iintro ⟨Hh, HSI⟩
      unfold StableHlo.held
      imodintro
      iapply (pointsTo_read_all (Pipeline.ucRefs τ sig) (fun b => (((c : Thread nD τ)).1, b)) (Gen.V4 m (outs m H0 H1) c) s')
      isplitl [Hh] <;> iassumption)
    (hQ := fun s h c => h c)

include H0 H1 in
/-- THE FRAME at any float instance: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_arg0 (by decide))).trans (Gen.V4_main_arg0 m _ c),
     (h c _ (mem_uc main_arg1 (by decide))).trans (Gen.V4_main_arg1 m _ c),
     (h c _ (mem_uc main_arg2 (by decide))).trans (Gen.V4_main_arg2 m _ c),
     (h c _ (mem_uc main_arg3 (by decide))).trans (Gen.V4_main_arg3 m _ c),
     (h c _ (mem_uc main_arg4 (by decide))).trans (Gen.V4_main_arg4 m _ c),
     (h c _ (mem_uc main_arg5 (by decide))).trans (Gen.V4_main_arg5 m _ c),
     (h c _ (mem_uc main_arg6 (by decide))).trans (Gen.V4_main_arg6 m _ c),
     (h c _ (mem_uc main_arg7 (by decide))).trans (Gen.V4_main_arg7 m _ c),
     (h c _ (mem_uc main_arg8 (by decide))).trans (Gen.V4_main_arg8 m _ c),
     (h c _ (mem_uc main_arg9 (by decide))).trans (Gen.V4_main_arg9 m _ c)⟩) (run_main m H0 H1 ρ)

/-- The run with the result array named: it ends at the last valuation's contents, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v11) = Gen.V4 m (outs m H0 H1) c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨h c _ (mem_uc main_v11 (by decide)),
     (h c _ (mem_uc main_arg0 (by decide))).trans (Gen.V4_main_arg0 m _ c),
     (h c _ (mem_uc main_arg1 (by decide))).trans (Gen.V4_main_arg1 m _ c),
     (h c _ (mem_uc main_arg2 (by decide))).trans (Gen.V4_main_arg2 m _ c),
     (h c _ (mem_uc main_arg3 (by decide))).trans (Gen.V4_main_arg3 m _ c),
     (h c _ (mem_uc main_arg4 (by decide))).trans (Gen.V4_main_arg4 m _ c),
     (h c _ (mem_uc main_arg5 (by decide))).trans (Gen.V4_main_arg5 m _ c),
     (h c _ (mem_uc main_arg6 (by decide))).trans (Gen.V4_main_arg6 m _ c),
     (h c _ (mem_uc main_arg7 (by decide))).trans (Gen.V4_main_arg7 m _ c),
     (h c _ (mem_uc main_arg8 (by decide))).trans (Gen.V4_main_arg8 m _ c),
     (h c _ (mem_uc main_arg9 (by decide))).trans (Gen.V4_main_arg9 m _ c)⟩) (run_main m H0 H1 ρ)

end Cert.Kernel.Hand

end
-- ==== Proof.KQkvRegion.lean ====
import proofs.«422647_j35725537968569_1_alg».proof.Proof.Gen.Kernel.Launch
import proofs.«422647_j35725537968569_1_alg».proof.Proof.Gen.Kernel.Skeleton
import proofs.«422647_j35725537968569_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/- the TensorCore's buffer contents when the region is entered: a PARAMETER of everything below -/
variable (V : (c : Dev nD) → (b : Ref sig .tc) → Buf (Elt F) ((c : Thread nD τ).loc b))

/-! # Region 0: the three projections' kernel, at the entry contents `V` -/

/-! ## The windows' blocks -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: at every point its current staging buffer holds that window's block, whether or not a fetch
    landed there — an unfetched point has the block index of the point before, and the body leaves the block as found. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- Input window 1: at every point its current staging buffer holds that window's block, whether or not a fetch
    landed there — an unfetched point has the block index of the point before, and the body leaves the block as found. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-- Input window 2: at every point its current staging buffer holds that window's block, whether or not a fetch
    landed there — an unfetched point has the block index of the point before, and the body leaves the block as found. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

/-- Input window 3: at every point its current staging buffer holds that window's block, whether or not a fetch
    landed there — an unfetched point has the block index of the point before, and the body leaves the block as found. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl)
      (fun t => by rw [hafter]; unfold Dat.blockOf iblk0; rw [hA]; try rfl) t d).trans
    (by unfold Dat.fetched Dat.blockOf iblk0; rw [hA]; try rfl)

/-- Input window 4: at every point its current staging buffer holds that window's block, whether or not a fetch
    landed there — an unfetched point has the block index of the point before, and the body leaves the block as found. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl)
      (fun t => by rw [hafter]; unfold Dat.blockOf iblk0; rw [hA]; try rfl) t d).trans
    (by unfold Dat.fetched Dat.blockOf iblk0; rw [hA]; try rfl)

/-- Input window 5: at every point its current staging buffer holds that window's block, whether or not a fetch
    landed there — an unfetched point has the block index of the point before, and the body leaves the block as found. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl)
      (fun t => by rw [hafter]; unfold Dat.blockOf iblk0; rw [hA]; try rfl) t d).trans
    (by unfold Dat.fetched Dat.blockOf iblk0; rw [hA]; try rfl)

/-- Input window 6: at every point its current staging buffer holds that window's block, whether or not a fetch
    landed there — an unfetched point has the block index of the point before, and the body leaves the block as found. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl)
      (fun t => by rw [hafter]; unfold Dat.blockOf iblk0; rw [hA]; try rfl) t d).trans
    (by unfold Dat.fetched Dat.blockOf iblk0; rw [hA]; try rfl)

/-! ## The body's accesses: every load and store is of a whole staging buffer -/

/-- the whole activation / projection tile `[1,256,1024]` -/
abbrev rT : Rect S1x256x1024 := Rect.unit (s := S1x256x1024) ![0, 0, 0] S1x256x1024.size inb_S1x256x1024_S1x256x1024_0_0_0
/-- the whole weight matrix `[1024,1024]` -/
abbrev rW : Rect S1024x1024 := Rect.unit (s := S1024x1024) ![0, 0] S1024x1024.size inb_S1024x1024_S1024x1024_0_0
/-- the whole bias row `[1,1024]` -/
abbrev rB : Rect S1x1024 := Rect.unit (s := S1x1024) ![0, 0] S1x1024.size inb_S1x1024_S1x1024_0_0

/-! ## What the body leaves in each output window's buffer

Each projection tile is stored whole, once: the buffer afterwards is that one store's payload, a function of the
activation tile, the weight matrix and the bias row the body loaded. -/

/-- The query tile: `trunc (x · Wqᵀ + bq)`, as the body's payload of the loaded blocks. -/
def qOut (x : Vec F S1x256x1024 .bf16) (w : Vec F S1024x1024 .bf16) (b : Vec F S1x1024 .f32) : Vec F S1x256x1024 .bf16 :=
  View.canon [⟨rT, k0_pay5 (View.ld x rT) (View.ld w rW) (View.ld b rB)⟩]

/-- The key tile: `trunc (x · Wkᵀ + bk)`. -/
def kOut (x : Vec F S1x256x1024 .bf16) (w : Vec F S1024x1024 .bf16) (b : Vec F S1x1024 .f32) : Vec F S1x256x1024 .bf16 :=
  View.canon [⟨rT, k0_pay1 (k0_pay6 (View.ld x rT) (View.ld w rW) (View.ld b rB))⟩]

/-- The value tile: `trunc (x · Wvᵀ + bv)`. -/
def vOut (x : Vec F S1x256x1024 .bf16) (w : Vec F S1024x1024 .bf16) (b : Vec F S1x1024 .f32) : Vec F S1x256x1024 .bf16 :=
  View.canon [⟨rT, k0_pay2 (k0_pay4 (View.ld x rT) (View.ld w rW) (View.ld b rB))⟩]

/-- One whole-tile store covers the tile. -/
theorem coverT (p : Vec F S1x256x1024 .bf16) (y : S1x256x1024.Idx) :
    ∃ pc ∈ ([⟨rT, p⟩] : List (View.Piece (Elt F) S1x256x1024 .bf16)), y ∈ pc.1.set :=
  View.cover_of_tiled [⟨rT, p⟩] S1x256x1024.size (by rfl) y

/-! ## The body's triple -/

set_option maxHeartbeats 4000000 in
/-- The kernel body on whole staging memrefs — the seven inputs' at read contents `x`, `wq`, `bq`, `wk`, `bk`, `wv`,
    `bv`, the three outputs' at anything — runs to the continuation holding the inputs' as they were and each output's
    at its projection tile of the inputs': every load reads a whole buffer, every store writes one whole. -/
theorem sound_kernel0 (c : Dev nD) (E : Set ℕ) (i : grid0.Coords)
    (arg2 : Memref sig .tc .vmem S1x256x1024 .bf16) (harg2 : arg2.IsWhole)
    (arg3 : Memref sig .tc .vmem S1024x1024 .bf16) (harg3 : arg3.IsWhole)
    (arg4 : Memref sig .tc .vmem S1x1024 .f32) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S1024x1024 .bf16) (harg7 : arg7.IsWhole)
    (arg8 : Memref sig .tc .vmem S1x1024 .f32) (harg8 : arg8.IsWhole)
    (arg9 : Memref sig .tc .vmem S1x256x1024 .bf16) (harg9 : arg9.IsWhole)
    (arg10 : Memref sig .tc .vmem S1x256x1024 .bf16) (harg10 : arg10.IsWhole)
    (arg11 : Memref sig .tc .vmem S1x256x1024 .bf16) (harg11 : arg11.IsWhole)
    (x : Vec F S1x256x1024 .bf16) (wq : Vec F S1024x1024 .bf16) (bq : Vec F S1x1024 .f32)
    (wk : Vec F S1024x1024 .bf16) (bk : Vec F S1x1024 .f32) (wv : Vec F S1024x1024 .bf16) (bv : Vec F S1x1024 .f32)
    (K : PUnit → sProp 𝕄) :
    iprop(owns (c : Thread nD τ) arg2 fullShare x ∗ owns (c : Thread nD τ) arg3 fullShare wq
        ∗ owns (c : Thread nD τ) arg4 fullShare bq ∗ owns (c : Thread nD τ) arg5 fullShare wk
        ∗ owns (c : Thread nD τ) arg6 fullShare bk ∗ owns (c : Thread nD τ) arg7 fullShare wv
        ∗ owns (c : Thread nD τ) arg8 fullShare bv
        ∗ (∃ d, owns (c : Thread nD τ) arg9 fullShare d) ∗ (∃ d, owns (c : Thread nD τ) arg10 fullShare d)
        ∗ (∃ d, owns (c : Thread nD τ) arg11 fullShare d)
        ∗ (iprop(owns (c : Thread nD τ) arg2 fullShare x ∗ owns (c : Thread nD τ) arg3 fullShare wq
            ∗ owns (c : Thread nD τ) arg4 fullShare bq ∗ owns (c : Thread nD τ) arg5 fullShare wk
            ∗ owns (c : Thread nD τ) arg6 fullShare bk ∗ owns (c : Thread nD τ) arg7 fullShare wv
            ∗ owns (c : Thread nD τ) arg8 fullShare bv
            ∗ owns (c : Thread nD τ) arg9 fullShare (qOut x wq bq)
            ∗ owns (c : Thread nD τ) arg10 fullShare (kOut x wk bk)
            ∗ owns (c : Thread nD τ) arg11 fullShare (vOut x wv bv)) -∗ K ⟨⟩))
      ⊢ wp frame (wpE (defs₀ (F := F)) Variants.none c none) E
          (cc0__qkv_kernel i arg2 harg2 arg3 harg3 arg4 harg4 arg5 harg5 arg6 harg6 arg7 harg7 arg8 harg8 arg9 harg9 arg10 harg10 arg11 harg11) K := by
  simp only [cc0__qkv_kernel_eq_skeleton]; unfold cc0__qkv_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%d10, %f10, -, H10⟩, ⟨%d11, %f11, -, H11⟩, Hk⟩
  subst hf2 hf3 hf4 hf5 hf6 hf7 hf8
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (coverT _)
  isplitl [H10]
  · iexists _; isplitr
    swap; · iexact H10
    ipureintro
    exact View.read_writes_eq_canon _ _ _ (coverT _)
  iexists _; isplitr
  swap; · iexact H11
  ipureintro
  exact View.read_writes_eq_canon _ _ _ (coverT _)

/-! ## The pipeline's proof data -/

/-- The proof data of the projections' pipeline on core `c`: the arrays as the region finds them; after the body at
    point `t` each input's buffer still at its block, each output's at its projection of the input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => qOut (iblk0 V c 0 t) (iblk0 V c 1 t) (iblk0 V c 2 t)
    | ⟨8, _⟩ => kOut (iblk0 V c 0 t) (iblk0 V c 3 t) (iblk0 V c 4 t)
    | ⟨9, _⟩ => vOut (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = qOut (iblk0 V c 0 t) (iblk0 V c 1 t) (iblk0 V c 2 t) := by dsimp only [dat0]
theorem after0_8 (c : Dev nD) (t : Fin cfg0.N) :
    (dat0 V c).after 8 t = kOut (iblk0 V c 0 t) (iblk0 V c 3 t) (iblk0 V c 4 t) := by dsimp only [dat0]
theorem after0_9 (c : Dev nD) (t : Fin cfg0.N) :
    (dat0 V c).after 9 t = vOut (iblk0 V c 0 t) (iblk0 V c 5 t) (iblk0 V c 6 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`: the invariant, the core's dues, and every window's current staging
    buffer at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns: the same, every buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KAttnSchedule.lean ====
/-
  The schedule of the second kernel's pipeline on its 8 × 8 grid, at any contents of the prefetched table.

  The grid's points are numbered row by row: point `t` is batch entry `t / 8`, query tile `t % 8`. No window's
  block index reads the table, so the schedule is the same at every contents. The five input windows are read,
  never written, by the body: whether or not a fetch lands at a point, the window's current buffer holds the
  window's block there (an unfetched point has the block index of the point before it). The output window's
  block index is the batch entry alone, so it moves exactly after the last tile of a batch entry: the buffer is
  written back at the points `t` with `t % 8 = 7`, and at every point that is not a batch entry's first tile
  it still holds what the body left at the point before — the buffer is an accumulator over the eight tiles.
-/
import proofs.«422647_j35725537968569_1_alg».proof.Proof.Gen.Kernel.Launch
import proofs.«422647_j35725537968569_1_alg».proof.Proof.Gen.Kernel.Skeleton
import proofs.«422647_j35725537968569_1_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.Kernel.Hand

open Idealize.ShloMosaic Idealize.ShloMosaic.TcCoe Idealize.SL Idealize.SL.Sem
open Idealize.ShloMosaic.Pipeline (Dat Cfg Window)
open Cert.Kernel Cert.Kernel.Gen

variable {F : FTy → Type} [FloatOps F]

/-! ## The output window's write-backs -/

/-- The output window's block index is `(t / 8, 0, 0)`: it differs between point `t` and the next exactly when `t` is
    the last tile of its batch entry, and the last point of the grid is such a tile too. -/
theorem flush1_5 (a : (pcfg1 (F := F)).Adm) : ∀ t : Fin (cfg1 a).N, ((cfg1 a).win 5).flush t = true ↔ t.val % 8 = 7 :=
  (by decide +kernel : ∀ t : Fin grid1.N, Pipeline.Window.flushOf grid1 true cc1_transform_5 t = true ↔ t.val % 8 = 7)

/-! ## The input windows' buffers hold their blocks -/

/-- The query tile's window: its current buffer holds the window's block at every point. -/
theorem before1_in_0 (a : (pcfg1 (F := F)).Adm) {c : Dev nD} (dat : Dat τ (Elt F) Unit ℕ (UR sig nD τ) ℕ (cfg1 a) c)
    (hafter : ∀ t, dat.after 0 t = dat.blockOf 0 t) (t : Fin (cfg1 a).N) (d) : dat.before 0 t d = dat.blockOf 0 t :=
  (dat.before_in_eq_fetched 0 rfl (fun _ => rfl) (fun _ _ _ => rfl) (fun t => by rw [hafter]; try rfl) t d).trans
    (by unfold Dat.fetched; try rfl)

/-- The keys' window likewise. -/
theorem before1_in_1 (a : (pcfg1 (F := F)).Adm) {c : Dev nD} (dat : Dat τ (Elt F) Unit ℕ (UR sig nD τ) ℕ (cfg1 a) c)
    (hafter : ∀ t, dat.after 1 t = dat.blockOf 1 t) (t : Fin (cfg1 a).N) (d) : dat.before 1 t d = dat.blockOf 1 t :=
  (dat.before_in_eq_fetched 1 rfl (fun _ => rfl) (fun _ _ _ => rfl) (fun t => by rw [hafter]; try rfl) t d).trans
    (by unfold Dat.fetched; try rfl)

/-- The values' window likewise. -/
theorem before1_in_2 (a : (pcfg1 (F := F)).Adm) {c : Dev nD} (dat : Dat τ (Elt F) Unit ℕ (UR sig nD τ) ℕ (cfg1 a) c)
    (hafter : ∀ t, dat.after 2 t = dat.blockOf 2 t) (t : Fin (cfg1 a).N) (d) : dat.before 2 t d = dat.blockOf 2 t :=
  (dat.before_in_eq_fetched 2 rfl (fun _ => rfl) (fun _ _ _ => rfl) (fun t => by rw [hafter]; try rfl) t d).trans
    (by unfold Dat.fetched; try rfl)

/-- The output weights' window likewise. -/
theorem before1_in_3 (a : (pcfg1 (F := F)).Adm) {c : Dev nD} (dat : Dat τ (Elt F) Unit ℕ (UR sig nD τ) ℕ (cfg1 a) c)
    (hafter : ∀ t, dat.after 3 t = dat.blockOf 3 t) (t : Fin (cfg1 a).N) (d) : dat.before 3 t d = dat.blockOf 3 t :=
  (dat.before_in_eq_fetched 3 rfl (fun _ => rfl) (fun _ _ _ => rfl) (fun t => by rw [hafter]; try rfl) t d).trans
    (by unfold Dat.fetched; try rfl)

/-- The output bias's window likewise. -/
theorem before1_in_4 (a : (pcfg1 (F := F)).Adm) {c : Dev nD} (dat : Dat τ (Elt F) Unit ℕ (UR sig nD τ) ℕ (cfg1 a) c)
    (hafter : ∀ t, dat.after 4 t = dat.blockOf 4 t) (t : Fin (cfg1 a).N) (d) : dat.before 4 t d = dat.blockOf 4 t :=
  (dat.before_in_eq_fetched 4 rfl (fun _ => rfl) (fun _ _ _ => rfl) (fun t => by rw [hafter]; try rfl) t d).trans
    (by unfold Dat.fetched; try rfl)

/-! ## The accumulator between write-backs -/

/-- At a point that is not the first tile of its batch entry the point before is not a last tile, so nothing was
    written back there, and the output window's buffer still holds what the body left at that point. -/
theorem before1_acc (a : (pcfg1 (F := F)).Adm) {c : Dev nD} (dat : Dat τ (Elt F) Unit ℕ (UR sig nD τ) ℕ (cfg1 a) c)
    (t : Fin (cfg1 a).N) (h0 : ¬ t.val % 8 = 0) (d) :
    dat.before 5 t d = dat.after 5 ⟨t.val - 1, Nat.lt_of_le_of_lt (Nat.sub_le _ _) t.isLt⟩ := by
  have hN : t.val < 64 := lt_of_lt_of_eq t.isLt N_1
  exact Dat.before_out_kept _ 5 rfl t (by omega)
    (Bool.eq_false_iff.mpr fun h => by have := (flush1_5 a _).mp h; dsimp only at this; omega)
    (fun _ => rfl) (fun _ _ => rfl) d

end Cert.Kernel.Hand

end
-- ==== Proof.KAttnRegion.lean ====
import proofs.«422647_j35725537968569_1_alg».proof.Proof.Gen.Kernel.Launch
import proofs.«422647_j35725537968569_1_alg».proof.Proof.Gen.Kernel.Skeleton
import proofs.«422647_j35725537968569_1_alg».proof.Proof.Gen.Kernel.Points
import proofs.«422647_j35725537968569_1_alg».proof.Proof.KAttnSchedule
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

/-! # Region 1 (masked attention, output projection, mean over the sequence): the frame half

The second kernel launch runs on a grid of 8 batch entries by 8 query tiles.  Its one output window is a
`[1,1,1024]` row indexed by the batch entry alone, so its staging buffer is an ACCUMULATOR carried over
the eight query tiles of a batch entry: cleared at tile 0, increased at every tile by the column sums
of that tile's projected attention output, and scaled by `2^-11` at tile 7, after which it is written
back.  This module states what that buffer holds after every grid point and proves the body
obligation of the pipeline against it. -/

/- the TensorCore's buffer contents when the region is entered: a PARAMETER of everything below -/
variable (V : (c : Dev nD) → (b : Ref sig .tc) → Buf (Elt F) ((c : Thread nD τ).loc b))

/-- the table's contents when the region is entered (one device) -/
def tbl1 : pre1.Contents (Elt F) := fun j => V (0 : Dev nD) (pre1.ref j)

/-- the table's contents as admissible contents (the side condition on them is `True`) -/
abbrev adm1 : (pcfg1 (F := F)).Adm := ⟨tbl1 V, trivial⟩
/-- the pipeline at those contents -/
abbrev cfgM1 : Pipeline.Cfg sig Λ₀ := cfg1 (adm1 V)

/-- window `w`'s block at point `t`, read off its array as the region finds it -/
def iblk1 (c : Dev nD) (w : Fin (cfgM1 V).W) (t : Fin (cfgM1 V).N) : (((cfgM1 V).win w).xblock ((cfgM1 V).grid.coords t)).Idx → Elt F ((cfgM1 V).win w).elt :=
  (((cfgM1 V).win w).blk t).view.read (Elt F) (V c (Pipeline.arrRef spec1 w))

/-! ## The blocks at a point, each at its literal type -/

/-- the query tile: 256 rows of the batch entry's queries -/
abbrev qblk1 (c : Dev nD) (t : Fin (cfgM1 V).N) : Vec F S1x256x1024 .bf16 := iblk1 V c 0 t
/-- the batch entry's keys, all 2048 rows -/
abbrev kblk1 (c : Dev nD) (t : Fin (cfgM1 V).N) : Vec F S1x2048x1024 .bf16 := iblk1 V c 1 t
/-- the batch entry's values, all 2048 rows -/
abbrev vblk1 (c : Dev nD) (t : Fin (cfgM1 V).N) : Vec F S1x2048x1024 .bf16 := iblk1 V c 2 t
/-- the output projection's weights -/
abbrev woblk1 (c : Dev nD) (t : Fin (cfgM1 V).N) : Vec F S1024x1024 .bf16 := iblk1 V c 3 t
/-- the output projection's bias -/
abbrev boblk1 (c : Dev nD) (t : Fin (cfgM1 V).N) : Vec F S1x1024 .f32 := iblk1 V c 4 t

/-- the table as the body is handed it: its whole buffer as a memref -/
abbrev tbM1 : Memref sig .tc .smem S8 .i32 := Memref.whole main_arg1
abbrev htbM1 : (tbM1).IsWhole := Memref.isWhole_whole _

/-- the word the body loads from the table at grid coordinates `i` — the batch entry's number of valid
    keys — read through a memref `M` of the table holding contents `f` -/
def word1 (c : Dev nD) (M : Memref sig .tc .smem S8 .i32) (i : grid1.Coords) (f : Buf (Elt F) (M.view.loc (c : Thread nD τ))) : Elt F .i32 :=
  M.view.readAt (Elt F) (Rect.unit (s := S8) (k1_off1 i) S1.size (k1_off1_inb i)).toLoadRect f (Shape.Idx.first (numel1_S1.symm ▸ Nat.one_pos))

/-- the batch entry's number of valid keys at point `t` -/
def len1 (c : Dev nD) (t : Fin (cfgM1 V).N) : Elt F .i32 := word1 c tbM1 (grid1.coords t) (tbl1 V 0)

/-! ## The accumulator, point by point -/

/-- one tile's step on the accumulator: the column sums of the tile's projected attention output,
    added to `acc` -/
def tileAcc1 (c : Dev nD) (t : Fin (cfgM1 V).N) (acc : Vec F S1x1x1024 .f32) : Vec F S1x1x1024 .f32 :=
  k1_pay1 (k1_pay4 (qblk1 V c t) (kblk1 V c t) (vblk1 V c t) (len1 V c t)) (k1_pay5 (woblk1 V c t)) (boblk1 V c t) acc

/-- what the accumulator's staging buffer holds AFTER the body at point `n`: at the first tile of a
    batch entry the tile's step from zeros; at a later tile its step from what the tile before left;
    at the last tile that, scaled by `2^-11` -/
def accAt1 (c : Dev nD) : (n : ℕ) → n < (cfgM1 V).N → Vec F S1x1x1024 .f32
  | 0, hn => tileAcc1 V c ⟨0, hn⟩ (k1_pay3 (F := F))
  | n + 1, hn =>
    if h0 : (n + 1) % 8 = 0 then tileAcc1 V c ⟨n + 1, hn⟩ (k1_pay3 (F := F))
    else if h7 : (n + 1) % 8 = 7 then k1_pay2 (tileAcc1 V c ⟨n + 1, hn⟩ (accAt1 c n (Nat.lt_of_succ_lt hn)))
    else tileAcc1 V c ⟨n + 1, hn⟩ (accAt1 c n (Nat.lt_of_succ_lt hn))

/-- at the first tile of a batch entry: the tile's step from zeros -/
theorem accAt1_first (c : Dev nD) (t : Fin (cfgM1 V).N) (h0 : t.val % 8 = 0) :
    accAt1 V c t.val t.isLt = tileAcc1 V c t (k1_pay3 (F := F)) := by
  obtain ⟨n, hn⟩ := t
  cases n with
  | zero => rfl
  | succ n => exact (dif_pos h0).trans rfl

/-- at a tile that is neither the first nor the last: the tile's step from what the tile before left -/
theorem accAt1_mid (c : Dev nD) (t : Fin (cfgM1 V).N) (h0 : ¬ t.val % 8 = 0) (h7 : ¬ t.val % 8 = 7) :
    accAt1 V c t.val t.isLt = tileAcc1 V c t (accAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h7).trans rfl)

/-- at the last tile: the tile's step from what the tile before left, scaled by `2^-11` -/
theorem accAt1_last (c : Dev nD) (t : Fin (cfgM1 V).N) (h7 : t.val % 8 = 7) :
    accAt1 V c t.val t.isLt = k1_pay2 (tileAcc1 V c t (accAt1 V c (t.val - 1) (Nat.lt_of_le_of_lt (Nat.sub_le _ _) t.isLt))) := by
  obtain ⟨n, hn⟩ := t
  cases n with
  | zero => exact absurd h7 (show ¬ (0 % 8 = 7) by decide)
  | succ n =>
    have h0 : ¬ (n + 1) % 8 = 0 := fun h => by dsimp only at h7; omega
    exact (dif_neg h0).trans ((dif_pos h7).trans rfl)

/-! ## The pipeline's proof data -/

/-- the proof data of region 1 on core `c`: the arrays as the region finds them; after the body at a
    point every input's buffer at its block and the accumulator's at `accAt1`; the invariant the scoped
    rest with the table held whole; nothing owed; full shares -/
def dat1 (c : Dev nD) : Dat τ (Elt F) Unit ℕ (UR sig nD τ) ℕ (cfgM1 V) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => accAt1 V c t.val t.isLt
  Φ _ := iprop(Pipeline.ΦA spec1 c ∗ Pipeline.prefHeld (Ix := Unit) (Name := ℕ) (U := UR sig nD τ) (Lvl := ℕ) pre1 c (fun _ => fullShare) (tbl1 V))
  q _ := fullShare
  owed _ := 0

theorem A_eq1 (c : Dev nD) (w : Fin (cfgM1 V).W) : (dat1 V c).A w = V c (Pipeline.arrRef spec1 w) := by
  dsimp only [dat1]

theorem after1_0 (c : Dev nD) (t : Fin (cfgM1 V).N) : (dat1 V c).after 0 t = iblk1 V c 0 t := by dsimp only [dat1]; try rfl
theorem after1_1 (c : Dev nD) (t : Fin (cfgM1 V).N) : (dat1 V c).after 1 t = iblk1 V c 1 t := by dsimp only [dat1]; try rfl
theorem after1_2 (c : Dev nD) (t : Fin (cfgM1 V).N) : (dat1 V c).after 2 t = iblk1 V c 2 t := by dsimp only [dat1]; try rfl
theorem after1_3 (c : Dev nD) (t : Fin (cfgM1 V).N) : (dat1 V c).after 3 t = iblk1 V c 3 t := by dsimp only [dat1]; try rfl
theorem after1_4 (c : Dev nD) (t : Fin (cfgM1 V).N) : (dat1 V c).after 4 t = iblk1 V c 4 t := by dsimp only [dat1]; try rfl
theorem after1_5 (c : Dev nD) (t : Fin (cfgM1 V).N) : (dat1 V c).after 5 t = accAt1 V c t.val t.isLt := by dsimp only [dat1]; try rfl

/-! ## The body's two conditionals, in closed form -/

/-- the condition of the body's first conditional (clear the accumulator): the query tile is tile 0 -/
abbrev cond1_0 (i : grid1.Coords) : Prop := (Scalar.cmpi .ne (Scalar.extui (Scalar.cmpi .eq (BitVec.ofNat 32 (i 1).val) 0#32)) 0#32) = 1#1
/-- the condition of its second conditional (scale the accumulator): the query tile is tile 7 -/
abbrev cond1_7 (i : grid1.Coords) : Prop := (Scalar.cmpi .ne (Scalar.extui (Scalar.cmpi .eq (BitVec.ofNat 32 (i 1).val) 7#32)) 0#32) = 1#1

/-- the grid is row-major, so the tile of point `t` is `t mod 8` -/
theorem hcond1_0 : ∀ t : Fin grid1.N, cond1_0 (grid1.coords t) ↔ t.val % 8 = 0 := by decide +kernel
theorem hcond1_7 : ∀ t : Fin grid1.N, cond1_7 (grid1.coords t) ↔ t.val % 8 = 7 := by decide +kernel

/-- the zero offsets of the whole-block accesses -/
theorem z2 : (![0, 0] : Fin 2 → Nat) = fun _ => 0 := funext fun a => by fin_cases a <;> rfl
theorem z3 : (![0, 0, 0] : Fin 3 → Nat) = fun _ => 0 := funext fun a => by fin_cases a <;> rfl

/-! ## The body on any whole staging memrefs, case by case

The body reads the five input blocks and one word of the table, and updates the accumulator `acc` to
`X`; everything else it hands back as it found it. -/

section Runs

variable (c : Dev nD) (i : grid1.Coords) (arg2 : Memref sig .tc .smem S8 .i32) (harg2 : arg2.IsWhole)
  (arg3 : Memref sig .tc .vmem S1x256x1024 .bf16) (harg3 : arg3.IsWhole) (arg4 : Memref sig .tc .vmem S1x2048x1024 .bf16) (harg4 : arg4.IsWhole)
  (arg5 : Memref sig .tc .vmem S1x2048x1024 .bf16) (harg5 : arg5.IsWhole) (arg6 : Memref sig .tc .vmem S1024x1024 .bf16) (harg6 : arg6.IsWhole)
  (arg7 : Memref sig .tc .vmem S1x1024 .f32) (harg7 : arg7.IsWhole) (arg8 : Memref sig .tc .vmem S1x1x1024 .f32) (harg8 : arg8.IsWhole)
  (q : Vec F S1x256x1024 .bf16) (k v : Vec F S1x2048x1024 .bf16) (wo : Vec F S1024x1024 .bf16) (bo : Vec F S1x1024 .f32)
  (sh : PosShare TreeShare) (tb : Buf (Elt F) (arg2.view.loc (c : Thread nD τ)))

/-- the staging buffers at the blocks, the accumulator's at `X`, and the table held at share `sh` -/
def held1 (X : Vec F S1x1x1024 .f32) : sProp 𝕄 :=
  iprop(owns (c : Thread nD τ) arg3 fullShare q ∗ owns (c : Thread nD τ) arg4 fullShare k ∗ owns (c : Thread nD τ) arg5 fullShare v
    ∗ owns (c : Thread nD τ) arg6 fullShare wo ∗ owns (c : Thread nD τ) arg7 fullShare bo ∗ owns (c : Thread nD τ) arg8 fullShare X
    ∗ (arg2.view.loc (c : Thread nD τ) ↦{sh} tb))

/-- the tile's step on an accumulator `acc`, over the blocks as variables -/
abbrev step1 (acc : Vec F S1x1x1024 .f32) : Vec F S1x1x1024 .f32 :=
  k1_pay1 (k1_pay4 q k v (word1 c arg2 i tb)) (k1_pay5 wo) bo acc

set_option maxHeartbeats 1000000 in
/-- a tile that is neither the first nor the last: the accumulator takes the tile's step -/
theorem run1_mid (hc0 : ¬cond1_0 i) (hc7 : ¬cond1_7 i) (acc : Vec F S1x1x1024 .f32) (E : Set ℕ) (K : PUnit → sProp 𝕄) :
    iprop(held1 c arg2 arg3 arg4 arg5 arg6 arg7 arg8 q k v wo bo sh tb acc
        ∗ (held1 c arg2 arg3 arg4 arg5 arg6 arg7 arg8 q k v wo bo sh tb (step1 c i arg2 q k v wo bo tb acc) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold held1 owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, HT⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc0 | exact hc7)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_run_names
    rw [View.read_writes_eq_canon _ _ _ (fun y => ⟨_, List.mem_singleton_self _, View.mem_set_unit_zero z3 inb_S1x1x1024_S1x1x1024_0_0_0 y⟩), View.canon_unit_zero z3]
    simp only [View.readAt_eq_ld, harg3.read_unread, harg4.read_unread, harg5.read_unread, harg6.read_unread, harg7.read_unread, harg8.read_unread,
      View.ld_unit_zero (S := S1x256x1024) z3, View.ld_unit_zero (S := S1x2048x1024) z3, View.ld_unit_zero (S := S1024x1024) z2,
      View.ld_unit_zero (S := S1x1024) z2, View.ld_unit_zero (S := S1x1x1024) z3]
    rfl
  iexact HT

set_option maxHeartbeats 1000000 in
/-- the first tile of a batch entry: the accumulator is cleared, then takes the tile's step -/
theorem run1_first (hc0 : cond1_0 i) (hc7 : ¬cond1_7 i) (acc : Vec F S1x1x1024 .f32) (E : Set ℕ) (K : PUnit → sProp 𝕄) :
    iprop(held1 c arg2 arg3 arg4 arg5 arg6 arg7 arg8 q k v wo bo sh tb acc
        ∗ (held1 c arg2 arg3 arg4 arg5 arg6 arg7 arg8 q k v wo bo sh tb (step1 c i arg2 q k v wo bo tb (k1_pay3 (F := F))) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold held1 owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, HT⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc0 | exact hc7)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_run_names
    rw [View.read_writes_eq_canon _ _ _ (fun y => ⟨_, List.mem_cons_self, View.mem_set_unit_zero z3 inb_S1x1x1024_S1x1x1024_0_0_0 y⟩), View.canon_cons_unit_zero z3]
    simp only [View.readAt_eq_ld, harg3.read_unread, harg4.read_unread, harg5.read_unread, harg6.read_unread, harg7.read_unread, harg8.read_unread,
      View.ld_unit_zero (S := S1x256x1024) z3, View.ld_unit_zero (S := S1x2048x1024) z3, View.ld_unit_zero (S := S1024x1024) z2,
      View.ld_unit_zero (S := S1x1024) z2, View.ld_unit_zero (S := S1x1x1024) z3, View.readCov_unit_zero (S := S1x1x1024) _ z3]
    rfl
  iexact HT

set_option maxHeartbeats 1000000 in
/-- the last tile of a batch entry: the accumulator takes the tile's step and is then scaled by `2^-11` -/
theorem run1_last (hc0 : ¬cond1_0 i) (hc7 : cond1_7 i) (acc : Vec F S1x1x1024 .f32) (E : Set ℕ) (K : PUnit → sProp 𝕄) :
    iprop(held1 c arg2 arg3 arg4 arg5 arg6 arg7 arg8 q k v wo bo sh tb acc
        ∗ (held1 c arg2 arg3 arg4 arg5 arg6 arg7 arg8 q k v wo bo sh tb (k1_pay2 (step1 c i arg2 q k v wo bo tb acc)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold held1 owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, HT⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc0 | exact hc7)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_run_names
    rw [View.read_writes_eq_canon _ _ _ (fun y => ⟨_, List.mem_cons_self, View.mem_set_unit_zero z3 inb_S1x1x1024_S1x1x1024_0_0_0 y⟩), View.canon_cons_unit_zero z3]
    simp only [View.readAt_eq_ld, harg3.read_unread, harg4.read_unread, harg5.read_unread, harg6.read_unread, harg7.read_unread, harg8.read_unread,
      View.ld_unit_zero (S := S1x256x1024) z3, View.ld_unit_zero (S := S1x2048x1024) z3, View.ld_unit_zero (S := S1024x1024) z2,
      View.ld_unit_zero (S := S1x1024) z2, View.ld_unit_zero (S := S1x1x1024) z3, View.readCov_unit_zero (S := S1x1x1024) _ z3]
    rfl
  iexact HT

end Runs

/-! ## The body obligation -/

/-- the table held whole is its one buffer held whole, through the memref the body is handed -/
theorem pref1_eq (c : Dev nD) (f : pre1.Contents (Elt F)) :
    (Pipeline.prefHeld (Ix := Unit) (Name := ℕ) (U := UR sig nD τ) (Lvl := ℕ) pre1 c (fun _ => fullShare) f : sProp 𝕄)
      = (tbM1.view.loc (c : Thread nD τ) ↦{fullShare} f 0) := by
  unfold Pipeline.prefHeld
  rw [show (Finset.univ : Finset (Fin 1)) = {(0 : Fin 1)} from by decide, bigSep_singleton]
  rfl

/-- each window's current staging memref at a point, as the pipeline passes it to the body -/
abbrev ms1_0 (a : (pcfg1 (F := F)).Adm) (t : Fin (cfg1 a).N) : Memref sig .tc .vmem S1x256x1024 .bf16 := spec1_0.stage ((cfg1 a).slots t 0)
abbrev ms1_1 (a : (pcfg1 (F := F)).Adm) (t : Fin (cfg1 a).N) : Memref sig .tc .vmem S1x2048x1024 .bf16 := spec1_1.stage ((cfg1 a).slots t 1)
abbrev ms1_2 (a : (pcfg1 (F := F)).Adm) (t : Fin (cfg1 a).N) : Memref sig .tc .vmem S1x2048x1024 .bf16 := spec1_2.stage ((cfg1 a).slots t 2)
abbrev ms1_3 (a : (pcfg1 (F := F)).Adm) (t : Fin (cfg1 a).N) : Memref sig .tc .vmem S1024x1024 .bf16 := spec1_3.stage ((cfg1 a).slots t 3)
abbrev ms1_4 (a : (pcfg1 (F := F)).Adm) (t : Fin (cfg1 a).N) : Memref sig .tc .vmem S1x1024 .f32 := spec1_4.stage ((cfg1 a).slots t 4)
abbrev ms1_5 (a : (pcfg1 (F := F)).Adm) (t : Fin (cfg1 a).N) : Memref sig .tc .vmem S1x1x1024 .f32 := spec1_5.stage ((cfg1 a).slots t 5)

/-- the body at a point, on what the pipeline calls it with -/
abbrev bodyAt1 (a : (pcfg1 (F := F)).Adm) (t : Fin (cfg1 a).N) : Prog (TpuEff nD τ sig (Elt F) Λ₀ .tc) PUnit :=
  cc1__attn_kernel (grid1.coords t) (Memref.whole main_arg1) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (spec1_4.stage ((cfg1 a).slots t 4)) (hstage1_4 (((cfg1 a).slots t 4).cast nbuf1_4))
    (spec1_5.stage ((cfg1 a).slots t 5)) (hstage1_5 (((cfg1 a).slots t 5).cast nbuf1_5))

/-- an input's staging buffer holds the input's block at every point, fetched there or not -/
theorem before1_0 (c : Dev nD) (t : Fin (cfgM1 V).N) (d) : (dat1 V c).before 0 t d = iblk1 V c 0 t :=
  (before1_in_0 (adm1 V) (dat1 V c) (fun t => by rw [after1_0]; unfold Dat.blockOf iblk1; rw [A_eq1]) t d).trans (by unfold Dat.blockOf iblk1; rw [A_eq1])
theorem before1_1 (c : Dev nD) (t : Fin (cfgM1 V).N) (d) : (dat1 V c).before 1 t d = iblk1 V c 1 t :=
  (before1_in_1 (adm1 V) (dat1 V c) (fun t => by rw [after1_1]; unfold Dat.blockOf iblk1; rw [A_eq1]) t d).trans (by unfold Dat.blockOf iblk1; rw [A_eq1])
theorem before1_2 (c : Dev nD) (t : Fin (cfgM1 V).N) (d) : (dat1 V c).before 2 t d = iblk1 V c 2 t :=
  (before1_in_2 (adm1 V) (dat1 V c) (fun t => by rw [after1_2]; unfold Dat.blockOf iblk1; rw [A_eq1]) t d).trans (by unfold Dat.blockOf iblk1; rw [A_eq1])
theorem before1_3 (c : Dev nD) (t : Fin (cfgM1 V).N) (d) : (dat1 V c).before 3 t d = iblk1 V c 3 t :=
  (before1_in_3 (adm1 V) (dat1 V c) (fun t => by rw [after1_3]; unfold Dat.blockOf iblk1; rw [A_eq1]) t d).trans (by unfold Dat.blockOf iblk1; rw [A_eq1])
theorem before1_4 (c : Dev nD) (t : Fin (cfgM1 V).N) (d) : (dat1 V c).before 4 t d = iblk1 V c 4 t :=
  (before1_in_4 (adm1 V) (dat1 V c) (fun t => by rw [after1_4]; unfold Dat.blockOf iblk1; rw [A_eq1]) t d).trans (by unfold Dat.blockOf iblk1; rw [A_eq1])

/-- past the first tile of a batch entry the accumulator's buffer holds what the tile before left: it is
    not written back in between -/
theorem before1_5 (c : Dev nD) (t : Fin (cfgM1 V).N) (h0 : ¬ t.val % 8 = 0) (d) :
    (dat1 V c).before 5 t d = accAt1 V c (t.val - 1) (Nat.lt_of_le_of_lt (Nat.sub_le _ _) t.isLt) :=
  (before1_acc (adm1 V) (dat1 V c) t h0 d).trans (after1_5 V c _)

/-- what the body is called with at point `t`, the windows one by one, -/
def bodyPre1 (c : Dev nD) (t : Fin (cfgM1 V).N) : sProp 𝕄 :=
  iprop((dat1 V c).Φ t.castSucc ∗ (dat1 V c).owesAt () t.castSucc
    ∗ (∃ d, owns (c : Thread nD τ) (ms1_0 (adm1 V) t) fullShare ((dat1 V c).before 0 t d))
    ∗ (∃ d, owns (c : Thread nD τ) (ms1_1 (adm1 V) t) fullShare ((dat1 V c).before 1 t d))
    ∗ (∃ d, owns (c : Thread nD τ) (ms1_2 (adm1 V) t) fullShare ((dat1 V c).before 2 t d))
    ∗ (∃ d, owns (c : Thread nD τ) (ms1_3 (adm1 V) t) fullShare ((dat1 V c).before 3 t d))
    ∗ (∃ d, owns (c : Thread nD τ) (ms1_4 (adm1 V) t) fullShare ((dat1 V c).before 4 t d))
    ∗ (∃ d, owns (c : Thread nD τ) (ms1_5 (adm1 V) t) fullShare ((dat1 V c).before 5 t d)))

/-- and what it returns -/
def bodyPost1 (c : Dev nD) (t : Fin (cfgM1 V).N) : sProp 𝕄 :=
  iprop((dat1 V c).Φ t.succ ∗ (dat1 V c).owesAt () t.succ
    ∗ owns (c : Thread nD τ) (ms1_0 (adm1 V) t) fullShare ((dat1 V c).after 0 t)
    ∗ owns (c : Thread nD τ) (ms1_1 (adm1 V) t) fullShare ((dat1 V c).after 1 t)
    ∗ owns (c : Thread nD τ) (ms1_2 (adm1 V) t) fullShare ((dat1 V c).after 2 t)
    ∗ owns (c : Thread nD τ) (ms1_3 (adm1 V) t) fullShare ((dat1 V c).after 3 t)
    ∗ owns (c : Thread nD τ) (ms1_4 (adm1 V) t) fullShare ((dat1 V c).after 4 t)
    ∗ owns (c : Thread nD τ) (ms1_5 (adm1 V) t) fullShare ((dat1 V c).after 5 t))

set_option maxHeartbeats 1600000 in
/-- the body at any point: the inputs' buffers hold their blocks; the tile number says which of the three
    cases the point is in; past the first tile the accumulator's buffer holds what the tile before left;
    so the case's run applies; the scoped rest passes through unread and the table is handed back -/
theorem sound_body1 (c : Dev nD) (t : Fin (cfgM1 V).N) :
    bodyPre1 V c t ⊢ wp frame (wpE (defs₀ (F := F)) Variants.none c none) Set.univ (bodyAt1 (adm1 V) t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  rw [show (dat1 V c).Φ t.castSucc = iprop(Pipeline.ΦA spec1 c ∗ Pipeline.prefHeld (Ix := Unit) (Name := ℕ) (U := UR sig nD τ) (Lvl := ℕ) pre1 c (fun _ => fullShare) (tbl1 V)) from rfl, pref1_eq]
  have hN : t.val < 64 := lt_of_lt_of_eq t.isLt N_1
  by_cases h0 : t.val % 8 = 0
  · rw [accAt1_first V c t h0]
    unfold tileAcc1 len1
    iintro ⟨⟨HΦ, HT⟩, Ho, ⟨%d0, H0⟩, ⟨%d1, H1⟩, ⟨%d2, H2⟩, ⟨%d3, H3⟩, ⟨%d4, H4⟩, ⟨%d5, H5⟩⟩
    iapply (run1_first c (grid1.coords t) tbM1 htbM1 _ _ _ _ _ _ _ _ _ _ _ _ (iblk1 V c 0 t) (iblk1 V c 1 t) (iblk1 V c 2 t) (iblk1 V c 3 t) (iblk1 V c 4 t)
      fullShare (tbl1 V 0) ((hcond1_0 t).mpr h0) (fun h => by have := (hcond1_7 t).mp h; omega) ((dat1 V c).before 5 t d5) Set.univ _)
    unfold held1
    isplitl [H0 H1 H2 H3 H4 H5 HT]
    · isplitl [H0]; · iexact H0
      isplitl [H1]; · iexact H1
      isplitl [H2]; · iexact H2
      isplitl [H3]; · iexact H3
      isplitl [H4]; · iexact H4
      isplitl [H5]; · iexact H5
      iexact HT
    iintro ⟨H0, H1, H2, H3, H4, H5, HT⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    isplitl [H4]; · iexact H4
    iexact H5
  · simp only [before1_5 V c t h0]
    by_cases h7 : t.val % 8 = 7
    · rw [accAt1_last V c t h7]
      unfold tileAcc1 len1
      iintro ⟨⟨HΦ, HT⟩, Ho, ⟨%d0, H0⟩, ⟨%d1, H1⟩, ⟨%d2, H2⟩, ⟨%d3, H3⟩, ⟨%d4, H4⟩, ⟨%d5, H5⟩⟩
      iapply (run1_last c (grid1.coords t) tbM1 htbM1 _ _ _ _ _ _ _ _ _ _ _ _ (iblk1 V c 0 t) (iblk1 V c 1 t) (iblk1 V c 2 t) (iblk1 V c 3 t) (iblk1 V c 4 t)
        fullShare (tbl1 V 0) (fun h => h0 ((hcond1_0 t).mp h)) ((hcond1_7 t).mpr h7) (accAt1 V c (t.val - 1) (Nat.lt_of_le_of_lt (Nat.sub_le _ _) t.isLt)) Set.univ _)
      unfold held1
      isplitl [H0 H1 H2 H3 H4 H5 HT]
      · isplitl [H0]; · iexact H0
        isplitl [H1]; · iexact H1
        isplitl [H2]; · iexact H2
        isplitl [H3]; · iexact H3
        isplitl [H4]; · iexact H4
        isplitl [H5]; · iexact H5
        iexact HT
      iintro ⟨H0, H1, H2, H3, H4, H5, HT⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      isplitl [H4]; · iexact H4
      iexact H5
    · rw [accAt1_mid V c t h0 h7]
      unfold tileAcc1 len1
      iintro ⟨⟨HΦ, HT⟩, Ho, ⟨%d0, H0⟩, ⟨%d1, H1⟩, ⟨%d2, H2⟩, ⟨%d3, H3⟩, ⟨%d4, H4⟩, ⟨%d5, H5⟩⟩
      iapply (run1_mid c (grid1.coords t) tbM1 htbM1 _ _ _ _ _ _ _ _ _ _ _ _ (iblk1 V c 0 t) (iblk1 V c 1 t) (iblk1 V c 2 t) (iblk1 V c 3 t) (iblk1 V c 4 t)
        fullShare (tbl1 V 0) (fun h => h0 ((hcond1_0 t).mp h)) (fun h => h7 ((hcond1_7 t).mp h)) (accAt1 V c (t.val - 1) (Nat.lt_of_le_of_lt (Nat.sub_le _ _) t.isLt)) Set.univ _)
      unfold held1
      isplitl [H0 H1 H2 H3 H4 H5 HT]
      · isplitl [H0]; · iexact H0
        isplitl [H1]; · iexact H1
        isplitl [H2]; · iexact H2
        isplitl [H3]; · iexact H3
        isplitl [H4]; · iexact H4
        isplitl [H5]; · iexact H5
        iexact HT
      iintro ⟨H0, H1, H2, H3, H4, H5, HT⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      isplitl [H4]; · iexact H4
      iexact H5

/-- the pipeline's body obligation for region 1, at every point -/
theorem body_obligation1 (c : Dev nD) : BodyObligation (dat1 (F := F) V c) (defs₀ (F := F)) Variants.none () Set.univ := fun t => by
  rw [bigSep_W1, bigSep_W1]
  exact sound_body1 V c t

end Cert.Kernel.Hand
end
-- ==== Proof.KHalves.lean ====
/-
  The two kernel regions' halves, as the run takes them: the projection region's and the attention region's proof
  data at any entry contents, with their arrays, invariants, shares, dues and body obligations.
-/
import proofs.«422647_j35725537968569_1_alg».proof.Proof.KLaunch
import proofs.«422647_j35725537968569_1_alg».proof.Proof.KQkvRegion
import proofs.«422647_j35725537968569_1_alg».proof.Proof.KAttnRegion

noncomputable section

namespace Cert.Kernel.Hand

open Idealize.ShloMosaic Idealize.ShloMosaic.TcCoe
open Idealize.SL Idealize.SL.RA Idealize.SL.BI
open scoped Idealize.SL.BI
open Idealize.SL.Sem
open Idealize.ShloMosaic.Rounds
open Idealize.ShloMosaic.Pipeline (Dat Cfg Window BodyObligation cellOf)
open Cert.Kernel Cert.Kernel.Gen

variable {F : FTy → Type} [FloatOps F]

/-- The projection region's half at entry contents `V`. -/
def half0 (V : EntryV F) : Half0 V where
  dat := dat0 V
  hA := A_eq0 V
  hΦ := fun _ _ => rfl
  hshare := fun c => (dat0 V c).share_full fun _ => rfl
  howed := fun _ _ => rfl
  hrec := fun _ _ => rfl
  hbody := body_obligation0 V

/-- The attention region's half at entry contents `V`: the table's contents are read off `V` in both spellings. -/
def half1 (V : EntryV F) : Half1 V where
  dat := dat1 V
  hA := A_eq1 V
  hΦ := fun _ _ => rfl
  hshare := fun c => (dat1 V c).share_full fun _ => rfl
  howed := fun _ _ => rfl
  hrec := fun _ _ => rfl
  hbody := body_obligation1 V

end Cert.Kernel.Hand

end
-- ==== Proof.AttnSpec.lean ====
/-
  The attention-pool specification both programs are read against, as plain functions over the
  extended reals with coordinates `Fin n` (no program is imported here).

  For a batch entry `n`, query position `s` and output feature `o`:
    * `proj x W b n s h = (∑ d, x n s d · W h d) + b h` is a linear layer;
    * `attnRow q K V len` is one query row of masked softmax attention: the scaled scores
      `(∑ h, q h · K t h) · 1/32`, replaced by the constant `-1e9` at key positions `t ≥ len`
      (signed comparison of 32-bit words), then `exp (score − max)` normalised by its sum over the
      2048 keys, and the weighted sum of the value rows;
    * `outRow a Wo bo o = (∑ h, a h · Wo o h) + bo o` is the output projection;
    * `pooled … n o` is the mean over the 2048 query positions, written as the reference writes it:
      the sum divided by the constant 2048.
  Float literals stay as their words (`Ideal.ofBits`), so the same word on both sides is never evaluated.
-/
import Idealize.ShloMosaic.PureOps.Ideal
import Idealize.ShloMosaic.Lib.ValueIdx

noncomputable section

namespace Cert.AttnSpec

open Idealize.ShloMosaic

/-- The score scale 1/32, the mask fill -1e9, the maximum's neutral element -∞ and the token count 2048, as words. -/
abbrev scale32 : EReal := Ideal.ofBits .f32 0x3D000000#32
abbrev negBig : EReal := Ideal.ofBits .f32 0xCE6E6B28#32
abbrev negInf : EReal := Ideal.ofBits .f32 0xFF800000#32
abbrev nTok : EReal := Ideal.ofBits .f32 0x45000000#32

/-- A linear layer `x · Wᵀ + b` at batch entry `n`, position `s`, feature `h`. -/
def proj (x : Fin 8 → Fin 2048 → Fin 1024 → EReal) (W : Fin 1024 → Fin 1024 → EReal) (b : Fin 1024 → EReal)
    (n : Fin 8) (s : Fin 2048) (h : Fin 1024) : EReal :=
  (∑ d : Fin 1024, x n s d * W h d) + b h

/-- The masked, scaled score of one query row against key `t`. -/
def score (qrow : Fin 1024 → EReal) (K : Fin 2048 → Fin 1024 → EReal) (len : BitVec 32) (t : Fin 2048) : EReal :=
  Scalar.select (IntOp.cmpi .sge (BitVec.ofNat 32 t.val) len) negBig ((∑ h : Fin 1024, qrow h * K t h) * scale32)

/-- The row maximum the softmax subtracts: the fold of `max` from -∞ over the keys, joined once more with -∞. -/
def rowMax (sc : Fin 2048 → EReal) : EReal :=
  max negInf ((Finset.univ : Finset (Fin 2048)).fold max negInf sc)

/-- The unnormalised softmax weight of key `t`. -/
def expw (sc : Fin 2048 → EReal) (t : Fin 2048) : EReal := Ideal.exp (sc t - rowMax sc)

/-- One query row of masked softmax attention: the weights `expw / ∑ expw` applied to the value rows. -/
def attnRow (qrow : Fin 1024 → EReal) (K V : Fin 2048 → Fin 1024 → EReal) (len : BitVec 32) (h : Fin 1024) : EReal :=
  ∑ t : Fin 2048, Ideal.div (expw (score qrow K len) t) (∑ u : Fin 2048, expw (score qrow K len) u) * V t h

/-- The output projection of one attended row. -/
def outRow (a : Fin 1024 → EReal) (Wo : Fin 1024 → Fin 1024 → EReal) (bo : Fin 1024 → EReal) (o : Fin 1024) : EReal :=
  (∑ h : Fin 1024, a h * Wo o h) + bo o

/-- What position `s` of batch entry `n` contributes to output feature `o` before pooling. -/
def tokenOut (q k v : Fin 8 → Fin 2048 → Fin 1024 → EReal) (Wo : Fin 1024 → Fin 1024 → EReal) (bo : Fin 1024 → EReal)
    (lens : Fin 8 → BitVec 32) (n : Fin 8) (s : Fin 2048) (o : Fin 1024) : EReal :=
  outRow (attnRow (q n s) (k n) (v n) (lens n)) Wo bo o

/-- The mean over the 2048 positions, as a sum divided by the constant 2048. -/
def pooled (q k v : Fin 8 → Fin 2048 → Fin 1024 → EReal) (Wo : Fin 1024 → Fin 1024 → EReal) (bo : Fin 1024 → EReal)
    (lens : Fin 8 → BitVec 32) (n : Fin 8) (o : Fin 1024) : EReal :=
  Ideal.div (∑ s : Fin 2048, tokenOut q k v Wo bo lens n s o) nTok

/-- The program's result array [8, 1024] as a function of its ten argument arrays (read at their array indices):
    the three projections of `x`, attention with the key-padding mask from `lens`, the output projection, the mean. -/
def result (a0 : (⟨3, ![8, 2048, 1024]⟩ : Shape).Idx → EReal) (a1 : (⟨1, ![8]⟩ : Shape).Idx → BitVec 32)
    (a2 : (⟨2, ![1024, 1024]⟩ : Shape).Idx → EReal) (a3 : (⟨1, ![1024]⟩ : Shape).Idx → EReal)
    (a4 : (⟨2, ![1024, 1024]⟩ : Shape).Idx → EReal) (a5 : (⟨1, ![1024]⟩ : Shape).Idx → EReal)
    (a6 : (⟨2, ![1024, 1024]⟩ : Shape).Idx → EReal) (a7 : (⟨1, ![1024]⟩ : Shape).Idx → EReal)
    (a8 : (⟨2, ![1024, 1024]⟩ : Shape).Idx → EReal) (a9 : (⟨1, ![1024]⟩ : Shape).Idx → EReal) :
    (⟨2, ![8, 1024]⟩ : Shape).Idx → EReal := fun i =>
  pooled
    (proj (fun n s d => a0 (ValueIdx.ix3 n s d)) (fun h d => a2 (ValueIdx.ix2 h d)) (fun h => a3 (ValueIdx.ix1 h)))
    (proj (fun n s d => a0 (ValueIdx.ix3 n s d)) (fun h d => a4 (ValueIdx.ix2 h d)) (fun h => a5 (ValueIdx.ix1 h)))
    (proj (fun n s d => a0 (ValueIdx.ix3 n s d)) (fun h d => a6 (ValueIdx.ix2 h d)) (fun h => a7 (ValueIdx.ix1 h)))
    (fun o h => a8 (ValueIdx.ix2 o h)) (fun o => a9 (ValueIdx.ix1 o)) (fun n => a1 (ValueIdx.ix1 n)) (i 0) (i 1)

/-- The position `256 · tile + r` of row `r` of a sequence tile. -/
def tileRow (tile : Fin 8) (r : Fin 256) : Fin 2048 := ⟨256 * tile.val + r.val, by omega⟩

end Cert.AttnSpec

end
-- ==== Proof.AttnPool.lean ====
/-
  The pooling side of the attention kernel, read at an index at the ideal values.

  For a batch entry the kernel keeps one accumulator row acc[o], o < 1024, over the eight query tiles:
    * it is set to 0 at the first tile;
    * each tile adds the column sums of its projected attention output,
        acc[o] += ∑ r < 256, ((∑ h < 1024, a[r, h] · Woᵀ[h, o]) + bo[o]),
      where Woᵀ[h, o] = Wo[o, h] is the transposed output weight;
    * at the last tile it is multiplied by 2⁻¹¹.
  Two laws close the pooling: the 2048 positions are 8 tiles of 256 rows, so the tile sums add up to the
  sum over all positions (a re-indexing of a finite sum in a commutative monoid: no finiteness is needed),
  and multiplying by 2⁻¹¹ is dividing by 2048 on every extended real, because 2048 is a nonzero real.
-/
import proofs.«422647_j35725537968569_1_alg».proof.Proof.Gen.KernelIdeal.Skeleton
import proofs.«422647_j35725537968569_1_alg».proof.Proof.AttnSpec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Group.Finset.Defs
import Mathlib.Data.Fintype.BigOperators
import Mathlib.Data.EReal.Basic

noncomputable section

namespace Cert.KernelIdeal.Hand

open Idealize.ShloMosaic Idealize.ShloMosaic.ValueIdx Cert.KernelIdeal Cert.KernelIdeal.Gen

namespace AttnPool

/-! ## The output projection's product: a row of the attended tile against a column of the transposed weight

The product contracts the second axis of the left factor with the first axis of the right one; the four facts
below name, axis by axis, which coordinate of the output index or of the contraction index each operand reads. -/

theorem outDot_lhs_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem outDot_lhs_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem outDot_rhs_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem outDot_rhs_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Entry (r, o) of the product into the zero accumulator: the sum over the 1024 features. -/
theorem outDot_apply (a : FVec Ideal S256x1024 .bf16) (wt : FVec Ideal S1024x1024 .bf16) (r : Fin 256) (o : Fin 1024) :
    matmul dot_S256x1024_S1024x1024_S256x1024_1_0_0_1_n_n none a wt (constant S256x1024 .f32 0x00000000#32) (ix2 r o)
      = ∑ h : Fin 1024, a (ix2 r h) * wt (ix2 h o) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r o) ((contrEquiv1 dot_S256x1024_S1024x1024_S256x1024_1_0_0_1_n_n 1024 rfl rfl).symm k) = ix2 r k := funext fun ax => Fin.ext (by
    match ax with
    | ⟨0, _⟩ => exact outDot_lhs_0 _ _
    | ⟨1, _⟩ => exact (outDot_lhs_1 _ _).trans hk)
  have er : dot_S256x1024_S1024x1024_S256x1024_1_0_0_1_n_n.rhsIdx (ix2 r o) ((contrEquiv1 dot_S256x1024_S1024x1024_S256x1024_1_0_0_1_n_n 1024 rfl rfl).symm k) = ix2 k o := funext fun ax => Fin.ext (by
    match ax with
    | ⟨0, _⟩ => exact (outDot_rhs_0 _ _).trans hk
    | ⟨1, _⟩ => exact outDot_rhs_1 _ _)
  rw [el, er]

/-- The sum down the 256 rows of a tile, read at column o. -/
theorem colSum_apply (x : FVec Ideal S256x1024 .f32) (o : Fin 1024) :
    multiReduction .add [0] S1024 x 0x00000000#32 reduces_S256x1024_S1024 (.inl rfl) rfl (ValueIdx.ix1 o)
      = ∑ r : Fin 256, x (ix2 r o) := by
  refine (Ideal.multiReduction_add_single x 0x00000000#32 reduces_S256x1024_S1024 (.inl rfl) rfl (ValueIdx.ix1 o)).trans ?_
  refine Finset.sum_congr rfl fun r _ => congrArg x ?_
  funext ax
  refine Fin.ext ?_
  match ax with
  | ⟨0, _⟩ => rfl
  | ⟨1, _⟩ => rfl

end AttnPool

open AttnPool

/-! ## The payloads of the pooling at an index -/

/-- The weight the projection multiplies by is the transpose of the loaded one: entry (h, o) is Wo[o, h]. -/
theorem woT_apply (wo : Vec Ideal S1024x1024 .bf16) (h o : Fin 1024) :
    k1_pay5 (F := Ideal) wo (ix2 h o) = wo (ix2 o h) := by
  unfold k1_pay5
  rw [shapeCast_self]
  exact transpose_ix2_apply _ _ h o

/-- One tile's update of the accumulator: the old entry plus the column sum of the tile's projected rows,
    each row being its 1024-term product with column o of the transposed weight plus the bias entry. -/
theorem accPay_apply (a : FVec Ideal S256x1024 .bf16) (wt : FVec Ideal S1024x1024 .bf16) (bo : Vec Ideal S1x1024 .f32)
    (acc : Vec Ideal S1x1x1024 .f32) (o : Fin 1024) :
    k1_pay1 (F := Ideal) a wt bo acc (ix3 0 0 o)
      = acc (ix3 0 0 o) + ∑ r : Fin 256, ((∑ h : Fin 1024, a (ix2 r h) * wt (ix2 h o)) + bo (ix2 0 o)) := by
  unfold k1_pay1
  rw [addf_apply, shapeCast_self]
  congr 1
  refine (shapeCast_ab_1ab_apply _ _ (0 : Fin 1) (0 : Fin 1) o).trans ?_
  refine (shapeCast_a_1a_apply _ _ (0 : Fin 1) o).trans ?_
  refine (colSum_apply _ o).trans ?_
  refine Finset.sum_congr rfl fun r _ => ?_
  rw [addf_apply, outDot_apply, shapeCast_self]
  congr 1
  exact broadcastTo_1b_ab_apply _ _ r o

/-- The last tile's rescaling: every entry times the word of 2⁻¹¹. -/
theorem scalePay_apply (x : Vec Ideal S1x1x1024 .f32) (o : Fin 1024) :
    k1_pay2 (F := Ideal) x (ix3 0 0 o) = x (ix3 0 0 o) * Ideal.ofBits .f32 0x3A000000#32 := by
  unfold k1_pay2
  rw [shapeCast_self]
  rfl

/-- The first tile's reset: every entry is the real 0. -/
theorem zeroPay_apply (o : Fin 1024) : k1_pay3 (F := Ideal) (ix3 0 0 o) = 0 := by
  unfold k1_pay3
  show Ideal.ofBits .f32 0x00000000#32 = 0
  exact Ideal.ofBits_zero_f32

/-! ## The 2048 positions as 8 tiles of 256 rows -/

/-- Position 256 · tile + r, as a bijection from (tile, row) pairs: quotient and remainder by 256 invert it. -/
def tileEquiv : Fin 8 × Fin 256 ≃ Fin 2048 where
  toFun p := Cert.AttnSpec.tileRow p.1 p.2
  invFun s := (⟨s.val / 256, by omega⟩, ⟨s.val % 256, by omega⟩)
  left_inv := by
    rintro ⟨a, b⟩
    refine Prod.ext (Fin.ext ?_) (Fin.ext ?_)
    · show (256 * a.val + b.val) / 256 = a.val
      omega
    · show (256 * a.val + b.val) % 256 = b.val
      omega
  right_inv := by
    intro s
    refine Fin.ext ?_
    show 256 * (s.val / 256) + s.val % 256 = s.val
    omega

/-- Summing tile by tile is summing over all positions: the double sum is the sum over pairs, re-indexed
    along the bijection. Only commutativity and associativity of the sum are used. -/
theorem tiles_sum (f : Fin 2048 → EReal) :
    ∑ tile : Fin 8, ∑ r : Fin 256, f (Cert.AttnSpec.tileRow tile r) = ∑ s : Fin 2048, f s := by
  calc ∑ tile : Fin 8, ∑ r : Fin 256, f (Cert.AttnSpec.tileRow tile r)
      = ∑ p : Fin 8 × Fin 256, f (tileEquiv p) :=
        (Fintype.sum_prod_type' (fun a b => f (Cert.AttnSpec.tileRow a b))).symm
    _ = ∑ s : Fin 2048, f s := Equiv.sum_comp tileEquiv f

/-! ## Multiplying by 2⁻¹¹ is dividing by 2048 -/

/-- The word 0x3A000000 has sign 0, exponent field 116 and a zero fraction: it denotes 2^(116 − 127) = 1/2048. -/
theorem ofBits_two_pow_neg11 : Ideal.ofBits .f32 0x3A000000#32 = (((1 / 2048 : ℝ)) : EReal) := by
  simp [Ideal.ofBits, Ideal.ieee, -EReal.coe_mul]; norm_num

/-- The word 0x45000000 has sign 0, exponent field 138 and a zero fraction: it denotes 2^(138 − 127) = 2048. -/
theorem ofBits_2048 : Ideal.ofBits .f32 0x45000000#32 = ((2048 : ℝ) : EReal) := by
  simp [Ideal.ofBits, Ideal.ieee, -EReal.coe_mul]; norm_num

/-- Division by a nonzero real is multiplication by its reciprocal on every extended real, the infinities included. -/
theorem scale_law (x : EReal) :
    x * Ideal.ofBits .f32 0x3A000000#32 = Ideal.div x Cert.AttnSpec.nTok := by
  show _ = Ideal.div x (Ideal.ofBits .f32 0x45000000#32)
  rw [ofBits_two_pow_neg11, ofBits_2048]
  exact (Ideal.div_coe (by norm_num) x).symm

end Cert.KernelIdeal.Hand

end
-- ==== Proof.AttnPayload.lean ====
/-
  One tile of the attention kernel's payload, read at an index at the ideal values: the masked softmax
  row applied to the value block.

  For query row r < 256 of a tile, key position t < 2048 and feature h < 1024:
    * the score is (∑ d < 1024, q[r, d] · k[t, d]) · 1/32 — the product is taken against the TRANSPOSED key block,
      whose entry (d, t) is k[t, d] — replaced by the constant -1e9 where t ≥ len as signed 32-bit words (the
      column number t comes from an iota along the second axis);
    * the row maximum is the fold of max from -∞ over the 2048 scores of the row, joined once more with -∞;
      it is a vector of 256 entries, viewed as a column [256, 1] and repeated along the row;
    * the weight is exp (score − maximum) divided by the sum of the row's 2048 exponentials (again a vector of
      256 entries viewed as a column and repeated);
    * the result is ∑ t < 2048, weight[r, t] · v[t, h].
  Changes of float format are the identity on extended reals, and every literal stays a word.
  The term is cut into three stages (scores, exponentials, normalised weights); each is read at an index by its
  own lemma and the payload is their composition by definition.
-/
import proofs.«422647_j35725537968569_1_alg».proof.Proof.Gen.KernelIdeal.Skeleton
import proofs.«422647_j35725537968569_1_alg».proof.Proof.AttnSpec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Group.Finset.Defs
import Mathlib.Data.Finset.Fold
import Mathlib.Data.EReal.Basic

noncomputable section

namespace Cert.KernelIdeal.Hand

open Idealize.ShloMosaic Idealize.ShloMosaic.ValueIdx Cert.KernelIdeal Cert.KernelIdeal.Gen

namespace AttnPay

/-! ## Layout steps of the keepdims column forms -/

/-- A vector of extent a cast to a column [a, 1] reads, at (i, u), the vector's entry i: both have row-major
    position i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the second axis to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An integer comparison of two vectors read at an index compares the elements. -/
theorem cmpi_apply {s : Shape} {w : Nat} (p : CmpIPredicate) (x y : IVec s w) (i : s.Idx) :
    cmpi p x y i = IntOp.cmpi p (x i) (y i) := rfl

/-! ## The score product: a query row against a column of the transposed key block

Both products of this payload contract the second axis of the left factor with the first axis of the right one;
for each, four facts name, axis by axis, which coordinate of the output index or of the contraction index an
operand reads, and the product at an index is then the sum re-indexed along the contraction's one coordinate. -/

theorem scoreDot_lhs_0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem scoreDot_lhs_1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem scoreDot_rhs_0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem scoreDot_rhs_1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- Entry (r, t) of the score product into the zero accumulator: the sum over the 1024 features. -/
theorem scoreDot_apply (x : FVec Ideal S256x1024 .bf16) (y : FVec Ideal S1024x2048 .bf16) (r : Fin 256) (t : Fin 2048) :
    matmul dot_S256x1024_S1024x2048_S256x2048_1_0_0_1_n_n none x y (constant S256x2048 .f32 0x00000000#32) (ix2 r t)
      = ∑ d : Fin 1024, x (ix2 r d) * y (ix2 d t) := by
  simp only [matmul]
  rw [Ideal.matmul_constant_zero_apply, ← Equiv.sum_comp (contrEquiv1 dot_S256x1024_S1024x2048_S256x2048_1_0_0_1_n_n 1024 rfl rfl).symm]
  refine Finset.sum_congr rfl fun d _ => ?_
  have hd := contrEquiv1_symm_val dot_S256x1024_S1024x2048_S256x2048_1_0_0_1_n_n 1024 rfl rfl d
  have el : dot_S256x1024_S1024x2048_S256x2048_1_0_0_1_n_n.lhsIdx (ix2 r t) ((contrEquiv1 dot_S256x1024_S1024x2048_S256x2048_1_0_0_1_n_n 1024 rfl rfl).symm d) = ix2 r d := funext fun ax => Fin.ext (by
    match ax with
    | ⟨0, _⟩ => exact scoreDot_lhs_0 _ _
    | ⟨1, _⟩ => exact (scoreDot_lhs_1 _ _).trans hd)
  have er : dot_S256x1024_S1024x2048_S256x2048_1_0_0_1_n_n.rhsIdx (ix2 r t) ((contrEquiv1 dot_S256x1024_S1024x2048_S256x2048_1_0_0_1_n_n 1024 rfl rfl).symm d) = ix2 d t := funext fun ax => Fin.ext (by
    match ax with
    | ⟨0, _⟩ => exact (scoreDot_rhs_0 _ _).trans hd
    | ⟨1, _⟩ => exact scoreDot_rhs_1 _ _)
  rw [el, er]

/-! ## The value product: a row of weights against a column of the value block -/

theorem avDot_lhs_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem avDot_lhs_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem avDot_rhs_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem avDot_rhs_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- Entry (r, h) of the value product into the zero accumulator: the sum over the 2048 key positions. -/
theorem avDot_apply (p : FVec Ideal S256x2048 .bf16) (w : FVec Ideal S2048x1024 .bf16) (r : Fin 256) (h : Fin 1024) :
    matmul dot_S256x2048_S2048x1024_S256x1024_1_0_0_1_n_n none p w (constant S256x1024 .f32 0x00000000#32) (ix2 r h)
      = ∑ t : Fin 2048, p (ix2 r t) * w (ix2 t h) := by
  simp only [matmul]
  rw [Ideal.matmul_constant_zero_apply, ← Equiv.sum_comp (contrEquiv1 dot_S256x2048_S2048x1024_S256x1024_1_0_0_1_n_n 2048 rfl rfl).symm]
  refine Finset.sum_congr rfl fun t _ => ?_
  have ht := contrEquiv1_symm_val dot_S256x2048_S2048x1024_S256x1024_1_0_0_1_n_n 2048 rfl rfl t
  have el : dot_S256x2048_S2048x1024_S256x1024_1_0_0_1_n_n.lhsIdx (ix2 r h) ((contrEquiv1 dot_S256x2048_S2048x1024_S256x1024_1_0_0_1_n_n 2048 rfl rfl).symm t) = ix2 r t := funext fun ax => Fin.ext (by
    match ax with
    | ⟨0, _⟩ => exact avDot_lhs_0 _ _
    | ⟨1, _⟩ => exact (avDot_lhs_1 _ _).trans ht)
  have er : dot_S256x2048_S2048x1024_S256x1024_1_0_0_1_n_n.rhsIdx (ix2 r h) ((contrEquiv1 dot_S256x2048_S2048x1024_S256x1024_1_0_0_1_n_n 2048 rfl rfl).symm t) = ix2 t h := funext fun ax => Fin.ext (by
    match ax with
    | ⟨0, _⟩ => exact (avDot_rhs_0 _ _).trans ht
    | ⟨1, _⟩ => exact avDot_rhs_1 _ _)
  rw [el, er]

/-! ## The two reductions along a row of a [256, 2048] tile -/

/-- The maximum along row r: the fold of max from the accumulator's word over the 2048 entries of the row
    (max is commutative and associative, so the order of the fold does not matter). -/
theorem rowMaxRed_apply (s : FVec Ideal S256x2048 .f32) (r : Fin 256) :
    multiReduction .maximumf [1] S256 s 0xFF800000#32 reduces_S256x2048_S256 (.inl rfl) rfl (ValueIdx.ix1 r)
      = (Finset.univ : Finset (Fin 2048)).fold max (Ideal.ofBits .f32 0xFF800000#32) (fun u => s (ix2 r u)) := by
  refine (Ideal.multiReduction_maximumf_single s 0xFF800000#32 reduces_S256x2048_S256 (.inl rfl) rfl (ValueIdx.ix1 r)).trans ?_
  show (Finset.univ : Finset (Fin 2048)).fold max (Ideal.ofBits .f32 0xFF800000#32)
      (s ∘ reduces_S256x2048_S256.lift (ValueIdx.ix1 r)) = _
  congr 1
  funext u
  exact congrArg s (funext fun ax => Fin.ext (by
    match ax with
    | ⟨0, _⟩ => rfl
    | ⟨1, _⟩ => rfl))

/-- The sum along row r: the sum of the 2048 entries of the row. -/
theorem rowSumRed_apply (e : FVec Ideal S256x2048 .f32) (r : Fin 256) :
    multiReduction .add [1] S256 e 0x00000000#32 reduces_S256x2048_S256 (.inl rfl) rfl (ValueIdx.ix1 r)
      = ∑ u : Fin 2048, e (ix2 r u) := by
  refine (Ideal.multiReduction_add_single e 0x00000000#32 reduces_S256x2048_S256 (.inl rfl) rfl (ValueIdx.ix1 r)).trans ?_
  refine Finset.sum_congr rfl fun u _ => congrArg e ?_
  funext ax
  refine Fin.ext ?_
  match ax with
  | ⟨0, _⟩ => rfl
  | ⟨1, _⟩ => rfl

/-! ## The three stages of the softmax tile -/

/-- The masked, scaled scores of the 256 query rows of a tile against the 2048 keys. -/
def scoreTile (q : Vec Ideal S1x256x1024 .bf16) (k : Vec Ideal S1x2048x1024 .bf16) (len : BitVec 32) :
    FVec Ideal S256x2048 .f32 :=
  select (cmpi .sge (iota .tc S256x2048 32 [1] iota_S256x2048_d1_w32) (broadcast S256x2048 len))
    (broadcast S256x2048 (Scalar.ofBits (F := Ideal) .f32 0xCE6E6B28#32))
    (mulf (matmul dot_S256x1024_S1024x2048_S256x2048_1_0_0_1_n_n none (shapeCast S256x1024 q shapeCasts_S1x256x1024_S256x1024 : FVec Ideal S256x1024 .bf16)
        (transpose S1024x2048 [1, 0] (shapeCast S2048x1024 k shapeCasts_S1x2048x1024_S2048x1024 : FVec Ideal S2048x1024 .bf16)
          transposes_S2048x1024_p1_0_S1024x2048 : FVec Ideal S1024x2048 .bf16)
        (constant S256x2048 .f32 0x00000000#32))
      (broadcast S256x2048 (Scalar.ofBits (F := Ideal) .f32 0x3D000000#32)))

/-- The exponentials of the scores less their row maximum. -/
def expTile (s : FVec Ideal S256x2048 .f32) : FVec Ideal S256x2048 .f32 :=
  exp (subf s (broadcastTo S256x2048
    (shapeCast S256x1
      (maximumf (broadcast S256 (Scalar.ofBits (F := Ideal) .f32 0xFF800000#32))
        (multiReduction .maximumf [1] S256 s 0xFF800000#32 reduces_S256x2048_S256 (.inl rfl) rfl))
      shapeCasts_S256_S256x1)
    broadcasts_S256x1_S256x2048))

/-- Each entry divided by the sum of its row. -/
def probTile (e : FVec Ideal S256x2048 .f32) : FVec Ideal S256x2048 .f32 :=
  divf e (broadcastTo S256x2048
    (shapeCast S256x1 (multiReduction .add [1] S256 e 0x00000000#32 reduces_S256x2048_S256 (.inl rfl) rfl) shapeCasts_S256_S256x1)
    broadcasts_S256x1_S256x2048)

/-- The payload is the value product of the normalised weights: the stages composed, by definition. -/
theorem k1_pay4_eq (q : Vec Ideal S1x256x1024 .bf16) (k v : Vec Ideal S1x2048x1024 .bf16) (len : BitVec 32) :
    k1_pay4 (F := Ideal) q k v len
      = truncf .bf16 (matmul dot_S256x2048_S2048x1024_S256x1024_1_0_0_1_n_n none
          (truncf .bf16 (probTile (expTile (scoreTile q k len))) bitsLt_bf16_f32)
          (shapeCast S2048x1024 v shapeCasts_S1x2048x1024_S2048x1024 : FVec Ideal S2048x1024 .bf16)
          (constant S256x1024 .f32 0x00000000#32)) bitsLt_bf16_f32 := rfl

/-- The score tile at (r, t) is the specification's score of query row r against key t. -/
theorem scoreTile_apply (q : Vec Ideal S1x256x1024 .bf16) (k : Vec Ideal S1x2048x1024 .bf16) (len : BitVec 32)
    (r : Fin 256) (t : Fin 2048) :
    scoreTile q k len (ix2 r t)
      = Cert.AttnSpec.score (fun d => q (ix3 0 r d)) (fun u d => k (ix3 0 u d)) len t := by
  have hi : iota .tc S256x2048 32 [1] iota_S256x2048_d1_w32 (ix2 r t) = BitVec.ofNat 32 t.val :=
    iota_single_apply .tc S256x2048 32 1 iota_S256x2048_d1_w32 (ix2 r t)
  unfold scoreTile Cert.AttnSpec.score
  simp only [select_apply, cmpi_apply, mulf_apply, broadcast_apply]
  rw [hi, scoreDot_apply]
  have hd : ∀ d : Fin 1024,
      (shapeCast S256x1024 q shapeCasts_S1x256x1024_S256x1024 : FVec Ideal S256x1024 .bf16) (ix2 r d)
        * (transpose S1024x2048 [1, 0] (shapeCast S2048x1024 k shapeCasts_S1x2048x1024_S2048x1024 : FVec Ideal S2048x1024 .bf16)
            transposes_S2048x1024_p1_0_S1024x2048 : FVec Ideal S1024x2048 .bf16) (ix2 d t)
        = q (ix3 0 r d) * k (ix3 0 t d) := fun d => by
    rw [shapeCast_1ab_ab_apply, transpose_ix2_apply, shapeCast_1ab_ab_apply]
  rw [Finset.sum_congr rfl fun d _ => hd d]
  rfl

/-- The exponential tile at (r, t) is the specification's unnormalised weight of key t in row r. -/
theorem expTile_apply (s : FVec Ideal S256x2048 .f32) (r : Fin 256) (t : Fin 2048) :
    expTile s (ix2 r t) = Cert.AttnSpec.expw (fun u => s (ix2 r u)) t := by
  unfold expTile Cert.AttnSpec.expw Cert.AttnSpec.rowMax
  show Ideal.exp (s (ix2 r t) - broadcastTo S256x2048 _ broadcasts_S256x1_S256x2048 (ix2 r t)) = _
  rw [broadcastTo_a1_ab_apply, shapeCast_a_a1_apply, maximumf_apply, rowMaxRed_apply]
  rfl

/-- The normalised tile at (r, t): the entry over the sum of its row. -/
theorem probTile_apply (e : FVec Ideal S256x2048 .f32) (r : Fin 256) (t : Fin 2048) :
    probTile e (ix2 r t) = Ideal.div (e (ix2 r t)) (∑ u : Fin 2048, e (ix2 r u)) := by
  unfold probTile
  rw [divf_apply, broadcastTo_a1_ab_apply, shapeCast_a_a1_apply, rowSumRed_apply]

end AttnPay

open AttnPay

/-- THE PAYLOAD AT (r, h): the specification's attention row of query row r — over the tile's query rows, the
    batch entry's key and value rows and its length word — at feature h. -/
theorem attnPay_apply (q : Vec Ideal S1x256x1024 .bf16) (k v : Vec Ideal S1x2048x1024 .bf16) (len : BitVec 32)
    (r : Fin 256) (h : Fin 1024) :
    k1_pay4 (F := Ideal) q k v len (ix2 r h)
      = Cert.AttnSpec.attnRow (fun d => q (ix3 0 r d)) (fun t d => k (ix3 0 t d)) (fun t d => v (ix3 0 t d)) len h := by
  have hs : (fun u => scoreTile q k len (ix2 r u))
      = Cert.AttnSpec.score (fun d => q (ix3 0 r d)) (fun u d => k (ix3 0 u d)) len :=
    funext fun u => scoreTile_apply q k len r u
  rw [k1_pay4_eq, truncf_apply, avDot_apply]
  unfold Cert.AttnSpec.attnRow
  refine Finset.sum_congr rfl fun t _ => ?_
  rw [truncf_apply, probTile_apply, shapeCast_1ab_ab_apply]
  simp only [expTile_apply, hs]

end Cert.KernelIdeal.Hand

end
-- ==== Proof.AttnValue.lean ====
import proofs.«422647_j35725537968569_1_alg».proof.Proof.AttnRegion
import proofs.«422647_j35725537968569_1_alg».proof.Proof.AttnPool
import proofs.«422647_j35725537968569_1_alg».proof.Proof.AttnPayload
import proofs.«422647_j35725537968569_1_alg».proof.Proof.AttnSpec
import Idealize.ShloMosaic.Lib.Pipeline.Value
import Idealize.ShloMosaic.Lib.Pipeline.Cells
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/- the TensorCore's buffer contents when the region is entered -/
variable (V : (c : Dev nD) → (b : Ref sig .tc) → Buf (Elt Ideal) ((c : Thread nD τ).loc b))

/-! # The attention region's result array

After the last grid point the `[8,1,1024]` result array holds, at `(n, 0, o)`, the mean over the 2048 query
positions of batch entry `n` of the projected attention output's feature `o`: the accumulator row of batch entry
`n` is cleared at the entry's first query tile, gains each tile's column sums, is scaled by `2^-11` at the eighth
tile and is written back there. -/

/-! ## The grid's index maps, decided once (they do not read the table) -/

/-- a table of zeros: the index maps and the write-back schedule are the same at every table -/
def zeroTbl : (pcfg1 (F := Ideal)).Adm := ⟨fun | 0 => fun _ => (0#32 : BitVec 32) | ⟨_ + 1, h⟩ => absurd h (Nat.not_lt.2 (Nat.le_add_left _ _)), trivial⟩

theorem win1_eq (a : (pcfg1 (F := Ideal)).Adm) (w : Fin 6) : (cfg1 a).win w = (cfg1 zeroTbl).win w := rfl

/-- At grid point `t = 8·n + tile`: the query window sits at block `(n, tile, 0)`; the key, value and result windows
    at block `(n, 0, 0)`; the output projection's weight and bias windows at block `(0, 0)`. -/
theorem idx_facts1_zero : ∀ t : Fin (cfg1 zeroTbl).N,
    ((cfg1 zeroTbl).win 0).index t (0 : Fin 3) = t.val / 8 ∧ ((cfg1 zeroTbl).win 0).index t (1 : Fin 3) = t.val % 8 ∧ ((cfg1 zeroTbl).win 0).index t (2 : Fin 3) = 0
    ∧ ((cfg1 zeroTbl).win 1).index t (0 : Fin 3) = t.val / 8 ∧ ((cfg1 zeroTbl).win 1).index t (1 : Fin 3) = 0 ∧ ((cfg1 zeroTbl).win 1).index t (2 : Fin 3) = 0
    ∧ ((cfg1 zeroTbl).win 2).index t (0 : Fin 3) = t.val / 8 ∧ ((cfg1 zeroTbl).win 2).index t (1 : Fin 3) = 0 ∧ ((cfg1 zeroTbl).win 2).index t (2 : Fin 3) = 0
    ∧ ((cfg1 zeroTbl).win 3).index t (0 : Fin 2) = 0 ∧ ((cfg1 zeroTbl).win 3).index t (1 : Fin 2) = 0
    ∧ ((cfg1 zeroTbl).win 4).index t (0 : Fin 2) = 0 ∧ ((cfg1 zeroTbl).win 4).index t (1 : Fin 2) = 0
    ∧ ((cfg1 zeroTbl).win 5).index t (0 : Fin 3) = t.val / 8 ∧ ((cfg1 zeroTbl).win 5).index t (1 : Fin 3) = 0 ∧ ((cfg1 zeroTbl).win 5).index t (2 : Fin 3) = 0 :=
  (by decide +kernel : ∀ t : Fin grid1.N, _)

theorem idx_facts1 (a : (pcfg1 (F := Ideal)).Adm) : ∀ t : Fin (cfg1 a).N,
    ((cfg1 a).win 0).index t (0 : Fin 3) = t.val / 8 ∧ ((cfg1 a).win 0).index t (1 : Fin 3) = t.val % 8 ∧ ((cfg1 a).win 0).index t (2 : Fin 3) = 0
    ∧ ((cfg1 a).win 1).index t (0 : Fin 3) = t.val / 8 ∧ ((cfg1 a).win 1).index t (1 : Fin 3) = 0 ∧ ((cfg1 a).win 1).index t (2 : Fin 3) = 0
    ∧ ((cfg1 a).win 2).index t (0 : Fin 3) = t.val / 8 ∧ ((cfg1 a).win 2).index t (1 : Fin 3) = 0 ∧ ((cfg1 a).win 2).index t (2 : Fin 3) = 0
    ∧ ((cfg1 a).win 3).index t (0 : Fin 2) = 0 ∧ ((cfg1 a).win 3).index t (1 : Fin 2) = 0
    ∧ ((cfg1 a).win 4).index t (0 : Fin 2) = 0 ∧ ((cfg1 a).win 4).index t (1 : Fin 2) = 0
    ∧ ((cfg1 a).win 5).index t (0 : Fin 3) = t.val / 8 ∧ ((cfg1 a).win 5).index t (1 : Fin 3) = 0 ∧ ((cfg1 a).win 5).index t (2 : Fin 3) = 0 :=
  idx_facts1_zero

/-! ## The input blocks, read off their arrays -/

/-- Row `r` of the query tile at point `t` is row `256·(t mod 8) + r` of batch entry `t / 8`. -/
theorem qblk_apply (c : Dev nD) (t : Fin (cfgM1 V).N) (y : S1x256x1024.Idx) (k : S8x2048x1024.Idx)
    (hk0 : (k 0).val = t.val / 8) (hk1 : (k 1).val = (t.val % 8) * 256 + (y 1).val) (hk2 : (k 2).val = (y 2).val) :
    qblk1 V c t y = (V c main_v9_0 : S8x2048x1024.Idx → EReal) k := by
  obtain ⟨e0, e1, e2, -⟩ := idx_facts1 (adm1 V) t
  unfold qblk1 iblk1
  show V c main_v9_0 _ = V c main_v9_0 _
  congr 1
  funext a
  apply Fin.ext
  have hy0 : (y 0).val < 1 := (y 0).isLt
  match a with
  | ⟨0, _⟩ => show ((cfgM1 V).win 0).index t (0 : Fin 3) * 1 + 1 * (y 0).val = (k 0).val; rw [e0, hk0]; omega
  | ⟨1, _⟩ => show ((cfgM1 V).win 0).index t (1 : Fin 3) * 256 + 1 * (y 1).val = (k 1).val; rw [e1, hk1]; omega
  | ⟨2, _⟩ => show ((cfgM1 V).win 0).index t (2 : Fin 3) * 1024 + 1 * (y 2).val = (k 2).val; rw [e2, hk2]; omega

/-- The key block at point `t` is all 2048 rows of batch entry `t / 8`. -/
theorem kblk_apply (c : Dev nD) (t : Fin (cfgM1 V).N) (y : S1x2048x1024.Idx) (k : S8x2048x1024.Idx)
    (hk0 : (k 0).val = t.val / 8) (hk1 : (k 1).val = (y 1).val) (hk2 : (k 2).val = (y 2).val) :
    kblk1 V c t y = (V c main_v9_1 : S8x2048x1024.Idx → EReal) k := by
  obtain ⟨-, -, -, e0, e1, e2, -⟩ := idx_facts1 (adm1 V) t
  unfold kblk1 iblk1
  show V c main_v9_1 _ = V c main_v9_1 _
  congr 1
  funext a
  apply Fin.ext
  have hy0 : (y 0).val < 1 := (y 0).isLt
  match a with
  | ⟨0, _⟩ => show ((cfgM1 V).win 1).index t (0 : Fin 3) * 1 + 1 * (y 0).val = (k 0).val; rw [e0, hk0]; omega
  | ⟨1, _⟩ => show ((cfgM1 V).win 1).index t (1 : Fin 3) * 2048 + 1 * (y 1).val = (k 1).val; rw [e1, hk1]; omega
  | ⟨2, _⟩ => show ((cfgM1 V).win 1).index t (2 : Fin 3) * 1024 + 1 * (y 2).val = (k 2).val; rw [e2, hk2]; omega

/-- The value block at point `t` is all 2048 rows of batch entry `t / 8`. -/
theorem vblk_apply (c : Dev nD) (t : Fin (cfgM1 V).N) (y : S1x2048x1024.Idx) (k : S8x2048x1024.Idx)
    (hk0 : (k 0).val = t.val / 8) (hk1 : (k 1).val = (y 1).val) (hk2 : (k 2).val = (y 2).val) :
    vblk1 V c t y = (V c main_v9_2 : S8x2048x1024.Idx → EReal) k := by
  obtain ⟨-, -, -, -, -, -, e0, e1, e2, -⟩ := idx_facts1 (adm1 V) t
  unfold vblk1 iblk1
  show V c main_v9_2 _ = V c main_v9_2 _
  congr 1
  funext a
  apply Fin.ext
  have hy0 : (y 0).val < 1 := (y 0).isLt
  match a with
  | ⟨0, _⟩ => show ((cfgM1 V).win 2).index t (0 : Fin 3) * 1 + 1 * (y 0).val = (k 0).val; rw [e0, hk0]; omega
  | ⟨1, _⟩ => show ((cfgM1 V).win 2).index t (1 : Fin 3) * 2048 + 1 * (y 1).val = (k 1).val; rw [e1, hk1]; omega
  | ⟨2, _⟩ => show ((cfgM1 V).win 2).index t (2 : Fin 3) * 1024 + 1 * (y 2).val = (k 2).val; rw [e2, hk2]; omega

/-- The output projection's weight block at any point is the whole matrix. -/
theorem woblk_apply (c : Dev nD) (t : Fin (cfgM1 V).N) (y : S1024x1024.Idx) :
    woblk1 V c t y = (V c main_v4 : S1024x1024.Idx → EReal) y := by
  obtain ⟨-, -, -, -, -, -, -, -, -, e0, e1, -⟩ := idx_facts1 (adm1 V) t
  unfold woblk1 iblk1
  show V c main_v4 _ = V c main_v4 _
  congr 1
  funext a
  apply Fin.ext
  match a with
  | ⟨0, _⟩ => show ((cfgM1 V).win 3).index t (0 : Fin 2) * 1024 + 1 * (y 0).val = (y 0).val; rw [e0]; omega
  | ⟨1, _⟩ => show ((cfgM1 V).win 3).index t (1 : Fin 2) * 1024 + 1 * (y 1).val = (y 1).val; rw [e1]; omega

/-- The output projection's bias block at any point is the whole row. -/
theorem boblk_apply (c : Dev nD) (t : Fin (cfgM1 V).N) (y : S1x1024.Idx) :
    boblk1 V c t y = (V c main_v8 : S1x1024.Idx → EReal) y := by
  obtain ⟨-, -, -, -, -, -, -, -, -, -, -, e0, e1, -⟩ := idx_facts1 (adm1 V) t
  unfold boblk1 iblk1
  show V c main_v8 _ = V c main_v8 _
  congr 1
  funext a
  apply Fin.ext
  match a with
  | ⟨0, _⟩ => show ((cfgM1 V).win 4).index t (0 : Fin 2) * 1 + 1 * (y 0).val = (y 0).val; rw [e0]; omega
  | ⟨1, _⟩ => show ((cfgM1 V).win 4).index t (1 : Fin 2) * 1024 + 1 * (y 1).val = (y 1).val; rw [e1]; omega

/-- The word the body loads from the table at point `t` is the table's entry of batch entry `t / 8`. -/
theorem len1_eq (c : Dev nD) (t : Fin (cfgM1 V).N) (n : Fin 8) (hn : n.val = t.val / 8) :
    len1 V c t = (V c main_arg1 : S8.Idx → BitVec 32) (ValueIdx.ix1 n) := by
  obtain rfl : c = 0 := Subsingleton.elim _ _
  have hN : (cfgM1 V).N = 64 := N_1
  unfold len1 word1
  show V 0 main_arg1 _ = V 0 main_arg1 _
  congr 1
  funext a
  apply Fin.ext
  match a with
  | ⟨0, _⟩ =>
    show (BitVec.ofNat 32 ((grid1.coords t) 0).val).toNat + 1 * 0 = n.val
    have e0 : (BitVec.ofNat 32 ((grid1.coords t) 0).val).toNat = t.val / 8 := (idx_facts1 (adm1 V) t).1
    omega

/-! ## One tile's step on the accumulator -/

/-- What query position `s` of batch entry `n` contributes to feature `o`, over the arrays the region reads. -/
abbrev tok (c : Dev nD) (n : Fin 8) (s : Fin 2048) (o : Fin 1024) : EReal :=
  Cert.AttnSpec.tokenOut (fun n s h => V c main_v9_0 (ValueIdx.ix3 n s h)) (fun n s h => V c main_v9_1 (ValueIdx.ix3 n s h))
    (fun n s h => V c main_v9_2 (ValueIdx.ix3 n s h)) (fun o h => V c main_v4 (ValueIdx.ix2 o h))
    (fun o => V c main_v8 (ValueIdx.ix2 0 o)) (fun n => V c main_arg1 (ValueIdx.ix1 n)) n s o

theorem attnRow_congr {q q' : Fin 1024 → EReal} {K K' W W' : Fin 2048 → Fin 1024 → EReal} {len len' : BitVec 32}
    (hq : q = q') (hK : K = K') (hW : W = W') (hl : len = len') (h : Fin 1024) :
    Cert.AttnSpec.attnRow q K W len h = Cert.AttnSpec.attnRow q' K' W' len' h := by
  subst hq hK hW hl; rfl

/-- At point `t = 8·n + tile` the body adds to the accumulator's entry `o` the contributions of the tile's 256 query
    positions. -/
theorem tile_step (c : Dev nD) (t : Fin (cfgM1 V).N) (n tile : Fin 8) (ht : t.val = 8 * n.val + tile.val)
    (acc : Vec Ideal S1x1x1024 .f32) (o : Fin 1024) :
    tileAcc1 V c t acc (ix3 0 0 o) = acc (ix3 0 0 o) + ∑ r : Fin 256, tok V c n (Cert.AttnSpec.tileRow tile r) o := by
  have hn : n.val = t.val / 8 := by have := tile.isLt; omega
  have hm : t.val % 8 = tile.val := by have := tile.isLt; omega
  unfold tileAcc1
  refine (accPay_apply _ _ _ _ o).trans ?_
  congr 1
  refine Finset.sum_congr rfl fun r _ => ?_
  show _ = Cert.AttnSpec.outRow _ _ _ o
  unfold Cert.AttnSpec.outRow
  congr 1
  · refine Finset.sum_congr rfl fun h _ => ?_
    congr 1
    · refine (attnPay_apply _ _ _ _ r h).trans ?_
      refine attnRow_congr ?_ ?_ ?_ (len1_eq V c t n hn) h
      · funext d
        exact qblk_apply V c t _ _ hn (by show 256 * tile.val + r.val = t.val % 8 * 256 + r.val; omega) rfl
      · funext u d
        exact kblk_apply V c t _ _ hn rfl rfl
      · funext u d
        exact vblk_apply V c t _ _ hn rfl rfl
    · exact (woT_apply _ h o).trans (woblk_apply V c t _)
  · exact boblk_apply V c t _

/-! ## The accumulator along a batch entry's eight tiles -/

theorem accAt1_congr (c : Dev nD) {a b : ℕ} (h : a = b) (ha : a < (cfgM1 V).N) (hb : b < (cfgM1 V).N) :
    accAt1 V c a ha = accAt1 V c b hb := by
  subst h; rfl

/-- The contributions of tile `i` of batch entry `n` to feature `o` (nothing past the eighth tile). -/
def tileSum (c : Dev nD) (n : Fin 8) (o : Fin 1024) (i : ℕ) : EReal :=
  if h : i < 8 then ∑ r : Fin 256, tok V c n (Cert.AttnSpec.tileRow ⟨i, h⟩ r) o else 0

/-- Before the eighth tile the accumulator holds the sum of the tiles so far. -/
theorem acc_partial (c : Dev nD) (n : Fin 8) (o : Fin 1024) :
    ∀ (j : ℕ) (hj : j < 7) (ht : 8 * n.val + j < (cfgM1 V).N),
      accAt1 V c (8 * n.val + j) ht (ix3 0 0 o) = ∑ i ∈ Finset.range (j + 1), tileSum V c n o i
  | 0, hj, ht => by
    have e := accAt1_first V c ⟨8 * n.val + 0, ht⟩ (by show (8 * n.val + 0) % 8 = 0; omega)
    rw [show accAt1 V c (8 * n.val + 0) ht = _ from e, tile_step V c _ n 0 rfl _ o, zeroPay_apply, zero_add,
      Finset.sum_range_one]
    unfold tileSum
    rw [dif_pos (by decide : 0 < 8)]
    rfl
  | j + 1, hj, ht => by
    have h0 : ¬ (8 * n.val + (j + 1)) % 8 = 0 := by omega
    have h7 : ¬ (8 * n.val + (j + 1)) % 8 = 7 := by omega
    have e := accAt1_mid V c ⟨8 * n.val + (j + 1), ht⟩ h0 h7
    rw [show accAt1 V c (8 * n.val + (j + 1)) ht = _ from e, tile_step V c _ n ⟨j + 1, by omega⟩ rfl _ o,
      accAt1_congr V c (show (8 * n.val + (j + 1)) - 1 = 8 * n.val + j by omega) _ (by omega),
      acc_partial c n o j (by omega) (by omega), Finset.sum_range_succ _ (j + 1)]
    congr 1
    unfold tileSum
    rw [dif_pos (by omega : j + 1 < 8)]

/-- After the eighth tile the accumulator holds the mean over the batch entry's 2048 positions. -/
theorem acc_last (c : Dev nD) (n : Fin 8) (o : Fin 1024) (ht : 8 * n.val + 7 < (cfgM1 V).N) :
    accAt1 V c (8 * n.val + 7) ht (ix3 0 0 o)
      = Cert.AttnSpec.pooled (fun n s h => V c main_v9_0 (ValueIdx.ix3 n s h)) (fun n s h => V c main_v9_1 (ValueIdx.ix3 n s h))
          (fun n s h => V c main_v9_2 (ValueIdx.ix3 n s h)) (fun o h => V c main_v4 (ValueIdx.ix2 o h))
          (fun o => V c main_v8 (ValueIdx.ix2 0 o)) (fun n => V c main_arg1 (ValueIdx.ix1 n)) n o := by
  have e := accAt1_last V c ⟨8 * n.val + 7, ht⟩ (by show (8 * n.val + 7) % 8 = 7; omega)
  rw [show accAt1 V c (8 * n.val + 7) ht = _ from e, scalePay_apply, tile_step V c _ n 7 rfl _ o,
    accAt1_congr V c (show (8 * n.val + 7) - 1 = 8 * n.val + 6 by omega) _ (by omega),
    acc_partial V c n o 6 (by decide) (by omega), scale_law]
  unfold Cert.AttnSpec.pooled
  congr 1
  rw [← tiles_sum]
  have hs : (∑ tile : Fin 8, ∑ r : Fin 256, tok V c n (Cert.AttnSpec.tileRow tile r) o)
      = ∑ i ∈ Finset.range 8, tileSum V c n o i := by
    rw [Finset.sum_range]
    refine Finset.sum_congr rfl fun tile _ => ?_
    unfold tileSum
    rw [dif_pos tile.isLt]
  refine Eq.trans ?_ hs.symm
  rw [Finset.sum_range_succ (tileSum V c n o) 7]
  congr 1

/-! ## The write-back and the result array -/

/-- The pooled output as ONE function of the result array's index. -/
def poolArr (c : Dev nD) : S8x1x1024.Idx → EReal := fun i =>
  Cert.AttnSpec.pooled (fun n s h => V c main_v9_0 (ValueIdx.ix3 n s h)) (fun n s h => V c main_v9_1 (ValueIdx.ix3 n s h))
    (fun n s h => V c main_v9_2 (ValueIdx.ix3 n s h)) (fun o h => V c main_v4 (ValueIdx.ix2 o h))
    (fun o => V c main_v8 (ValueIdx.ix2 0 o)) (fun n => V c main_arg1 (ValueIdx.ix1 n)) (i 0) (i 2)

/-- At the eighth tile of batch entry `t / 8` the accumulator's row is row `t / 8` of the pooled output. -/
theorem acc_block (c : Dev nD) (t : Fin (cfgM1 V).N) (h7 : t.val % 8 = 7) (j : S1x1x1024.Idx) (i : S8x1x1024.Idx)
    (h0 : (i 0).val = t.val / 8) (h2 : (i 2).val = (j 2).val) :
    accAt1 V c t.val t.isLt j = poolArr V c i := by
  obtain ⟨j0, j1, o, rfl⟩ : ∃ (j0 : Fin 1) (j1 : Fin 1) (o : Fin 1024), j = ix3 j0 j1 o := ⟨j 0, j 1, j 2, eq_ix3 j⟩
  obtain rfl : j0 = 0 := Subsingleton.elim _ _
  obtain rfl : j1 = 0 := Subsingleton.elim _ _
  obtain ⟨n, i1, o', rfl⟩ : ∃ (n : Fin 8) (i1 : Fin 1) (o' : Fin 1024), i = ix3 n i1 o' := ⟨i 0, i 1, i 2, eq_ix3 i⟩
  obtain rfl : o' = o := Fin.ext h2
  have hn : n.val = t.val / 8 := h0
  have ht : t.val = 8 * n.val + 7 := by omega
  rw [accAt1_congr V c ht t.isLt (by rw [← ht]; exact t.isLt), acc_last]
  rfl

/-- What the eighth tile's point writes back is its row of the pooled output. -/
theorem acc_flushed (c : Dev nD) (t : Fin (cfgM1 V).N) (hf : ((cfgM1 V).win 5).flush t = true) :
    (dat1 (F := Ideal) V c).flushed 5 t = (((cfgM1 V).win 5).blk t).view.read (Elt Ideal) (poolArr V c) := by
  have h7 : t.val % 8 = 7 := (flush1_5 (adm1 V) t).mp hf
  obtain ⟨-, -, -, -, -, -, -, -, -, -, -, -, -, e0, e1, e2⟩ := idx_facts1 (adm1 V) t
  show ((cfgM1 V).win 5).cut ((cfgM1 V).grid.coords t) ((dat1 (F := Ideal) V c).after 5 t) = _
  rw [after1_5]
  refine funext fun (j : S1x1x1024.Idx) => ?_
  show accAt1 V c t.val t.isLt j = poolArr V c ((((cfgM1 V).win 5).blk t).view.emb j)
  have hj0 : (j 0).val < 1 := (j 0).isLt
  exact acc_block V c t h7 j _
    (by show ((cfgM1 V).win 5).index t (0 : Fin 3) * 1 + 1 * (j 0).val = _; rw [e0]; omega)
    (by show ((cfgM1 V).win 5).index t (2 : Fin 3) * 1024 + 1 * (j 2).val = _; rw [e2]; omega)

/-- An index of the result array is in point `t`'s block iff each coordinate is in the block's range on its axis. -/
theorem acc_mem_blk (t : Fin (cfgM1 V).N) (i : S8x1x1024.Idx) :
    i ∈ (((cfgM1 V).win 5).blk t).view.set ↔ ∀ a : Fin 3, ((cfgM1 V).win 5).index t a * S1x1x1024.size a ≤ (i a).val
      ∧ (i a).val < ((cfgM1 V).win 5).index t a * S1x1x1024.size a + S1x1x1024.size a := by
  show i ∈ ((View.whole main_v10).slice (((cfgM1 V).win 5).rect t)).set ↔ _
  erw [View.set_slice_whole, Rect.mem_set_unit]
  exact Iff.rfl

/-- Row `n` of the result array is in the block of the point `8·n + 7`, which writes back. -/
theorem acc_cover (i : S8x1x1024.Idx) :
    ∃ t : Fin (cfgM1 V).N, ((cfgM1 V).win 5).flush t = true ∧ i ∈ (((cfgM1 V).win 5).blk t).view.set := by
  have hi0 : (i 0).val < 8 := (i 0).isLt
  have hi1 : (i 1).val < 1 := (i 1).isLt
  have hi2 : (i 2).val < 1024 := (i 2).isLt
  have hN : (cfgM1 V).N = 64 := N_1
  obtain ⟨t, ht⟩ : ∃ t : Fin (cfgM1 V).N, t.val = (i 0).val * 8 + 7 := ⟨⟨(i 0).val * 8 + 7, by omega⟩, rfl⟩
  obtain ⟨-, -, -, -, -, -, -, -, -, -, -, -, -, e0, e1, e2⟩ := idx_facts1 (adm1 V) t
  refine ⟨t, (flush1_5 (adm1 V) t).mpr (by omega), ?_⟩
  rw [acc_mem_blk]
  intro a
  match a with
  | ⟨0, _⟩ => show ((cfgM1 V).win 5).index t (0 : Fin 3) * 1 ≤ (i 0).val ∧ (i 0).val < ((cfgM1 V).win 5).index t (0 : Fin 3) * 1 + 1; rw [e0]; omega
  | ⟨1, _⟩ => show ((cfgM1 V).win 5).index t (1 : Fin 3) * 1 ≤ (i 1).val ∧ (i 1).val < ((cfgM1 V).win 5).index t (1 : Fin 3) * 1 + 1; rw [e1]; omega
  | ⟨2, _⟩ => show ((cfgM1 V).win 5).index t (2 : Fin 3) * 1024 ≤ (i 2).val ∧ (i 2).val < ((cfgM1 V).win 5).index t (2 : Fin 3) * 1024 + 1024; rw [e2]; omega

/-- The result array after the region's last point, index by index: the specification's pooled output. -/
theorem pooled_final (c : Dev nD) (n : Fin 8) (o : Fin 1024) :
    (dat1 (F := Ideal) V c).arrAt 5 (cfgM1 V).N (ValueIdx.ix3 n 0 o)
      = Cert.AttnSpec.pooled (fun n s h => V c main_v9_0 (ValueIdx.ix3 n s h)) (fun n s h => V c main_v9_1 (ValueIdx.ix3 n s h))
          (fun n s h => V c main_v9_2 (ValueIdx.ix3 n s h)) (fun o h => V c main_v4 (ValueIdx.ix2 o h))
          (fun o => V c main_v8 (ValueIdx.ix2 0 o)) (fun n => V c main_arg1 (ValueIdx.ix1 n)) n o := by
  rw [(dat1 (F := Ideal) V c).arrAt_eq_of_cover 5 (poolArr V c) (fun t hf => acc_flushed V c t hf) (acc_cover V)]
  rfl

end Cert.KernelIdeal.Hand

end
-- ==== Proof.HostReads.lean ====
/-
  What the host operations around the two kernels leave in their buffers, read at an index of the ideal instance.

  Before the first kernel the host casts the input and the four weight matrices to a narrower float format —
  the identity on the extended reals — and views each of the four bias vectors `[1024]` as a one-row matrix
  `[1, 1024]`, whose entry `(0, h)` is the vector's entry `h`. The table of lengths is written by no host
  operation. After the second kernel the host views its result `[8, 1, 1024]` as `[8, 1024]`: entry `(n, o)` is
  the result's entry `(n, 0, o)`, the two having the same row-major position `1024 · n + o`.
-/
import proofs.«422647_j35725537968569_1_alg».proof.Proof.Gen.KernelIdeal.Regions
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-! ## The casts: the identity on the extended reals -/

/-- The input as the first kernel finds it is the input as launched. -/
theorem V1_v0 (i : S8x2048x1024.Idx) :
    Gen.V1 (F := Ideal) m c main_v0 i = m ((c : Thread nD τ).loc main_arg0) i := by
  have e : Gen.V1 (F := Ideal) m c main_v0
      = (truncf .bf16 (m ((c : Thread nD τ).loc main_arg0)) bitsLt_bf16_f32 : FVec Ideal S8x2048x1024 .bf16) := by
    dsimp only [Gen.V1, Gen.V0, Gen.hostOps0]; after_results
  rw [e]; rfl

/-- The query weight as the first kernel finds it is the one launched. -/
theorem V1_v1 (i : S1024x1024.Idx) :
    Gen.V1 (F := Ideal) m c main_v1 i = m ((c : Thread nD τ).loc main_arg2) i := by
  have e : Gen.V1 (F := Ideal) m c main_v1
      = (truncf .bf16 (m ((c : Thread nD τ).loc main_arg2)) bitsLt_bf16_f32 : FVec Ideal S1024x1024 .bf16) := by
    dsimp only [Gen.V1, Gen.V0, Gen.hostOps0]; after_results
  rw [e]; rfl

/-- The key weight likewise. -/
theorem V1_v2 (i : S1024x1024.Idx) :
    Gen.V1 (F := Ideal) m c main_v2 i = m ((c : Thread nD τ).loc main_arg4) i := by
  have e : Gen.V1 (F := Ideal) m c main_v2
      = (truncf .bf16 (m ((c : Thread nD τ).loc main_arg4)) bitsLt_bf16_f32 : FVec Ideal S1024x1024 .bf16) := by
    dsimp only [Gen.V1, Gen.V0, Gen.hostOps0]; after_results
  rw [e]; rfl

/-- The value weight likewise. -/
theorem V1_v3 (i : S1024x1024.Idx) :
    Gen.V1 (F := Ideal) m c main_v3 i = m ((c : Thread nD τ).loc main_arg6) i := by
  have e : Gen.V1 (F := Ideal) m c main_v3
      = (truncf .bf16 (m ((c : Thread nD τ).loc main_arg6)) bitsLt_bf16_f32 : FVec Ideal S1024x1024 .bf16) := by
    dsimp only [Gen.V1, Gen.V0, Gen.hostOps0]; after_results
  rw [e]; rfl

/-- The output weight, which the second kernel reads, likewise. -/
theorem V1_v4 (i : S1024x1024.Idx) :
    Gen.V1 (F := Ideal) m c main_v4 i = m ((c : Thread nD τ).loc main_arg8) i := by
  have e : Gen.V1 (F := Ideal) m c main_v4
      = (truncf .bf16 (m ((c : Thread nD τ).loc main_arg8)) bitsLt_bf16_f32 : FVec Ideal S1024x1024 .bf16) := by
    dsimp only [Gen.V1, Gen.V0, Gen.hostOps0]; after_results
  rw [e]; rfl

/-! ## The bias vectors as one-row matrices -/

/-- The query bias row at `(0, h)` is the bias vector at `h`. -/
theorem V1_v5 (h : Fin 1024) :
    Gen.V1 (F := Ideal) m c main_v5 (ValueIdx.ix2 0 h) = m ((c : Thread nD τ).loc main_arg3) (ValueIdx.ix1 h) := by
  have e : Gen.V1 (F := Ideal) m c main_v5
      = (shapeCast S1x1024 (m ((c : Thread nD τ).loc main_arg3)) shapeCasts_S1024_S1x1024 : FVec Ideal S1x1024 .f32) := by
    dsimp only [Gen.V1, Gen.V0, Gen.hostOps0]; after_results; rfl
  rw [e]
  exact shapeCast_a_1a_apply _ shapeCasts_S1024_S1x1024 0 h

/-- The key bias row likewise. -/
theorem V1_v6 (h : Fin 1024) :
    Gen.V1 (F := Ideal) m c main_v6 (ValueIdx.ix2 0 h) = m ((c : Thread nD τ).loc main_arg5) (ValueIdx.ix1 h) := by
  have e : Gen.V1 (F := Ideal) m c main_v6
      = (shapeCast S1x1024 (m ((c : Thread nD τ).loc main_arg5)) shapeCasts_S1024_S1x1024 : FVec Ideal S1x1024 .f32) := by
    dsimp only [Gen.V1, Gen.V0, Gen.hostOps0]; after_results; rfl
  rw [e]
  exact shapeCast_a_1a_apply _ shapeCasts_S1024_S1x1024 0 h

/-- The value bias row likewise. -/
theorem V1_v7 (h : Fin 1024) :
    Gen.V1 (F := Ideal) m c main_v7 (ValueIdx.ix2 0 h) = m ((c : Thread nD τ).loc main_arg7) (ValueIdx.ix1 h) := by
  have e : Gen.V1 (F := Ideal) m c main_v7
      = (shapeCast S1x1024 (m ((c : Thread nD τ).loc main_arg7)) shapeCasts_S1024_S1x1024 : FVec Ideal S1x1024 .f32) := by
    dsimp only [Gen.V1, Gen.V0, Gen.hostOps0]; after_results; rfl
  rw [e]
  exact shapeCast_a_1a_apply _ shapeCasts_S1024_S1x1024 0 h

/-- The output bias row, which the second kernel reads, likewise. -/
theorem V1_v8 (h : Fin 1024) :
    Gen.V1 (F := Ideal) m c main_v8 (ValueIdx.ix2 0 h) = m ((c : Thread nD τ).loc main_arg9) (ValueIdx.ix1 h) := by
  have e : Gen.V1 (F := Ideal) m c main_v8
      = (shapeCast S1x1024 (m ((c : Thread nD τ).loc main_arg9)) shapeCasts_S1024_S1x1024 : FVec Ideal S1x1024 .f32) := by
    dsimp only [Gen.V1, Gen.V0, Gen.hostOps0]; after_results; rfl
  rw [e]
  exact shapeCast_a_1a_apply _ shapeCasts_S1024_S1x1024 0 h

/-! ## The table of lengths -/

/-- No host operation before the first kernel writes the table of lengths. -/
theorem V1_arg1 : Gen.V1 (F := Ideal) m c main_arg1 = m ((c : Thread nD τ).loc main_arg1) :=
  (Gen.V1_of m c main_arg1 (by decide)).trans rfl

/-! ## The result viewed `[8, 1024]` -/

/-- Entry `(n, o)` of the program's result is entry `(n, 0, o)` of what the second kernel left: both sit at row-major
    position `1024 · n + o`. -/
theorem V4_v11 (outs : Gen.Outs (F := Ideal)) (n : Fin 8) (o : Fin 1024) :
    Gen.V4 (F := Ideal) m outs c main_v11 (ValueIdx.ix2 n o) = Gen.V3 m outs c main_v10 (ValueIdx.ix3 n 0 o) := by
  have e : Gen.V4 (F := Ideal) m outs c main_v11
      = (shapeCast S8x1024 (Gen.V3 m outs c main_v10) shapeCasts_S8x1x1024_S8x1024 : FVec Ideal S8x1024 .f32) := by
    dsimp only [Gen.V4, Gen.hostOps2]; after_results; rfl
  rw [e]
  refine shapeCast_apply _ shapeCasts_S8x1x1024_S8x1024 (ValueIdx.ix2 n o) (ValueIdx.ix3 n (0 : Fin 1) o) ?_
  rw [Shape.rowMajor_val_three, Shape.rowMajor_val_two]
  show (n.val * 1 + 0) * 1024 + o.val = n.val * 1024 + o.val
  omega

end Cert.KernelIdeal.Hand

end
-- ==== Proof.QkvPayload.lean ====
/-
  The first kernel's three stored tiles, read at an index of the ideal instance.

  Each grid point of the first kernel loads one tile of the input, `x : [1, 256, 1024]`, a weight matrix
  `w : [1024, 1024]` and a bias row `b : [1, 1024]`, and stores
      tile[0, r, h] = (∑ d, x[0, r, d] · w[h, d]) + b[0, h]:
  the row `r` of the tile times the TRANSPOSED weight, plus the bias broadcast down the rows. Over the extended
  reals every operation is exact and a change of float format is the identity, so the stored value is this
  expression itself: the matrix product accumulated into the zero splat is the plain sum over the contraction
  coordinate, the transpose swaps the weight's two coordinates, the unit leading axis of the tile is dropped
  before the product and put back before the store, and the casts to the same shape do nothing.
-/
import proofs.«422647_j35725537968569_1_alg».proof.Proof.Gen.KernelIdeal.Skeleton
import proofs.«422647_j35725537968569_1_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-! ## The operand indices of the [256, 1024] × [1024, 1024] product

The product contracts axis 1 of the left operand with axis 0 of the right one; the left operand's axis 0 is the
result's row, the right operand's axis 1 the result's column. -/

/-- The left operand's row is the result's row. -/
theorem projDot_lhs_0 (j : S256x1024.Idx) (q : dot_S256x1024_S1024x1024_S256x1024_1_0_0_1_n_n.contr.Idx) :
    (dot_S256x1024_S1024x1024_S256x1024_1_0_0_1_n_n.lhsIdx j q 0).val = (j 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl

/-- The left operand's column is the contraction coordinate. -/
theorem projDot_lhs_1 (j : S256x1024.Idx) (q : dot_S256x1024_S1024x1024_S256x1024_1_0_0_1_n_n.contr.Idx) :
    (dot_S256x1024_S1024x1024_S256x1024_1_0_0_1_n_n.lhsIdx j q 1).val = (q ⟨0, by decide⟩).val :=
  dot_S256x1024_S1024x1024_S256x1024_1_0_0_1_n_n.lhsIdx_val_of_single rfl j q

/-- The right operand's row is the contraction coordinate. -/
theorem projDot_rhs_0 (j : S256x1024.Idx) (q : dot_S256x1024_S1024x1024_S256x1024_1_0_0_1_n_n.contr.Idx) :
    (dot_S256x1024_S1024x1024_S256x1024_1_0_0_1_n_n.rhsIdx j q 0).val = (q ⟨0, by decide⟩).val :=
  dot_S256x1024_S1024x1024_S256x1024_1_0_0_1_n_n.rhsIdx_val_of_single rfl j q

/-- The right operand's column is the result's column. -/
theorem projDot_rhs_1 (j : S256x1024.Idx) (q : dot_S256x1024_S1024x1024_S256x1024_1_0_0_1_n_n.contr.Idx) :
    (dot_S256x1024_S1024x1024_S256x1024_1_0_0_1_n_n.rhsIdx j q 1).val = (j 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The matrix product into the zero splat, at row `p` and column `h`: the sum over the contraction coordinate `d` of
    the left operand at `(p, d)` times the right operand at `(d, h)`. -/
theorem projDot_apply (l : FVec Ideal S256x1024 .bf16) (r : FVec Ideal S1024x1024 .bf16) (p : Fin 256) (h : Fin 1024) :
    matmul dot_S256x1024_S1024x1024_S256x1024_1_0_0_1_n_n none l r (constant (F := Ideal) S256x1024 .f32 0x00000000#32) (ix2 p h)
      = ∑ d : Fin 1024, l (ix2 p d) * r (ix2 d h) := by
  show FloatOps.matmul dot_S256x1024_S1024x1024_S256x1024_1_0_0_1_n_n none l r (constant (F := Ideal) S256x1024 .f32 0x00000000#32) (ix2 p h) = _
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p h) ((contrEquiv1 dot_S256x1024_S1024x1024_S256x1024_1_0_0_1_n_n 1024 rfl rfl).symm k) = ix2 p k := funext fun a => Fin.ext (by
    match a with
    | ⟨0, _⟩ => exact projDot_lhs_0 _ _
    | ⟨1, _⟩ => exact (projDot_lhs_1 _ _).trans hk)
  have er : dot_S256x1024_S1024x1024_S256x1024_1_0_0_1_n_n.rhsIdx (ix2 p h) ((contrEquiv1 dot_S256x1024_S1024x1024_S256x1024_1_0_0_1_n_n 1024 rfl rfl).symm k) = ix2 k h := funext fun a => Fin.ext (by
    match a with
    | ⟨0, _⟩ => exact (projDot_rhs_0 _ _).trans hk
    | ⟨1, _⟩ => exact projDot_rhs_1 _ _)
  rw [el, er]

/-! ## The linear layer before the store -/

/-- The f32 tile the kernel computes, at row `r` and feature `h`: the input tile's row `r` against the weight's row `h`
    (the weight enters the product transposed), plus the bias at `h` (the bias row is broadcast down the 256 rows). -/
theorem linear_apply (x : Vec Ideal S1x256x1024 .bf16) (w : Vec Ideal S1024x1024 .bf16) (b : Vec Ideal S1x1024 .f32)
    (r : Fin 256) (h : Fin 1024) :
    addf (matmul (φ₁ := .bf16) (φ₂ := .bf16) dot_S256x1024_S1024x1024_S256x1024_1_0_0_1_n_n none (k0_pay3 (F := Ideal) x)
          (transpose S1024x1024 [1, 0] (shapeCast S1024x1024 w shapeCasts_S1024x1024_S1024x1024) transposes_S1024x1024_p1_0_S1024x1024)
          (constant (F := Ideal) S256x1024 .f32 0x00000000#32))
        (broadcastTo S256x1024 (shapeCast S1x1024 b shapeCasts_S1x1024_S1x1024) broadcasts_S1x1024_S256x1024) (ix2 r h)
      = (∑ d : Fin 1024, x (ix3 0 r d) * w (ix2 h d)) + b (ix2 0 h) := by
  rw [addf_apply, projDot_apply, shapeCast_self, shapeCast_self, broadcastTo_1b_ab_apply]
  refine congrArg (· + b (ix2 0 h)) (Finset.sum_congr rfl fun d _ => ?_)
  rw [transpose_ix2_apply]
  unfold k0_pay3
  rw [shapeCast_1ab_ab_apply]

/-! ## The three stored tiles -/

/-- The query tile stored through the first output window. -/
theorem qPay_apply (x : Vec Ideal S1x256x1024 .bf16) (w : Vec Ideal S1024x1024 .bf16) (b : Vec Ideal S1x1024 .f32)
    (r : Fin 256) (h : Fin 1024) :
    k0_pay5 (F := Ideal) x w b (ix3 0 r h) = (∑ d : Fin 1024, x (ix3 0 r d) * w (ix2 h d)) + b (ix2 0 h) := by
  unfold k0_pay5
  rw [shapeCast_ab_1ab_apply, truncf_apply]
  exact linear_apply x w b r h

/-- The key tile stored through the second output window. -/
theorem kPay_apply (x : Vec Ideal S1x256x1024 .bf16) (w : Vec Ideal S1024x1024 .bf16) (b : Vec Ideal S1x1024 .f32)
    (r : Fin 256) (h : Fin 1024) :
    k0_pay1 (F := Ideal) (k0_pay6 x w b) (ix3 0 r h) = (∑ d : Fin 1024, x (ix3 0 r d) * w (ix2 h d)) + b (ix2 0 h) := by
  unfold k0_pay1
  rw [shapeCast_ab_1ab_apply]
  unfold k0_pay6
  rw [truncf_apply]
  exact linear_apply x w b r h

/-- The value tile stored through the third output window. -/
theorem vPay_apply (x : Vec Ideal S1x256x1024 .bf16) (w : Vec Ideal S1024x1024 .bf16) (b : Vec Ideal S1x1024 .f32)
    (r : Fin 256) (h : Fin 1024) :
    k0_pay2 (F := Ideal) (k0_pay4 x w b) (ix3 0 r h) = (∑ d : Fin 1024, x (ix3 0 r d) * w (ix2 h d)) + b (ix2 0 h) := by
  unfold k0_pay2
  rw [shapeCast_ab_1ab_apply, truncf_apply]
  unfold k0_pay4
  exact linear_apply x w b r h

end Cert.KernelIdeal.Hand

end
-- ==== Proof.QkvValue.lean ====
import proofs.«422647_j35725537968569_1_alg».proof.Proof.QkvRegion
import proofs.«422647_j35725537968569_1_alg».proof.Proof.QkvPayload
import proofs.«422647_j35725537968569_1_alg».proof.Proof.AttnSpec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/- the TensorCore's buffer contents when the region is entered -/
variable (V : (c : Dev nD) → (b : Ref sig .tc) → Buf (Elt Ideal) ((c : Thread nD τ).loc b))

/-! # The three projections as whole arrays

After the last grid point each of the three output arrays of the projections' kernel holds, at every index
`(n, s, h)`, the linear layer `(∑ d, x n s d · W h d) + b h` of the activations, the weight matrix and the bias row the
region found: each grid point `(n, tile)` writes back rows `256·tile … 256·tile + 255` of batch entry `n`, and the 64
points' blocks tile the array. -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The linear layer as ONE function of the output array's index, over the three input arrays. -/
def projArr (X : S8x2048x1024.Idx → EReal) (Wm : S1024x1024.Idx → EReal) (Bv : S1x1024.Idx → EReal) :
    S8x2048x1024.Idx → EReal := fun i =>
  Cert.AttnSpec.proj (fun n s d => X (ix3 n s d)) (fun h d => Wm (ix2 h d)) (fun h => Bv (ix2 0 h)) (i 0) (i 1) (i 2)

theorem projArr_ix3 (X : S8x2048x1024.Idx → EReal) (Wm : S1024x1024.Idx → EReal) (Bv : S1x1024.Idx → EReal)
    (n : Fin 8) (s : Fin 2048) (h : Fin 1024) :
    projArr X Wm Bv (ix3 n s h)
      = Cert.AttnSpec.proj (fun n s d => X (ix3 n s d)) (fun h d => Wm (ix2 h d)) (fun h => Bv (ix2 0 h)) n s h := rfl

/-! ## The grid's index maps, decided once -/

/-- At grid point `t = 8·n + tile`: the activation window and the three output windows sit at block `(n, tile, 0)`;
    the weight and bias windows at block `(0, 0)`. -/
theorem idx_facts0 : ∀ t : Fin cfg0.N,
    win0_0.index t (0 : Fin 3) = t.val / 8 ∧ win0_0.index t (1 : Fin 3) = t.val % 8 ∧ win0_0.index t (2 : Fin 3) = 0
    ∧ win0_7.index t (0 : Fin 3) = t.val / 8 ∧ win0_7.index t (1 : Fin 3) = t.val % 8 ∧ win0_7.index t (2 : Fin 3) = 0
    ∧ win0_8.index t (0 : Fin 3) = t.val / 8 ∧ win0_8.index t (1 : Fin 3) = t.val % 8 ∧ win0_8.index t (2 : Fin 3) = 0
    ∧ win0_9.index t (0 : Fin 3) = t.val / 8 ∧ win0_9.index t (1 : Fin 3) = t.val % 8 ∧ win0_9.index t (2 : Fin 3) = 0 :=
  (by decide +kernel : ∀ t : Fin grid0.N, _)

theorem idx_facts0_const : ∀ t : Fin cfg0.N,
    win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0 ∧ win0_6.index t (0 : Fin 2) = 0 ∧ win0_6.index t (1 : Fin 2) = 0 :=
  (by decide +kernel : ∀ t : Fin grid0.N, _)

/-! ## The input blocks, read off their arrays -/

/-- Row `r`, column `d` of the activation tile at point `t` is row `256·(t mod 8) + r` of batch entry `t / 8`. -/
theorem xblk_apply (c : Dev nD) (t : Fin cfg0.N) (y : S1x256x1024.Idx) (k : S8x2048x1024.Idx)
    (hk0 : (k 0).val = t.val / 8) (hk1 : (k 1).val = (t.val % 8) * 256 + (y 1).val) (hk2 : (k 2).val = (y 2).val) :
    (iblk0 V c 0 t : Vec Ideal S1x256x1024 .bf16) y = (V c main_v0 : S8x2048x1024.Idx → EReal) k := by
  obtain ⟨e0, e1, e2, -⟩ := idx_facts0 t
  unfold iblk0
  rw [View.read_apply]
  show V c main_v0 _ = V c main_v0 _
  congr 1
  funext a
  apply Fin.ext
  have hy0 : (y 0).val < 1 := (y 0).isLt
  match a with
  | ⟨0, _⟩ => show win0_0.index t (0 : Fin 3) * 1 + 1 * (y 0).val = (k 0).val; rw [e0, hk0]; omega
  | ⟨1, _⟩ => show win0_0.index t (1 : Fin 3) * 256 + 1 * (y 1).val = (k 1).val; rw [e1, hk1]; omega
  | ⟨2, _⟩ => show win0_0.index t (2 : Fin 3) * 1024 + 1 * (y 2).val = (k 2).val; rw [e2, hk2]; omega

/-- The query weight window's block at any point is the whole array. -/
theorem blk1_apply (c : Dev nD) (t : Fin cfg0.N) (y : S1024x1024.Idx) :
    (iblk0 V c 1 t : Vec Ideal S1024x1024 .bf16) y = (V c main_v1 : S1024x1024.Idx → EReal) y := by
  obtain ⟨a10, a11, a20, a21, a30, a31, a40, a41, a50, a51, a60, a61⟩ := idx_facts0_const t
  unfold iblk0
  rw [View.read_apply]
  show V c main_v1 _ = V c main_v1 _
  congr 1
  funext a
  apply Fin.ext
  match a with
  | ⟨0, _⟩ => show win0_1.index t (0 : Fin 2) * 1024 + 1 * (y 0).val = (y 0).val; rw [a10]; omega
  | ⟨1, _⟩ => show win0_1.index t (1 : Fin 2) * 1024 + 1 * (y 1).val = (y 1).val; rw [a11]; omega

/-- The query bias window's block at any point is the whole array. -/
theorem blk2_apply (c : Dev nD) (t : Fin cfg0.N) (y : S1x1024.Idx) :
    (iblk0 V c 2 t : Vec Ideal S1x1024 .f32) y = (V c main_v5 : S1x1024.Idx → EReal) y := by
  obtain ⟨a10, a11, a20, a21, a30, a31, a40, a41, a50, a51, a60, a61⟩ := idx_facts0_const t
  unfold iblk0
  rw [View.read_apply]
  show V c main_v5 _ = V c main_v5 _
  congr 1
  funext a
  apply Fin.ext
  match a with
  | ⟨0, _⟩ => show win0_2.index t (0 : Fin 2) * 1 + 1 * (y 0).val = (y 0).val; rw [a20]; omega
  | ⟨1, _⟩ => show win0_2.index t (1 : Fin 2) * 1024 + 1 * (y 1).val = (y 1).val; rw [a21]; omega

/-- The key weight window's block at any point is the whole array. -/
theorem blk3_apply (c : Dev nD) (t : Fin cfg0.N) (y : S1024x1024.Idx) :
    (iblk0 V c 3 t : Vec Ideal S1024x1024 .bf16) y = (V c main_v2 : S1024x1024.Idx → EReal) y := by
  obtain ⟨a10, a11, a20, a21, a30, a31, a40, a41, a50, a51, a60, a61⟩ := idx_facts0_const t
  unfold iblk0
  rw [View.read_apply]
  show V c main_v2 _ = V c main_v2 _
  congr 1
  funext a
  apply Fin.ext
  match a with
  | ⟨0, _⟩ => show win0_3.index t (0 : Fin 2) * 1024 + 1 * (y 0).val = (y 0).val; rw [a30]; omega
  | ⟨1, _⟩ => show win0_3.index t (1 : Fin 2) * 1024 + 1 * (y 1).val = (y 1).val; rw [a31]; omega

/-- The key bias window's block at any point is the whole array. -/
theorem blk4_apply (c : Dev nD) (t : Fin cfg0.N) (y : S1x1024.Idx) :
    (iblk0 V c 4 t : Vec Ideal S1x1024 .f32) y = (V c main_v6 : S1x1024.Idx → EReal) y := by
  obtain ⟨a10, a11, a20, a21, a30, a31, a40, a41, a50, a51, a60, a61⟩ := idx_facts0_const t
  unfold iblk0
  rw [View.read_apply]
  show V c main_v6 _ = V c main_v6 _
  congr 1
  funext a
  apply Fin.ext
  match a with
  | ⟨0, _⟩ => show win0_4.index t (0 : Fin 2) * 1 + 1 * (y 0).val = (y 0).val; rw [a40]; omega
  | ⟨1, _⟩ => show win0_4.index t (1 : Fin 2) * 1024 + 1 * (y 1).val = (y 1).val; rw [a41]; omega

/-- The value weight window's block at any point is the whole array. -/
theorem blk5_apply (c : Dev nD) (t : Fin cfg0.N) (y : S1024x1024.Idx) :
    (iblk0 V c 5 t : Vec Ideal S1024x1024 .bf16) y = (V c main_v3 : S1024x1024.Idx → EReal) y := by
  obtain ⟨a10, a11, a20, a21, a30, a31, a40, a41, a50, a51, a60, a61⟩ := idx_facts0_const t
  unfold iblk0
  rw [View.read_apply]
  show V c main_v3 _ = V c main_v3 _
  congr 1
  funext a
  apply Fin.ext
  match a with
  | ⟨0, _⟩ => show win0_5.index t (0 : Fin 2) * 1024 + 1 * (y 0).val = (y 0).val; rw [a50]; omega
  | ⟨1, _⟩ => show win0_5.index t (1 : Fin 2) * 1024 + 1 * (y 1).val = (y 1).val; rw [a51]; omega

/-- The value bias window's block at any point is the whole array. -/
theorem blk6_apply (c : Dev nD) (t : Fin cfg0.N) (y : S1x1024.Idx) :
    (iblk0 V c 6 t : Vec Ideal S1x1024 .f32) y = (V c main_v7 : S1x1024.Idx → EReal) y := by
  obtain ⟨a10, a11, a20, a21, a30, a31, a40, a41, a50, a51, a60, a61⟩ := idx_facts0_const t
  unfold iblk0
  rw [View.read_apply]
  show V c main_v7 _ = V c main_v7 _
  congr 1
  funext a
  apply Fin.ext
  match a with
  | ⟨0, _⟩ => show win0_6.index t (0 : Fin 2) * 1 + 1 * (y 0).val = (y 0).val; rw [a60]; omega
  | ⟨1, _⟩ => show win0_6.index t (1 : Fin 2) * 1024 + 1 * (y 1).val = (y 1).val; rw [a61]; omega

/-! ## The payloads at the blocks -/

/-- The q payload of point `t`'s blocks at a tile index is the linear layer at the array index that tile index sits at. -/
theorem q_block (c : Dev nD) (t : Fin cfg0.N) (j : S1x256x1024.Idx) (i : S8x2048x1024.Idx)
    (h0 : (i 0).val = t.val / 8) (h1 : (i 1).val = (t.val % 8) * 256 + (j 1).val) (h2 : (i 2).val = (j 2).val) :
    k0_pay5 (F := Ideal) (iblk0 V c 0 t) (iblk0 V c 1 t) (iblk0 V c 2 t) j
      = projArr (V c main_v0) (V c main_v1) (V c main_v5) i := by
  obtain ⟨j0, r, h, rfl⟩ : ∃ (j0 : Fin 1) (r : Fin 256) (h : Fin 1024), j = ix3 j0 r h := ⟨j 0, j 1, j 2, eq_ix3 j⟩
  obtain rfl : j0 = 0 := Subsingleton.elim _ _
  obtain ⟨n, s, h', rfl⟩ : ∃ (n : Fin 8) (s : Fin 2048) (h' : Fin 1024), i = ix3 n s h' := ⟨i 0, i 1, i 2, eq_ix3 i⟩
  obtain rfl : h' = h := Fin.ext h2
  refine (qPay_apply _ _ _ r h').trans ?_
  rw [projArr_ix3]
  unfold Cert.AttnSpec.proj
  congr 1
  · refine Finset.sum_congr rfl fun d _ => ?_
    congr 1
    · exact xblk_apply V c t _ _ h0 h1 rfl
    · exact blk1_apply V c t _
  · exact blk2_apply V c t _

/-- The k payload of point `t`'s blocks at a tile index is the linear layer at the array index that tile index sits at. -/
theorem k_block (c : Dev nD) (t : Fin cfg0.N) (j : S1x256x1024.Idx) (i : S8x2048x1024.Idx)
    (h0 : (i 0).val = t.val / 8) (h1 : (i 1).val = (t.val % 8) * 256 + (j 1).val) (h2 : (i 2).val = (j 2).val) :
    k0_pay1 (F := Ideal) (k0_pay6 (iblk0 V c 0 t) (iblk0 V c 3 t) (iblk0 V c 4 t)) j
      = projArr (V c main_v0) (V c main_v2) (V c main_v6) i := by
  obtain ⟨j0, r, h, rfl⟩ : ∃ (j0 : Fin 1) (r : Fin 256) (h : Fin 1024), j = ix3 j0 r h := ⟨j 0, j 1, j 2, eq_ix3 j⟩
  obtain rfl : j0 = 0 := Subsingleton.elim _ _
  obtain ⟨n, s, h', rfl⟩ : ∃ (n : Fin 8) (s : Fin 2048) (h' : Fin 1024), i = ix3 n s h' := ⟨i 0, i 1, i 2, eq_ix3 i⟩
  obtain rfl : h' = h := Fin.ext h2
  refine (kPay_apply _ _ _ r h').trans ?_
  rw [projArr_ix3]
  unfold Cert.AttnSpec.proj
  congr 1
  · refine Finset.sum_congr rfl fun d _ => ?_
    congr 1
    · exact xblk_apply V c t _ _ h0 h1 rfl
    · exact blk3_apply V c t _
  · exact blk4_apply V c t _

/-- The v payload of point `t`'s blocks at a tile index is the linear layer at the array index that tile index sits at. -/
theorem v_block (c : Dev nD) (t : Fin cfg0.N) (j : S1x256x1024.Idx) (i : S8x2048x1024.Idx)
    (h0 : (i 0).val = t.val / 8) (h1 : (i 1).val = (t.val % 8) * 256 + (j 1).val) (h2 : (i 2).val = (j 2).val) :
    k0_pay2 (F := Ideal) (k0_pay4 (iblk0 V c 0 t) (iblk0 V c 5 t) (iblk0 V c 6 t)) j
      = projArr (V c main_v0) (V c main_v3) (V c main_v7) i := by
  obtain ⟨j0, r, h, rfl⟩ : ∃ (j0 : Fin 1) (r : Fin 256) (h : Fin 1024), j = ix3 j0 r h := ⟨j 0, j 1, j 2, eq_ix3 j⟩
  obtain rfl : j0 = 0 := Subsingleton.elim _ _
  obtain ⟨n, s, h', rfl⟩ : ∃ (n : Fin 8) (s : Fin 2048) (h' : Fin 1024), i = ix3 n s h' := ⟨i 0, i 1, i 2, eq_ix3 i⟩
  obtain rfl : h' = h := Fin.ext h2
  refine (vPay_apply _ _ _ r h').trans ?_
  rw [projArr_ix3]
  unfold Cert.AttnSpec.proj
  congr 1
  · refine Finset.sum_congr rfl fun d _ => ?_
    congr 1
    · exact xblk_apply V c t _ _ h0 h1 rfl
    · exact blk5_apply V c t _
  · exact blk6_apply V c t _

/-! ## The query array (output window 7) -/

/-- What point `t` writes back is block `t` of the linear layer of the arrays the region found. -/
theorem q_flushed (c : Dev nD) (t : Fin cfg0.N) :
    (dat0 (F := Ideal) V c).flushed 7 t
      = ((cfg0.win 7).blk t).view.read (Elt Ideal) (projArr (V c main_v0) (V c main_v1) (V c main_v5)) := by
  show (cfg0.win 7).cut (grid0.coords t) ((dat0 (F := Ideal) V c).after 7 t) = _
  rw [after0_7]
  unfold qOut
  rw [View.canon_unit_zero zeros3]
  simp only [View.ld_unit_zero (S := S1x256x1024) zeros3, View.ld_unit_zero (S := S1024x1024) zeros2, View.ld_unit_zero (S := S1x1024) zeros2]
  obtain ⟨-, -, -, q0, q1, q2, k0, k1, k2, v0, v1, v2⟩ := idx_facts0 t
  funext j
  show k0_pay5 (F := Ideal) (iblk0 V c 0 t) (iblk0 V c 1 t) (iblk0 V c 2 t) j
    = projArr (V c main_v0) (V c main_v1) (V c main_v5) (((cfg0.win 7).blk t).view.emb j)
  have hj0 : (j 0).val < 1 := (j 0).isLt
  exact q_block V c t j _
    (by show win0_7.index t (0 : Fin 3) * 1 + 1 * (j 0).val = _; rw [q0]; omega)
    (by show win0_7.index t (1 : Fin 3) * 256 + 1 * (j 1).val = _; rw [q1]; omega)
    (by show win0_7.index t (2 : Fin 3) * 1024 + 1 * (j 2).val = _; rw [q2]; omega)

/-- An index of the array is in point `t`'s block iff each coordinate is in the block's range on its axis. -/
theorem q_mem_blk (t : Fin cfg0.N) (i : S8x2048x1024.Idx) :
    i ∈ ((cfg0.win 7).blk t).view.set ↔ ∀ a : Fin 3, win0_7.index t a * S1x256x1024.size a ≤ (i a).val
      ∧ (i a).val < win0_7.index t a * S1x256x1024.size a + S1x256x1024.size a := by
  show i ∈ ((View.whole main_v9_0).slice (win0_7.rect t)).set ↔ _
  rw [View.set_slice_whole, Rect.mem_set_unit]
  exact Iff.rfl

/-- Every index `(n, s, h)` is in the block of the point `8·n + s / 256`. -/
theorem q_cover (i : S8x2048x1024.Idx) :
    ∃ t : Fin cfg0.N, (cfg0.win 7).flush t = true ∧ i ∈ ((cfg0.win 7).blk t).view.set := by
  have hi0 : (i 0).val < 8 := (i 0).isLt
  have hi1 : (i 1).val < 2048 := (i 1).isLt
  have hi2 : (i 2).val < 1024 := (i 2).isLt
  have hN : cfg0.N = 64 := N_0
  obtain ⟨t, ht⟩ : ∃ t : Fin cfg0.N, t.val = (i 0).val * 8 + (i 1).val / 256 := ⟨⟨(i 0).val * 8 + (i 1).val / 256, by omega⟩, rfl⟩
  obtain ⟨-, -, -, q0, q1, q2, k0, k1, k2, v0, v1, v2⟩ := idx_facts0 t
  refine ⟨t, flush0_7 t, ?_⟩
  rw [q_mem_blk]
  intro a
  match a with
  | ⟨0, _⟩ => show win0_7.index t (0 : Fin 3) * 1 ≤ (i 0).val ∧ (i 0).val < win0_7.index t (0 : Fin 3) * 1 + 1; rw [q0]; omega
  | ⟨1, _⟩ => show win0_7.index t (1 : Fin 3) * 256 ≤ (i 1).val ∧ (i 1).val < win0_7.index t (1 : Fin 3) * 256 + 256; rw [q1]; omega
  | ⟨2, _⟩ => show win0_7.index t (2 : Fin 3) * 1024 ≤ (i 2).val ∧ (i 2).val < win0_7.index t (2 : Fin 3) * 1024 + 1024; rw [q2]; omega

/-- The query array after the region's last point, index by index. -/
theorem q_final (c : Dev nD) (n : Fin 8) (s : Fin 2048) (h : Fin 1024) :
    (dat0 (F := Ideal) V c).arrAt 7 cfg0.N (ValueIdx.ix3 n s h)
      = Cert.AttnSpec.proj (fun n s d => V c main_v0 (ValueIdx.ix3 n s d)) (fun h d => V c main_v1 (ValueIdx.ix2 h d))
          (fun h => V c main_v5 (ValueIdx.ix2 0 h)) n s h := by
  rw [(dat0 (F := Ideal) V c).arrAt_eq_of_cover 7 (projArr (V c main_v0) (V c main_v1) (V c main_v5))
    (fun t _ => q_flushed V c t) q_cover]
  rfl

/-! ## The key array (output window 8) -/

/-- What point `t` writes back is block `t` of the linear layer of the arrays the region found. -/
theorem k_flushed (c : Dev nD) (t : Fin cfg0.N) :
    (dat0 (F := Ideal) V c).flushed 8 t
      = ((cfg0.win 8).blk t).view.read (Elt Ideal) (projArr (V c main_v0) (V c main_v2) (V c main_v6)) := by
  show (cfg0.win 8).cut (grid0.coords t) ((dat0 (F := Ideal) V c).after 8 t) = _
  rw [after0_8]
  unfold kOut
  rw [View.canon_unit_zero zeros3]
  simp only [View.ld_unit_zero (S := S1x256x1024) zeros3, View.ld_unit_zero (S := S1024x1024) zeros2, View.ld_unit_zero (S := S1x1024) zeros2]
  obtain ⟨-, -, -, q0, q1, q2, k0, k1, k2, v0, v1, v2⟩ := idx_facts0 t
  funext j
  show k0_pay1 (F := Ideal) (k0_pay6 (iblk0 V c 0 t) (iblk0 V c 3 t) (iblk0 V c 4 t)) j
    = projArr (V c main_v0) (V c main_v2) (V c main_v6) (((cfg0.win 8).blk t).view.emb j)
  have hj0 : (j 0).val < 1 := (j 0).isLt
  exact k_block V c t j _
    (by show win0_8.index t (0 : Fin 3) * 1 + 1 * (j 0).val = _; rw [k0]; omega)
    (by show win0_8.index t (1 : Fin 3) * 256 + 1 * (j 1).val = _; rw [k1]; omega)
    (by show win0_8.index t (2 : Fin 3) * 1024 + 1 * (j 2).val = _; rw [k2]; omega)

/-- An index of the array is in point `t`'s block iff each coordinate is in the block's range on its axis. -/
theorem k_mem_blk (t : Fin cfg0.N) (i : S8x2048x1024.Idx) :
    i ∈ ((cfg0.win 8).blk t).view.set ↔ ∀ a : Fin 3, win0_8.index t a * S1x256x1024.size a ≤ (i a).val
      ∧ (i a).val < win0_8.index t a * S1x256x1024.size a + S1x256x1024.size a := by
  show i ∈ ((View.whole main_v9_1).slice (win0_8.rect t)).set ↔ _
  rw [View.set_slice_whole, Rect.mem_set_unit]
  exact Iff.rfl

/-- Every index `(n, s, h)` is in the block of the point `8·n + s / 256`. -/
theorem k_cover (i : S8x2048x1024.Idx) :
    ∃ t : Fin cfg0.N, (cfg0.win 8).flush t = true ∧ i ∈ ((cfg0.win 8).blk t).view.set := by
  have hi0 : (i 0).val < 8 := (i 0).isLt
  have hi1 : (i 1).val < 2048 := (i 1).isLt
  have hi2 : (i 2).val < 1024 := (i 2).isLt
  have hN : cfg0.N = 64 := N_0
  obtain ⟨t, ht⟩ : ∃ t : Fin cfg0.N, t.val = (i 0).val * 8 + (i 1).val / 256 := ⟨⟨(i 0).val * 8 + (i 1).val / 256, by omega⟩, rfl⟩
  obtain ⟨-, -, -, q0, q1, q2, k0, k1, k2, v0, v1, v2⟩ := idx_facts0 t
  refine ⟨t, flush0_8 t, ?_⟩
  rw [k_mem_blk]
  intro a
  match a with
  | ⟨0, _⟩ => show win0_8.index t (0 : Fin 3) * 1 ≤ (i 0).val ∧ (i 0).val < win0_8.index t (0 : Fin 3) * 1 + 1; rw [k0]; omega
  | ⟨1, _⟩ => show win0_8.index t (1 : Fin 3) * 256 ≤ (i 1).val ∧ (i 1).val < win0_8.index t (1 : Fin 3) * 256 + 256; rw [k1]; omega
  | ⟨2, _⟩ => show win0_8.index t (2 : Fin 3) * 1024 ≤ (i 2).val ∧ (i 2).val < win0_8.index t (2 : Fin 3) * 1024 + 1024; rw [k2]; omega

/-- The key array after the region's last point, index by index. -/
theorem k_final (c : Dev nD) (n : Fin 8) (s : Fin 2048) (h : Fin 1024) :
    (dat0 (F := Ideal) V c).arrAt 8 cfg0.N (ValueIdx.ix3 n s h)
      = Cert.AttnSpec.proj (fun n s d => V c main_v0 (ValueIdx.ix3 n s d)) (fun h d => V c main_v2 (ValueIdx.ix2 h d))
          (fun h => V c main_v6 (ValueIdx.ix2 0 h)) n s h := by
  rw [(dat0 (F := Ideal) V c).arrAt_eq_of_cover 8 (projArr (V c main_v0) (V c main_v2) (V c main_v6))
    (fun t _ => k_flushed V c t) k_cover]
  rfl

/-! ## The value array (output window 9) -/

/-- What point `t` writes back is block `t` of the linear layer of the arrays the region found. -/
theorem v_flushed (c : Dev nD) (t : Fin cfg0.N) :
    (dat0 (F := Ideal) V c).flushed 9 t
      = ((cfg0.win 9).blk t).view.read (Elt Ideal) (projArr (V c main_v0) (V c main_v3) (V c main_v7)) := by
  show (cfg0.win 9).cut (grid0.coords t) ((dat0 (F := Ideal) V c).after 9 t) = _
  rw [after0_9]
  unfold vOut
  rw [View.canon_unit_zero zeros3]
  simp only [View.ld_unit_zero (S := S1x256x1024) zeros3, View.ld_unit_zero (S := S1024x1024) zeros2, View.ld_unit_zero (S := S1x1024) zeros2]
  obtain ⟨-, -, -, q0, q1, q2, k0, k1, k2, v0, v1, v2⟩ := idx_facts0 t
  funext j
  show k0_pay2 (F := Ideal) (k0_pay4 (iblk0 V c 0 t) (iblk0 V c 5 t) (iblk0 V c 6 t)) j
    = projArr (V c main_v0) (V c main_v3) (V c main_v7) (((cfg0.win 9).blk t).view.emb j)
  have hj0 : (j 0).val < 1 := (j 0).isLt
  exact v_block V c t j _
    (by show win0_9.index t (0 : Fin 3) * 1 + 1 * (j 0).val = _; rw [v0]; omega)
    (by show win0_9.index t (1 : Fin 3) * 256 + 1 * (j 1).val = _; rw [v1]; omega)
    (by show win0_9.index t (2 : Fin 3) * 1024 + 1 * (j 2).val = _; rw [v2]; omega)

/-- An index of the array is in point `t`'s block iff each coordinate is in the block's range on its axis. -/
theorem v_mem_blk (t : Fin cfg0.N) (i : S8x2048x1024.Idx) :
    i ∈ ((cfg0.win 9).blk t).view.set ↔ ∀ a : Fin 3, win0_9.index t a * S1x256x1024.size a ≤ (i a).val
      ∧ (i a).val < win0_9.index t a * S1x256x1024.size a + S1x256x1024.size a := by
  show i ∈ ((View.whole main_v9_2).slice (win0_9.rect t)).set ↔ _
  rw [View.set_slice_whole, Rect.mem_set_unit]
  exact Iff.rfl

/-- Every index `(n, s, h)` is in the block of the point `8·n + s / 256`. -/
theorem v_cover (i : S8x2048x1024.Idx) :
    ∃ t : Fin cfg0.N, (cfg0.win 9).flush t = true ∧ i ∈ ((cfg0.win 9).blk t).view.set := by
  have hi0 : (i 0).val < 8 := (i 0).isLt
  have hi1 : (i 1).val < 2048 := (i 1).isLt
  have hi2 : (i 2).val < 1024 := (i 2).isLt
  have hN : cfg0.N = 64 := N_0
  obtain ⟨t, ht⟩ : ∃ t : Fin cfg0.N, t.val = (i 0).val * 8 + (i 1).val / 256 := ⟨⟨(i 0).val * 8 + (i 1).val / 256, by omega⟩, rfl⟩
  obtain ⟨-, -, -, q0, q1, q2, k0, k1, k2, v0, v1, v2⟩ := idx_facts0 t
  refine ⟨t, flush0_9 t, ?_⟩
  rw [v_mem_blk]
  intro a
  match a with
  | ⟨0, _⟩ => show win0_9.index t (0 : Fin 3) * 1 ≤ (i 0).val ∧ (i 0).val < win0_9.index t (0 : Fin 3) * 1 + 1; rw [v0]; omega
  | ⟨1, _⟩ => show win0_9.index t (1 : Fin 3) * 256 ≤ (i 1).val ∧ (i 1).val < win0_9.index t (1 : Fin 3) * 256 + 256; rw [v1]; omega
  | ⟨2, _⟩ => show win0_9.index t (2 : Fin 3) * 1024 ≤ (i 2).val ∧ (i 2).val < win0_9.index t (2 : Fin 3) * 1024 + 1024; rw [v2]; omega

/-- The value array after the region's last point, index by index. -/
theorem v_final (c : Dev nD) (n : Fin 8) (s : Fin 2048) (h : Fin 1024) :
    (dat0 (F := Ideal) V c).arrAt 9 cfg0.N (ValueIdx.ix3 n s h)
      = Cert.AttnSpec.proj (fun n s d => V c main_v0 (ValueIdx.ix3 n s d)) (fun h d => V c main_v3 (ValueIdx.ix2 h d))
          (fun h => V c main_v7 (ValueIdx.ix2 0 h)) n s h := by
  rw [(dat0 (F := Ideal) V c).arrAt_eq_of_cover 9 (projArr (V c main_v0) (V c main_v3) (V c main_v7))
    (fun t _ => v_flushed V c t) v_cover]
  rfl

end Cert.KernelIdeal.Hand

end
-- ==== Proof.Bridge.lean ====
/-
  The program's result array, read off the last valuation of the run, is the specification's result of the ten
  argument arrays.

  Entry (n, o) of the result [8, 1024] is entry (n, 0, o) of the attention kernel's result array [8, 1, 1024]
  (the closing reshape keeps row-major positions). That array holds what the attention region's pipeline leaves in
  its output window, which is the pooled attention output of the arrays the region was entered from: the three
  projection arrays, the output weight, the output bias row and the table of lengths. The three projection arrays
  are what the projection region's pipeline leaves in its three output windows, each the linear layer of the input
  and of a weight matrix and bias row as the host operations left them; the casts are the identity on extended
  reals and a bias row's entry (0, h) is the bias vector's entry h. The output weight, the output bias row and the
  table of lengths are written by neither region, so the attention region finds them as the host operations left
  them. Substituting, both sides are the same pooled term of the same functions of the argument arrays.
-/
import proofs.«422647_j35725537968569_1_alg».proof.Proof.Halves
import proofs.«422647_j35725537968569_1_alg».proof.Proof.HostReads
import proofs.«422647_j35725537968569_1_alg».proof.Proof.QkvValue
import proofs.«422647_j35725537968569_1_alg».proof.Proof.AttnSpec
import Idealize.ShloMosaic.Lib.ValueIdx

noncomputable section

namespace Cert.KernelIdeal.Hand

open Idealize.ShloMosaic Idealize.ShloMosaic.TcCoe Idealize.ShloMosaic.ValueIdx Idealize.SL.Sem
open Cert.KernelIdeal Cert.KernelIdeal.Gen

namespace Bridge

variable (m : (ℓ : Loc nD τ sig) → Buf (Elt Ideal) ℓ) (c : Dev nD)

/-! ## The attention region's result array -/

/-- In the valuation after the attention region its result array is what its pipeline leaves in output window 5. -/
theorem v10_eq :
    Gen.V3 (F := Ideal) m (outs m half0 half1) c main_v10
      = (dat1 (F := Ideal) (E2 m half0) c).arrAt 5 (cfgM1 (E2 m half0)).N :=
  (E3_v10 m half0 half1 c).trans (W3_arr m half0 half1 c 5)

/-! ## The three projection arrays as the attention region finds them -/

/-- The query array: the linear layer of the launched input, query weight and query bias. -/
theorem q_eq (n : Fin 8) (s : Fin 2048) (h : Fin 1024) :
    E2 m half0 c main_v9_0 (ix3 n s h)
      = Cert.AttnSpec.proj (fun n s d => m ((c.tc : Thread nD τ).loc main_arg0) (ix3 n s d)) (fun h d => m ((c.tc : Thread nD τ).loc main_arg2) (ix2 h d))
          (fun h => m ((c.tc : Thread nD τ).loc main_arg3) (ValueIdx.ix1 h)) n s h := by
  have e : E2 m half0 c main_v9_0 = (dat0 (F := Ideal) (E1 m) c).arrAt 7 cfg0.N :=
    (E2_v9_0 m half0 c).trans (W2_arr m half0 c 7)
  have hx : (fun (n : Fin 8) (s : Fin 2048) (d : Fin 1024) => E1 m c main_v0 (ix3 n s d))
      = fun n s d => m ((c.tc : Thread nD τ).loc main_arg0) (ix3 n s d) :=
    funext fun n => funext fun s => funext fun d => V1_v0 m c (ix3 n s d)
  have hw : (fun (h d : Fin 1024) => E1 m c main_v1 (ix2 h d))
      = fun h d => m ((c.tc : Thread nD τ).loc main_arg2) (ix2 h d) :=
    funext fun h => funext fun d => V1_v1 m c (ix2 h d)
  have hb : (fun (h : Fin 1024) => E1 m c main_v5 (ix2 0 h))
      = fun h => m ((c.tc : Thread nD τ).loc main_arg3) (ValueIdx.ix1 h) :=
    funext fun h => V1_v5 m c h
  rw [e, q_final (E1 m) c n s h, hx, hw, hb]

/-- The key array: the linear layer of the launched input, key weight and key bias. -/
theorem k_eq (n : Fin 8) (s : Fin 2048) (h : Fin 1024) :
    E2 m half0 c main_v9_1 (ix3 n s h)
      = Cert.AttnSpec.proj (fun n s d => m ((c.tc : Thread nD τ).loc main_arg0) (ix3 n s d)) (fun h d => m ((c.tc : Thread nD τ).loc main_arg4) (ix2 h d))
          (fun h => m ((c.tc : Thread nD τ).loc main_arg5) (ValueIdx.ix1 h)) n s h := by
  have e : E2 m half0 c main_v9_1 = (dat0 (F := Ideal) (E1 m) c).arrAt 8 cfg0.N :=
    (E2_v9_1 m half0 c).trans (W2_arr m half0 c 8)
  have hx : (fun (n : Fin 8) (s : Fin 2048) (d : Fin 1024) => E1 m c main_v0 (ix3 n s d))
      = fun n s d => m ((c.tc : Thread nD τ).loc main_arg0) (ix3 n s d) :=
    funext fun n => funext fun s => funext fun d => V1_v0 m c (ix3 n s d)
  have hw : (fun (h d : Fin 1024) => E1 m c main_v2 (ix2 h d))
      = fun h d => m ((c.tc : Thread nD τ).loc main_arg4) (ix2 h d) :=
    funext fun h => funext fun d => V1_v2 m c (ix2 h d)
  have hb : (fun (h : Fin 1024) => E1 m c main_v6 (ix2 0 h))
      = fun h => m ((c.tc : Thread nD τ).loc main_arg5) (ValueIdx.ix1 h) :=
    funext fun h => V1_v6 m c h
  rw [e, k_final (E1 m) c n s h, hx, hw, hb]

/-- The value array: the linear layer of the launched input, value weight and value bias. -/
theorem v_eq (n : Fin 8) (s : Fin 2048) (h : Fin 1024) :
    E2 m half0 c main_v9_2 (ix3 n s h)
      = Cert.AttnSpec.proj (fun n s d => m ((c.tc : Thread nD τ).loc main_arg0) (ix3 n s d)) (fun h d => m ((c.tc : Thread nD τ).loc main_arg6) (ix2 h d))
          (fun h => m ((c.tc : Thread nD τ).loc main_arg7) (ValueIdx.ix1 h)) n s h := by
  have e : E2 m half0 c main_v9_2 = (dat0 (F := Ideal) (E1 m) c).arrAt 9 cfg0.N :=
    (E2_v9_2 m half0 c).trans (W2_arr m half0 c 9)
  have hx : (fun (n : Fin 8) (s : Fin 2048) (d : Fin 1024) => E1 m c main_v0 (ix3 n s d))
      = fun n s d => m ((c.tc : Thread nD τ).loc main_arg0) (ix3 n s d) :=
    funext fun n => funext fun s => funext fun d => V1_v0 m c (ix3 n s d)
  have hw : (fun (h d : Fin 1024) => E1 m c main_v3 (ix2 h d))
      = fun h d => m ((c.tc : Thread nD τ).loc main_arg6) (ix2 h d) :=
    funext fun h => funext fun d => V1_v3 m c (ix2 h d)
  have hb : (fun (h : Fin 1024) => E1 m c main_v7 (ix2 0 h))
      = fun h => m ((c.tc : Thread nD τ).loc main_arg7) (ValueIdx.ix1 h) :=
    funext fun h => V1_v7 m c h
  rw [e, v_final (E1 m) c n s h, hx, hw, hb]

/-! ## The arrays neither region writes -/

/-- The output weight as the attention region finds it is the one launched. -/
theorem wo_eq (o h : Fin 1024) :
    E2 m half0 c main_v4 (ix2 o h) = m ((c.tc : Thread nD τ).loc main_arg8) (ix2 o h) := by
  have e : E2 m half0 c main_v4 = Gen.V1 m c main_v4 := Gen.V2_of m (outsA m half0) c main_v4 (by decide)
  rw [e]
  exact V1_v4 m c (ix2 o h)

/-- The output bias row's entry (0, o) as the attention region finds it is the launched bias vector's entry o. -/
theorem bo_eq (o : Fin 1024) :
    E2 m half0 c main_v8 (ix2 0 o) = m ((c.tc : Thread nD τ).loc main_arg9) (ValueIdx.ix1 o) := by
  have e : E2 m half0 c main_v8 = Gen.V1 m c main_v8 := Gen.V2_of m (outsA m half0) c main_v8 (by decide)
  rw [e]
  exact V1_v8 m c o

/-- The table of lengths as the attention region finds it is the one launched. -/
theorem lens_eq (n : Fin 8) :
    E2 m half0 c main_arg1 (ValueIdx.ix1 n) = m ((c.tc : Thread nD τ).loc main_arg1) (ValueIdx.ix1 n) := by
  have e : E2 m half0 c main_arg1 = Gen.V1 m c main_arg1 := Gen.V2_of m (outsA m half0) c main_arg1 (by decide)
  rw [e, V1_arg1 m c]

end Bridge

/-- THE RESULT'S VALUE: given the attention region's pooled value at every entry contents, the program's result array
    at the last valuation is the specification's result of the argument arrays as launched. -/
theorem result_value (m : (ℓ : Loc nD τ sig) → Buf (Elt Ideal) ℓ)
    (hpool : ∀ (V : EntryV Ideal) (c : Dev nD) (n : Fin 8) (o : Fin 1024),
      (dat1 (F := Ideal) V c).arrAt 5 (cfgM1 V).N (ValueIdx.ix3 n 0 o)
        = Cert.AttnSpec.pooled (fun n s h => V c main_v9_0 (ValueIdx.ix3 n s h)) (fun n s h => V c main_v9_1 (ValueIdx.ix3 n s h))
            (fun n s h => V c main_v9_2 (ValueIdx.ix3 n s h)) (fun o h => V c main_v4 (ValueIdx.ix2 o h))
            (fun o => V c main_v8 (ValueIdx.ix2 0 o)) (fun n => V c main_arg1 (ValueIdx.ix1 n)) n o)
    (c : Dev nD) :
    Gen.V4 (F := Ideal) m (outs m half0 half1) c main_v11
      = Cert.AttnSpec.result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  refine funext fun (i : S8x1024.Idx) => ?_
  obtain ⟨n, o, rfl⟩ : ∃ (n : Fin 8) (o : Fin 1024), i = ix2 n o := ⟨i 0, i 1, eq_ix2 i⟩
  have hq : (fun (n : Fin 8) (s : Fin 2048) (h : Fin 1024) => E2 m half0 c main_v9_0 (ix3 n s h))
      = Cert.AttnSpec.proj (fun n s d => m ((c.tc : Thread nD τ).loc main_arg0) (ix3 n s d)) (fun h d => m ((c.tc : Thread nD τ).loc main_arg2) (ix2 h d))
          (fun h => m ((c.tc : Thread nD τ).loc main_arg3) (ValueIdx.ix1 h)) :=
    funext fun n => funext fun s => funext fun h => Bridge.q_eq m c n s h
  have hk : (fun (n : Fin 8) (s : Fin 2048) (h : Fin 1024) => E2 m half0 c main_v9_1 (ix3 n s h))
      = Cert.AttnSpec.proj (fun n s d => m ((c.tc : Thread nD τ).loc main_arg0) (ix3 n s d)) (fun h d => m ((c.tc : Thread nD τ).loc main_arg4) (ix2 h d))
          (fun h => m ((c.tc : Thread nD τ).loc main_arg5) (ValueIdx.ix1 h)) :=
    funext fun n => funext fun s => funext fun h => Bridge.k_eq m c n s h
  have hv : (fun (n : Fin 8) (s : Fin 2048) (h : Fin 1024) => E2 m half0 c main_v9_2 (ix3 n s h))
      = Cert.AttnSpec.proj (fun n s d => m ((c.tc : Thread nD τ).loc main_arg0) (ix3 n s d)) (fun h d => m ((c.tc : Thread nD τ).loc main_arg6) (ix2 h d))
          (fun h => m ((c.tc : Thread nD τ).loc main_arg7) (ValueIdx.ix1 h)) :=
    funext fun n => funext fun s => funext fun h => Bridge.v_eq m c n s h
  have hW : (fun (o h : Fin 1024) => E2 m half0 c main_v4 (ix2 o h))
      = fun o h => m ((c.tc : Thread nD τ).loc main_arg8) (ix2 o h) :=
    funext fun o => funext fun h => Bridge.wo_eq m c o h
  have hB : (fun (o : Fin 1024) => E2 m half0 c main_v8 (ix2 0 o))
      = fun o => m ((c.tc : Thread nD τ).loc main_arg9) (ValueIdx.ix1 o) :=
    funext fun o => Bridge.bo_eq m c o
  have hL : (fun (n : Fin 8) => E2 m half0 c main_arg1 (ValueIdx.ix1 n))
      = fun n => m ((c.tc : Thread nD τ).loc main_arg1) (ValueIdx.ix1 n) :=
    funext fun n => Bridge.lens_eq m c n
  rw [V4_v11 m c (outs m half0 half1) n o, Bridge.v10_eq m c, hpool (E2 m half0) c n o, hq, hk, hv, hW, hB, hL]
  rfl

end Cert.KernelIdeal.Hand

end
-- ==== Proof.RefValue.lean ====
/-
  The reference program's result array at the ideal instance is the attention-pool specification.

  The program is a chain of array operations. Each lemma below reads one group of them at explicit coordinates
  (batch entry `n`, query position `s`, key position `t`, feature `h` or `o`) and identifies it with the matching
  function of the specification:
    * the three linear layers: a contraction over the input features plus a bias broadcast along entry and position;
    * the scores: the contraction of a query row with a key row times the scale word, replaced by the fill word where
      the key position (an iota read as a 32-bit word) is at or past the entry's length in signed comparison;
    * the row maximum: the one-axis maximum reduction is the fold of `max` over the key positions from the -∞ word,
      and the program joins it once more with -∞;
    * the weights: the exponential of score minus maximum, divided by the row's sum; a sum started from the zero
      word is the plain sum (`0 + ∑ = ∑`);
    * the attended row, the output layer, and the mean over positions as a sum divided by the word of 2048.
  The index functions the layout operations compose (a broadcast along new axes, the two operands of a contraction,
  an axis put back after a reduction) are identified with coordinate tuples once each, axis by axis.
-/
import proofs.«422647_j35725537968569_1_alg».proof.Proof.Gen.ReferenceIdeal.Run
import proofs.«422647_j35725537968569_1_alg».proof.Proof.Gen.ReferenceIdeal.Read
import proofs.«422647_j35725537968569_1_alg».proof.Proof.AttnSpec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx
open Cert.AttnSpec

/-! ## The argument arrays, typed as the stages take them -/

abbrev T3 : Type := (⟨S8x2048x1024, .f32⟩ : BufTy).Contents (Elt Ideal)
abbrev TW : Type := (⟨S1024x1024, .f32⟩ : BufTy).Contents (Elt Ideal)
abbrev TB : Type := (⟨S1024, .f32⟩ : BufTy).Contents (Elt Ideal)
abbrev TL : Type := (⟨S8, .i32⟩ : BufTy).Contents (Elt Ideal)

/-- A linear layer of the input array `x0` with weight array `w` and bias array `b`, by coordinates. -/
abbrev lin (x0 : T3) (w : TW) (b : TB) : Fin 8 → Fin 2048 → Fin 1024 → EReal :=
  proj (fun n s d => x0 (ix3 n s d)) (fun h d => w (ix2 h d)) (fun h => b (ix1 h))

/-- The valid length of batch entry `n`. -/
abbrev len (x1 : TL) : Fin 8 → BitVec 32 := fun n => x1 (ix1 n)

/-! ## Index equations: the composed index functions of the stages at coordinates -/

theorem lidx0 (n : Fin 8) (s : Fin 2048) (h k : Fin 1024) : lidx_main_v0 (ix3 n s h) k = ix3 n s k :=
  funext fun a => Fin.ext (by match a with | ⟨0, _⟩ => rfl | ⟨1, _⟩ => rfl | ⟨2, _⟩ => rfl)
theorem ridx0 (n : Fin 8) (s : Fin 2048) (h k : Fin 1024) : ridx_main_v0 (ix3 n s h) k = ix2 h k :=
  funext fun a => Fin.ext (by match a with | ⟨0, _⟩ => rfl | ⟨1, _⟩ => rfl)
theorem bidx2 (n : Fin 8) (s : Fin 2048) (h : Fin 1024) : idx_main_v1 (idx_main_v2 (ix3 n s h)) = ix1 h :=
  funext fun a => Fin.ext (by match a with | ⟨0, _⟩ => rfl)

theorem lidx4 (n : Fin 8) (s : Fin 2048) (h k : Fin 1024) : lidx_main_v4 (ix3 n s h) k = ix3 n s k :=
  funext fun a => Fin.ext (by match a with | ⟨0, _⟩ => rfl | ⟨1, _⟩ => rfl | ⟨2, _⟩ => rfl)
theorem ridx4 (n : Fin 8) (s : Fin 2048) (h k : Fin 1024) : ridx_main_v4 (ix3 n s h) k = ix2 h k :=
  funext fun a => Fin.ext (by match a with | ⟨0, _⟩ => rfl | ⟨1, _⟩ => rfl)
theorem bidx6 (n : Fin 8) (s : Fin 2048) (h : Fin 1024) : idx_main_v5 (idx_main_v6 (ix3 n s h)) = ix1 h :=
  funext fun a => Fin.ext (by match a with | ⟨0, _⟩ => rfl)

theorem lidx8 (n : Fin 8) (s : Fin 2048) (h k : Fin 1024) : lidx_main_v8 (ix3 n s h) k = ix3 n s k :=
  funext fun a => Fin.ext (by match a with | ⟨0, _⟩ => rfl | ⟨1, _⟩ => rfl | ⟨2, _⟩ => rfl)
theorem ridx8 (n : Fin 8) (s : Fin 2048) (h k : Fin 1024) : ridx_main_v8 (ix3 n s h) k = ix2 h k :=
  funext fun a => Fin.ext (by match a with | ⟨0, _⟩ => rfl | ⟨1, _⟩ => rfl)
theorem bidx10 (n : Fin 8) (s : Fin 2048) (h : Fin 1024) : idx_main_v9 (idx_main_v10 (ix3 n s h)) = ix1 h :=
  funext fun a => Fin.ext (by match a with | ⟨0, _⟩ => rfl)

/-! ## The three projections -/

/-- The query projection: a contraction over the input features plus the broadcast bias. -/
theorem q_eq (x0 : T3) (x2 : TW) (x3 : TB) (n : Fin 8) (s : Fin 2048) (h : Fin 1024) :
    val_main_v3 (F := Ideal) x0 x2 x3 (ix3 n s h) = lin x0 x2 x3 n s h := by
  rw [val_main_v3_apply, val_main_v0_apply, val_main_v2_apply, val_main_v1_apply, bidx2]
  have hs : (∑ k : Fin 1024, x0 (lidx_main_v0 (ix3 n s h) k) * x2 (ridx_main_v0 (ix3 n s h) k))
      = ∑ d : Fin 1024, x0 (ix3 n s d) * x2 (ix2 h d) :=
    Finset.sum_congr rfl fun k _ => by rw [lidx0, ridx0]
  rw [hs]
  rfl

/-- The key projection. -/
theorem k_eq (x0 : T3) (x4 : TW) (x5 : TB) (n : Fin 8) (s : Fin 2048) (h : Fin 1024) :
    val_main_v7 (F := Ideal) x0 x4 x5 (ix3 n s h) = lin x0 x4 x5 n s h := by
  rw [val_main_v7_apply, val_main_v4_apply, val_main_v6_apply, val_main_v5_apply, bidx6]
  have hs : (∑ k : Fin 1024, x0 (lidx_main_v4 (ix3 n s h) k) * x4 (ridx_main_v4 (ix3 n s h) k))
      = ∑ d : Fin 1024, x0 (ix3 n s d) * x4 (ix2 h d) :=
    Finset.sum_congr rfl fun k _ => by rw [lidx4, ridx4]
  rw [hs]
  rfl

/-- The value projection. -/
theorem v_eq (x0 : T3) (x6 : TW) (x7 : TB) (n : Fin 8) (s : Fin 2048) (h : Fin 1024) :
    val_main_v11 (F := Ideal) x0 x6 x7 (ix3 n s h) = lin x0 x6 x7 n s h := by
  rw [val_main_v11_apply, val_main_v8_apply, val_main_v10_apply, val_main_v9_apply, bidx10]
  have hs : (∑ k : Fin 1024, x0 (lidx_main_v8 (ix3 n s h) k) * x6 (ridx_main_v8 (ix3 n s h) k))
      = ∑ d : Fin 1024, x0 (ix3 n s d) * x6 (ix2 h d) :=
    Finset.sum_congr rfl fun k _ => by rw [lidx8, ridx8]
  rw [hs]
  rfl

/-! ## The masked, scaled scores -/

theorem lidx12 (n : Fin 8) (s t : Fin 2048) (k : Fin 1024) : lidx_main_v12 (ix3 n s t) k = ix3 n s k :=
  funext fun a => Fin.ext (by match a with | ⟨0, _⟩ => rfl | ⟨1, _⟩ => rfl | ⟨2, _⟩ => rfl)
theorem ridx12 (n : Fin 8) (s t : Fin 2048) (k : Fin 1024) : ridx_main_v12 (ix3 n s t) k = ix3 n t k :=
  funext fun a => Fin.ext (by match a with | ⟨0, _⟩ => rfl | ⟨1, _⟩ => rfl | ⟨2, _⟩ => rfl)
/-- The key position the mask's iota is read at. -/
theorem iota_idx (n : Fin 8) (s t : Fin 2048) :
    ((idx_main_v16 (idx_main_v18 (idx_main_v21 (idx_main_call0_v1 (ix3 n s t))))) 0).val = t.val := rfl
/-- The batch entry the mask's length is read at. -/
theorem len_idx (n : Fin 8) (s t : Fin 2048) :
    idx_main_v17 (idx_main_v19 (idx_main_v21 (idx_main_call0_v1 (ix3 n s t)))) = ix1 n :=
  funext fun a => Fin.ext (by match a with | ⟨0, _⟩ => rfl)

/-- The score of query position `s` against key position `t`: the contraction of the two projected rows
    times the scale, replaced by the fill constant where the key position is at or past the entry's length. -/
theorem score_eq (x0 : T3) (x1 : TL) (x2 : TW) (x3 : TB) (x4 : TW) (x5 : TB) (n : Fin 8) (s t : Fin 2048) :
    val_main_v22 (F := Ideal) x0 x1 x2 x3 x4 x5 (ix3 n s t)
      = score (lin x0 x2 x3 n s) (lin x0 x4 x5 n) (len x1 n) t := by
  rw [val_main_v22_apply, val_main_call0_v1_apply, val_main_v21_apply, val_main_v20_apply, val_main_v18_apply,
    val_main_v16_apply, val_main_v15_apply, val_main_v19_apply, val_main_v17_apply, val_main_call0_v2_apply,
    val_main_call0_v0_apply, val_main_cst_0_apply, val_main_v14_apply, val_main_v12_apply, val_main_v13_apply,
    val_main_cst_apply, iota_idx, len_idx]
  have hs : (∑ k : Fin 1024, val_main_v3 (F := Ideal) x0 x2 x3 (lidx_main_v12 (ix3 n s t) k)
        * val_main_v7 (F := Ideal) x0 x4 x5 (ridx_main_v12 (ix3 n s t) k))
      = ∑ h : Fin 1024, lin x0 x2 x3 n s h * lin x0 x4 x5 n t h :=
    Finset.sum_congr rfl fun k _ => by rw [lidx12, ridx12, q_eq, k_eq]
  rw [hs]
  rfl

/-! ## The row maximum -/

/-- Reducing the key axis of the score array leaves (entry, query position). -/
theorem red_keys : S8x2048x2048.Reduces [2] S8x2048 := by decide

/-- The (entry, query position) index with key position `k` put back on the reduced axis. -/
theorem lift_keys (n : Fin 8) (s : Fin 2048) (k : Fin (S8x2048x2048.size 2)) :
    red_keys.lift (ix2 n s) k = ix3 n s (⟨k.val, k.isLt⟩ : Fin 2048) := by
  funext c
  apply Fin.ext
  match c with
  | ⟨0, _⟩ => rfl
  | ⟨1, _⟩ => rfl
  | ⟨2, _⟩ => rfl

/-- The maximum of a query row's scores: the fold of the maximum over the keys from the bottom element,
    joined once more with the bottom element. -/
theorem rowMax_eq (x0 : T3) (x1 : TL) (x2 : TW) (x3 : TB) (x4 : TW) (x5 : TB) (n : Fin 8) (s : Fin 2048) :
    val_main_v25 (F := Ideal) x0 x1 x2 x3 x4 x5 (ix2 n s)
      = rowMax (score (lin x0 x2 x3 n s) (lin x0 x4 x5 n) (len x1 n)) := by
  rw [val_main_v25_apply, val_main_v24_apply, val_main_cst_2_apply]
  unfold val_main_v23
  rw [Host.reduce_eq_fold_single FloatOps.maximumf _ _ reducesTo_S8x2048x2048_S8x2048_d2 red_keys h_S_]
  have hf : (val_main_v22 (F := Ideal) x0 x1 x2 x3 x4 x5 ∘ red_keys.lift (ix2 n s))
      = fun t : Fin 2048 => score (lin x0 x2 x3 n s) (lin x0 x4 x5 n) (len x1 n) t :=
    funext fun k => by
      show val_main_v22 (F := Ideal) x0 x1 x2 x3 x4 x5 (red_keys.lift (ix2 n s) k) = _
      rw [lift_keys, score_eq]
      rfl
  rw [hf]
  rfl

/-! ## The softmax weights -/

theorem max_idx (n : Fin 8) (s t : Fin 2048) : idx_main_v26 (idx_main_v27 (ix3 n s t)) = ix2 n s :=
  funext fun a => Fin.ext (by match a with | ⟨0, _⟩ => rfl | ⟨1, _⟩ => rfl)
theorem den_idx (n : Fin 8) (s t : Fin 2048) : idx_main_v31 (idx_main_v32 (ix3 n s t)) = ix2 n s :=
  funext fun a => Fin.ext (by match a with | ⟨0, _⟩ => rfl | ⟨1, _⟩ => rfl)
theorem idx30 (n : Fin 8) (s : Fin 2048) (k : Fin 2048) : idx_main_v30 (ix2 n s) k = ix3 n s k :=
  funext fun a => Fin.ext (by match a with | ⟨0, _⟩ => rfl | ⟨1, _⟩ => rfl | ⟨2, _⟩ => rfl)

/-- The unnormalised weight: the exponential of the score less the row maximum. -/
theorem expw_eq (x0 : T3) (x1 : TL) (x2 : TW) (x3 : TB) (x4 : TW) (x5 : TB) (n : Fin 8) (s t : Fin 2048) :
    val_main_v29 (F := Ideal) x0 x1 x2 x3 x4 x5 (ix3 n s t)
      = expw (score (lin x0 x2 x3 n s) (lin x0 x4 x5 n) (len x1 n)) t := by
  rw [val_main_v29_apply, val_main_v28_apply, val_main_v27_apply, val_main_v26_apply, max_idx, rowMax_eq, score_eq]
  rfl

/-- The normalised weight: the unnormalised one divided by the row's sum, the sum taken from the zero word. -/
theorem weight_eq (x0 : T3) (x1 : TL) (x2 : TW) (x3 : TB) (x4 : TW) (x5 : TB) (n : Fin 8) (s t : Fin 2048) :
    val_main_v33 (F := Ideal) x0 x1 x2 x3 x4 x5 (ix3 n s t)
      = Ideal.div (expw (score (lin x0 x2 x3 n s) (lin x0 x4 x5 n) (len x1 n)) t)
          (∑ u : Fin 2048, expw (score (lin x0 x2 x3 n s) (lin x0 x4 x5 n) (len x1 n)) u) := by
  rw [val_main_v33_apply, val_main_v32_apply, val_main_v31_apply, den_idx, val_main_v30_apply, val_main_cst_3_apply,
    expw_eq]
  have hs : (∑ k : Fin 2048, val_main_v29 (F := Ideal) x0 x1 x2 x3 x4 x5 (idx_main_v30 (ix2 n s) k))
      = ∑ u : Fin 2048, expw (score (lin x0 x2 x3 n s) (lin x0 x4 x5 n) (len x1 n)) u :=
    Finset.sum_congr rfl fun k _ => by rw [idx30, expw_eq]
  rw [hs, Ideal.ofBits_def, Ideal.ofBits_zero_f32, zero_add]
  rfl

/-! ## Attention, the output projection and the mean -/

theorem lidx34 (n : Fin 8) (s : Fin 2048) (h : Fin 1024) (k : Fin 2048) : lidx_main_v34 (ix3 n s h) k = ix3 n s k :=
  funext fun a => Fin.ext (by match a with | ⟨0, _⟩ => rfl | ⟨1, _⟩ => rfl | ⟨2, _⟩ => rfl)
theorem ridx34 (n : Fin 8) (s : Fin 2048) (h : Fin 1024) (k : Fin 2048) : ridx_main_v34 (ix3 n s h) k = ix3 n k h :=
  funext fun a => Fin.ext (by match a with | ⟨0, _⟩ => rfl | ⟨1, _⟩ => rfl | ⟨2, _⟩ => rfl)
theorem lidx35 (n : Fin 8) (s : Fin 2048) (o k : Fin 1024) : lidx_main_v35 (ix3 n s o) k = ix3 n s k :=
  funext fun a => Fin.ext (by match a with | ⟨0, _⟩ => rfl | ⟨1, _⟩ => rfl | ⟨2, _⟩ => rfl)
theorem ridx35 (n : Fin 8) (s : Fin 2048) (o k : Fin 1024) : ridx_main_v35 (ix3 n s o) k = ix2 o k :=
  funext fun a => Fin.ext (by match a with | ⟨0, _⟩ => rfl | ⟨1, _⟩ => rfl)
theorem bidx37 (n : Fin 8) (s : Fin 2048) (o : Fin 1024) : idx_main_v36 (idx_main_v37 (ix3 n s o)) = ix1 o :=
  funext fun a => Fin.ext (by match a with | ⟨0, _⟩ => rfl)
theorem idx39 (n : Fin 8) (o : Fin 1024) (k : Fin 2048) : idx_main_v39 (ix2 n o) k = ix3 n k o :=
  funext fun a => Fin.ext (by match a with | ⟨0, _⟩ => rfl | ⟨1, _⟩ => rfl | ⟨2, _⟩ => rfl)

/-- One attended row: the weights contracted with the value rows over the key positions. -/
theorem attn_eq (x0 : T3) (x1 : TL) (x2 : TW) (x3 : TB) (x4 : TW) (x5 : TB) (x6 : TW) (x7 : TB)
    (n : Fin 8) (s : Fin 2048) (h : Fin 1024) :
    val_main_v34 (F := Ideal) x0 x1 x2 x3 x4 x5 x6 x7 (ix3 n s h)
      = attnRow (lin x0 x2 x3 n s) (lin x0 x4 x5 n) (lin x0 x6 x7 n) (len x1 n) h := by
  rw [val_main_v34_apply]
  refine Finset.sum_congr rfl fun k _ => ?_
  rw [lidx34, ridx34, weight_eq, v_eq]

/-- What one position contributes to an output feature: the attended row through the output layer. -/
theorem token_eq (x0 : T3) (x1 : TL) (x2 : TW) (x3 : TB) (x4 : TW) (x5 : TB) (x6 : TW) (x7 : TB) (x8 : TW) (x9 : TB)
    (n : Fin 8) (s : Fin 2048) (o : Fin 1024) :
    val_main_v38 (F := Ideal) x0 x1 x2 x3 x4 x5 x6 x7 x8 x9 (ix3 n s o)
      = tokenOut (lin x0 x2 x3) (lin x0 x4 x5) (lin x0 x6 x7) (fun o h => x8 (ix2 o h)) (fun o => x9 (ix1 o)) (len x1) n s o := by
  rw [val_main_v38_apply, val_main_v35_apply, val_main_v37_apply, val_main_v36_apply, bidx37]
  have hs : (∑ k : Fin 1024, val_main_v34 (F := Ideal) x0 x1 x2 x3 x4 x5 x6 x7 (lidx_main_v35 (ix3 n s o) k)
        * x8 (ridx_main_v35 (ix3 n s o) k))
      = ∑ h : Fin 1024, attnRow (lin x0 x2 x3 n s) (lin x0 x4 x5 n) (lin x0 x6 x7 n) (len x1 n) h * x8 (ix2 o h) :=
    Finset.sum_congr rfl fun k _ => by rw [lidx35, ridx35, attn_eq]
  rw [hs]
  rfl

/-- The mean over the positions: their sum, taken from the zero word, divided by the position count. -/
theorem pooled_eq (x0 : T3) (x1 : TL) (x2 : TW) (x3 : TB) (x4 : TW) (x5 : TB) (x6 : TW) (x7 : TB) (x8 : TW) (x9 : TB)
    (n : Fin 8) (o : Fin 1024) :
    val_main_v41 (F := Ideal) x0 x1 x2 x3 x4 x5 x6 x7 x8 x9 (ix2 n o)
      = pooled (lin x0 x2 x3) (lin x0 x4 x5) (lin x0 x6 x7) (fun o h => x8 (ix2 o h)) (fun o => x9 (ix1 o)) (len x1) n o := by
  rw [val_main_v41_apply, val_main_v39_apply, val_main_v40_apply, val_main_cst_5_apply, val_main_cst_4_apply]
  have hs : (∑ k : Fin 2048, val_main_v38 (F := Ideal) x0 x1 x2 x3 x4 x5 x6 x7 x8 x9 (idx_main_v39 (ix2 n o) k))
      = ∑ s : Fin 2048, tokenOut (lin x0 x2 x3) (lin x0 x4 x5) (lin x0 x6 x7) (fun o h => x8 (ix2 o h))
          (fun o => x9 (ix1 o)) (len x1) n s o :=
    Finset.sum_congr rfl fun k _ => by rw [idx39, token_eq]
  rw [hs, Ideal.ofBits_def, Ideal.ofBits_zero_f32, zero_add]
  rfl

/-! ## The reference's result is the specification's -/

theorem result_eq (m : (ℓ : Loc nD τ sig) → Buf (Elt Ideal) ℓ) (c : Dev nD) :
    Cert.ReferenceIdeal.Value.res_main_v41 (F := Ideal) m c
      = Cert.AttnSpec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [Read.val_main_v41_eq]
  funext i
  obtain ⟨n, o, rfl⟩ : ∃ (n : Fin 8) (o : Fin 1024), i = ix2 n o := ⟨i 0, i 1, eq_ix2 i⟩
  rw [pooled_eq]
  rfl

end Cert.ReferenceIdeal.RefValue

end
-- ==== Proof.lean ====
/-
  The certificate of a masked self-attention block with mean pooling: a Pallas kernel pair against its jnp reference,
  over the extended reals.

  Both programs compute, for batch entry n and output feature o,
      mean over the 2048 positions s of  ((softmax_t (q_s · k_t / 32, masked to -1e9 where t ≥ lens n)) · V) · Woᵀ + bo,
  with q, k, v the three linear layers x · Wᵀ + b of the input.
  The kernel program does it in two launches. The first projects x tile by tile (256 rows at a time) into q, k, v.
  The second, per batch entry and query tile, forms the tile's score rows against all 2048 keys, masks, normalises,
  applies them to the values and the output projection, and adds the tile's column sums into a per-entry accumulator
  that is cleared at the first tile and multiplied by 2^-11 at the last. The reference does the same on whole arrays
  and divides the sum over positions by 2048.
  At the ideal instance a change of float format is the identity, so the bf16 casts vanish and both sides are the one
  function `Cert.AttnSpec.result` of the ten argument arrays: the kernel's accumulation is the sum over positions
  split into 8 tiles of 256 (addition on the extended reals is commutative and associative: no finiteness is used),
  and multiplying by 2^-11 is dividing by 2048 on every extended real.

  The frames of the two kernel programs (at the word-level instance and at the ideal one) are one text, generic in
  the float instance: each region's body obligation against proof data naming what every staging buffer holds after
  every grid point, and the run of @main as host operations, region, region, host operation over valuations of the
  unscoped buffers. The reference's frame is its run with the result dropped.
-/
import proofs.«422647_j35725537968569_1_alg».proof.Defs
import proofs.«422647_j35725537968569_1_alg».proof.Proof.Gen.Kernel
import proofs.«422647_j35725537968569_1_alg».proof.Proof.Gen.KernelIdeal
import proofs.«422647_j35725537968569_1_alg».proof.Proof.Gen.ReferenceIdeal
import proofs.«422647_j35725537968569_1_alg».proof.Proof.Gen.Pre_finite_inputs
import proofs.«422647_j35725537968569_1_alg».proof.Proof.Gen.ReferenceIdeal.Run
import proofs.«422647_j35725537968569_1_alg».proof.Proof.Gen.ReferenceIdeal.Read
import proofs.«422647_j35725537968569_1_alg».proof.Proof.Halves
import proofs.«422647_j35725537968569_1_alg».proof.Proof.KHalves
import proofs.«422647_j35725537968569_1_alg».proof.Proof.AttnValue
import proofs.«422647_j35725537968569_1_alg».proof.Proof.Bridge
import proofs.«422647_j35725537968569_1_alg».proof.Proof.RefValue
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel (hKernel := Cert.Kernel.Gen.facts) (hPre_finite_inputs := Cert.Pre_finite_inputs.Gen.facts) :=
  fun m ρ _ => Cert.Kernel.Hand.frame (F := Bits) m Cert.Kernel.Hand.half0 Cert.Kernel.Hand.half1 ρ

/-- So does its reading at the ideal instance. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m Cert.KernelIdeal.Hand.half0 Cert.KernelIdeal.Hand.half1 ρ

/-- The reference's frame: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the ideal instance both programs end with the result array at `Cert.AttnSpec.result` of the argument arrays:
    the kernel's by the two regions' values read through the valuations, the reference's by its run read stage by
    stage; the arguments agree by hypothesis. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.AttnSpec.result
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Hand.result_value m Cert.KernelIdeal.Hand.pooled_final c), (h c).2⟩)
      (Cert.KernelIdeal.Hand.run_result (F := Ideal) m Cert.KernelIdeal.Hand.half0 Cert.KernelIdeal.Hand.half1 ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
